-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x32 : Shape := ⟨2, ![1600000, 32]⟩
abbrev S1024x16 : Shape := ⟨2, ![1024, 16]⟩
abbrev S100000 : Shape := ⟨1, ![100000]⟩
abbrev S160x128 : Shape := ⟨2, ![160, 128]⟩
abbrev S128 : Shape := ⟨1, ![128]⟩
abbrev S128x128 : Shape := ⟨2, ![128, 128]⟩
abbrev S192x128 : Shape := ⟨2, ![192, 128]⟩
abbrev S144x128 : Shape := ⟨2, ![144, 128]⟩
abbrev S128x1 : Shape := ⟨2, ![128, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S1024x16 : S_.BroadcastsInDim S1024x16 (![] : Fin 0 → Fin S1024x16.rank)
  reducesTo_S1024x16_S_d0_1 : S1024x16.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S192x128 : S_.BroadcastsInDim S192x128 (![] : Fin 0 → Fin S192x128.rank)
  reducesTo_S192x128_S_d0_1 : S192x128.ReducesTo [0, 1] S_
  bcast_S_S144x128 : S_.BroadcastsInDim S144x128 (![] : Fin 0 → Fin S144x128.rank)
  reducesTo_S144x128_S_d0_1 : S144x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part5 {F : FTy → Type} [FloatOps F] (main_arg1 : IVec S2x1600000 32) (main_v83 : IVec S_ 1) (main_v84 : IVec S2x1600000 32) : IVec S_ 1 :=
  let main_v85 : IVec S2x1600000 1 := cmpi .sge main_arg1 main_v84
  let main_c_33 : IVec S_ 32 := constantI S_ 32 100000#32
  let main_v86 : IVec S2x1600000 32 := broadcastInDim S2x1600000 ![] bcast_S_S2x1600000 main_c_33
  let main_v87 : IVec S2x1600000 1 := cmpi .slt main_arg1 main_v86
  let main_v88 : IVec S2x1600000 1 := andi main_v85 main_v87
  let main_c_34 : IVec S_ 1 := constantI S_ 1 1#1
  let main_v89 : IVec S_ 1 := (fun x v => Host.reduce IntOp.andi x v reducesTo_S2x1600000_S_d0_1 h_S_) main_v88 main_c_34
  let main_v90 : IVec S_ 1 := andi main_v83 main_v89
  main_v90

def fn_part4 {F : FTy → Type} [FloatOps F] (main_arg1 : IVec S2x1600000 32) (main_arg16 : FVec F S128 .f32) (main_arg17 : FVec F S128x1 .f32) (main_arg18 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg17
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_c_32 : IVec S_ 32 := constantI S_ 32 4294867296#32
  let main_v84 : IVec S2x1600000 32 := broadcastInDim S2x1600000 ![] bcast_S_S2x1600000 main_c_32
  fn_part5 (F := F) main_arg1 main_v83 main_v84

def fn_part3 {F : FTy → Type} [FloatOps F] (main_arg1 : IVec S2x1600000 32) (main_arg13 : FVec F S144x128 .f32) (main_arg14 : FVec F S128 .f32) (main_arg15 : FVec F S128x128 .f32) (main_arg16 : FVec F S128 .f32) (main_arg17 : FVec F S128x1 .f32) (main_arg18 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S144x128 .f32 := Host.absf main_arg13
  let main_cst_20 : FVec F S_ .f32 := constant S_ .f32 0x7F800000#32
  let main_v55 : FVec F S144x128 .f32 := broadcastInDim S144x128 ![] bcast_S_S144x128 main_cst_20
  let main_v56 : IVec S144x128 1 := cmpf .olt main_v54 main_v55
  let main_c_21 : IVec S_ 1 := constantI S_ 1 1#1
  let main_v57 : IVec S_ 1 := (fun x v => Host.reduce IntOp.andi x v reducesTo_S144x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg1 main_arg16 main_arg17 main_arg18 main_v63 main_v67

def fn_part2 {F : FTy → Type} [FloatOps F] (main_arg1 : IVec S2x1600000 32) (main_arg9 : FVec F S192x128 .f32) (main_arg10 : FVec F S128 .f32) (main_arg11 : FVec F S128x128 .f32) (main_arg12 : FVec F S128 .f32) (main_arg13 : FVec F S144x128 .f32) (main_arg14 : FVec F S128 .f32) (main_arg15 : FVec F S128x128 .f32) (main_arg16 : FVec F S128 .f32) (main_arg17 : FVec F S128x1 .f32) (main_arg18 : FVec F S1 .f32) (main_v33 : IVec S_ 1) : IVec S_ 1 :=
  let main_v34 : FVec F S192x128 .f32 := Host.absf main_arg9
  let main_cst_12 : FVec F S_ .f32 := constant S_ .f32 0x7F800000#32
  let main_v35 : FVec F S192x128 .f32 := broadcastInDim S192x128 ![] bcast_S_S192x128 main_cst_12
  let main_v36 : IVec S192x128 1 := cmpf .olt main_v34 main_v35
  let main_c_13 : IVec S_ 1 := constantI S_ 1 1#1
  let main_v37 : IVec S_ 1 := (fun x v => Host.reduce IntOp.andi x v reducesTo_S192x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg13 main_arg14 main_arg15 main_arg16 main_arg17 main_arg18 main_v48 main_v49 main_v50

def fn_part1 {F : FTy → Type} [FloatOps F] (main_arg1 : IVec S2x1600000 32) (main_arg6 : FVec F S128 .f32) (main_arg7 : FVec F S128x128 .f32) (main_arg8 : FVec F S128 .f32) (main_arg9 : FVec F S192x128 .f32) (main_arg10 : FVec F S128 .f32) (main_arg11 : FVec F S128x128 .f32) (main_arg12 : FVec F S128 .f32) (main_arg13 : FVec F S144x128 .f32) (main_arg14 : FVec F S128 .f32) (main_arg15 : FVec F S128x128 .f32) (main_arg16 : FVec F S128 .f32) (main_arg17 : FVec F S128x1 .f32) (main_arg18 : FVec F S1 .f32) (main_v13 : IVec S_ 1) (main_v16 : IVec S160x128 1) : IVec S_ 1 :=
  let main_c_5 : IVec S_ 1 := constantI S_ 1 1#1
  let main_v17 : IVec S_ 1 := (fun x v => Host.reduce IntOp.andi x v reducesTo_S160x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_arg12 main_arg13 main_arg14 main_arg15 main_arg16 main_arg17 main_arg18 main_v33

def fn {F : FTy → Type} [FloatOps F] (main_arg0 : FVec F S100000x64 .f32) (main_arg1 : IVec S2x1600000 32) (main_arg2 : FVec F S1600000x32 .f32) (main_arg3 : FVec F S1024x16 .f32) (main_arg4 : IVec S100000 32) (main_arg5 : FVec F S160x128 .f32) (main_arg6 : FVec F S128 .f32) (main_arg7 : FVec F S128x128 .f32) (main_arg8 : FVec F S128 .f32) (main_arg9 : FVec F S192x128 .f32) (main_arg10 : FVec F S128 .f32) (main_arg11 : FVec F S128x128 .f32) (main_arg12 : FVec F S128 .f32) (main_arg13 : FVec F S144x128 .f32) (main_arg14 : FVec F S128 .f32) (main_arg15 : FVec F S128x128 .f32) (main_arg16 : FVec F S128 .f32) (main_arg17 : FVec F S128x1 .f32) (main_arg18 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S1024x16 .f32 := Host.absf main_arg3
  let main_cst_2 : FVec F S_ .f32 := constant S_ .f32 0x7F800000#32
  let main_v10 : FVec F S1024x16 .f32 := broadcastInDim S1024x16 ![] bcast_S_S1024x16 main_cst_2
  let main_v11 : IVec S1024x16 1 := cmpf .olt main_v9 main_v10
  let main_c_3 : IVec S_ 1 := constantI S_ 1 1#1
  let main_v12 : IVec S_ 1 := (fun x v => Host.reduce IntOp.andi x v reducesTo_S1024x16_S_d0_1 h_S_) main_v11 main_c_3
  let main_v13 : IVec S_ 1 := andi main_v8 main_v12
  let main_v14 : FVec F S160x128 .f32 := Host.absf main_arg5
  let main_cst_4 : FVec F S_ .f32 := constant S_ .f32 0x7F800000#32
  let main_v15 : FVec F S160x128 .f32 := broadcastInDim S160x128 ![] bcast_S_S160x128 main_cst_4
  let main_v16 : IVec S160x128 1 := cmpf .olt main_v14 main_v15
  fn_part1 (F := F) main_arg1 main_arg6 main_arg7 main_arg8 main_arg9 main_arg10 main_arg11 main_arg12 main_arg13 main_arg14 main_arg15 main_arg16 main_arg17 main_arg18 main_v13 main_v16
-- ==== Kernel.lean ====
abbrev S100000x64 : Shape := ⟨2, ![100000, 64]⟩
abbrev S2x1600000 : Shape := ⟨2, ![2, 1600000]⟩
abbrev S1600000x32 : Shape := ⟨2, ![1600000, 32]⟩
abbrev S1024x16 : Shape := ⟨2, ![1024, 16]⟩
abbrev S100000 : Shape := ⟨1, ![100000]⟩
abbrev S160x128 : Shape := ⟨2, ![160, 128]⟩
abbrev S128 : Shape := ⟨1, ![128]⟩
abbrev S128x128 : Shape := ⟨2, ![128, 128]⟩
abbrev S192x128 : Shape := ⟨2, ![192, 128]⟩
abbrev S144x128 : Shape := ⟨2, ![144, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x1 : Shape := ⟨2, ![1, 1]⟩
abbrev S1600000x64 : Shape := ⟨2, ![1600000, 64]⟩
abbrev S1x128 : Shape := ⟨2, ![1, 128]⟩
abbrev S1600000x128 : Shape := ⟨2, ![1600000, 128]⟩
abbrev S6400x64 : Shape := ⟨2, ![6400, 64]⟩
abbrev S6400x32 : Shape := ⟨2, ![6400, 32]⟩
abbrev S6400x128 : Shape := ⟨2, ![6400, 128]⟩
abbrev S6400x160 : Shape := ⟨2, ![6400, 160]⟩
abbrev S100000x128 : Shape := ⟨2, ![100000, 128]⟩
abbrev S5000x64 : Shape := ⟨2, ![5000, 64]⟩
abbrev S5000x128 : Shape := ⟨2, ![5000, 128]⟩
abbrev S5000x192 : Shape := ⟨2, ![5000, 192]⟩
abbrev S1024x128 : Shape := ⟨2, ![1024, 128]⟩
abbrev S100000x1 : Shape := ⟨2, ![100000, 1]⟩
abbrev S1024x144 : Shape := ⟨2, ![1024, 144]⟩
abbrev S1024x1 : Shape := ⟨2, ![1024, 1]⟩
abbrev S1024 : Shape := ⟨1, ![1024]⟩

abbrev nBuf : Space → Nat
  | .hbm => 91
  | .vmem => 29
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S1024x16, .f32⟩
  | .hbm, ⟨4, _⟩ => ⟨S100000, .i32⟩
  | .hbm, ⟨5, _⟩ => ⟨S160x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S192x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S144x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1, .i32⟩
  | .hbm, ⟨32, _⟩ => ⟨S_, .i32⟩
  | .hbm, ⟨33, _⟩ => ⟨S1600000x1, .i32⟩
  | .hbm, ⟨34, _⟩ => ⟨S1600000x1, .i1⟩
  | .hbm, ⟨35, _⟩ => ⟨S1x1, .i32⟩
  | .hbm, ⟨36, _⟩ => ⟨S1600000x1, .i32⟩
  | .hbm, ⟨37, _⟩ => ⟨S1600000x1, .i1⟩
  | .hbm, ⟨38, _⟩ => ⟨S1600000x1, .i1⟩
  | .hbm, ⟨39, _⟩ => ⟨S_, .i1⟩
  | .hbm, ⟨40, _⟩ => ⟨S1600000, .i1⟩
  | .hbm, ⟨41, _⟩ => ⟨S1600000x64, .f32⟩
  | .hbm, ⟨42, _⟩ => ⟨S1600000x64, .i1⟩
  | .hbm, ⟨43, _⟩ => ⟨S_, .f32⟩
  | .hbm, ⟨44, _⟩ => ⟨S1600000x64, .f32⟩
  | .hbm, ⟨45, _⟩ => ⟨S1600000x64, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1, .i32⟩
  | .hbm, ⟨55, _⟩ => ⟨S_, .i32⟩
  | .hbm, ⟨56, _⟩ => ⟨S1600000x1, .i32⟩
  | .hbm, ⟨57, _⟩ => ⟨S1600000x1, .i1⟩
  | .hbm, ⟨58, _⟩ => ⟨S1x1, .i32⟩
  | .hbm, ⟨59, _⟩ => ⟨S1600000x1, .i32⟩
  | .hbm, ⟨60, _⟩ => ⟨S1600000x1, .i1⟩
  | .hbm, ⟨61, _⟩ => ⟨S1600000x1, .i1⟩
  | .hbm, ⟨62, _⟩ => ⟨S_, .i1⟩
  | .hbm, ⟨63, _⟩ => ⟨S1600000, .i1⟩
  | .hbm, ⟨64, _⟩ => ⟨S1600000x64, .f32⟩
  | .hbm, ⟨65, _⟩ => ⟨S1600000x64, .i1⟩
  | .hbm, ⟨66, _⟩ => ⟨S_, .f32⟩
  | .hbm, ⟨67, _⟩ => ⟨S1600000x64, .f32⟩
  | .hbm, ⟨68, _⟩ => ⟨S1600000x64, .f32⟩
  | .hbm, ⟨69, _⟩ => ⟨S1x128, .f32⟩
  | .hbm, ⟨70, _⟩ => ⟨S1x128, .f32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S1x128, .f32⟩
  | .hbm, ⟨77, _⟩ => ⟨S1x128, .f32⟩
  | .hbm, ⟨78, _⟩ => ⟨S100000x128, .f32⟩
  | .hbm, ⟨79, _⟩ => ⟨S_, .f32⟩
  | .hbm, ⟨80, _⟩ => ⟨S1024x128, .f32⟩
  | .hbm, ⟨81, _⟩ => ⟨S100000x1, .i32⟩
  | .hbm, ⟨82, _⟩ => ⟨S1024x128, .f32⟩
  | .hbm, ⟨83, _⟩ => ⟨S1x128, .f32⟩
  | .hbm, ⟨84, _⟩ => ⟨S1x128, .f32⟩
  | .hbm, ⟨85, _⟩ => ⟨S1024x128, .f32⟩
  | .hbm, ⟨86, _⟩ => ⟨S1024x1, .f32⟩
  | .hbm, ⟨87, _⟩ => ⟨S1x1, .f32⟩
  | .hbm, ⟨88, _⟩ => ⟨S1024x1, .f32⟩
  | .hbm, ⟨89, _⟩ => ⟨S1024x1, .f32⟩
  | .hbm, ⟨90, _⟩ => ⟨S1024, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S6400x32, .f32⟩
  | .local _ .vmem, ⟨5, _⟩ => ⟨S6400x32, .f32⟩
  | .local _ .vmem, ⟨6, _⟩ => ⟨S160x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S6400x128, .f32⟩
  | .local _ .vmem, ⟨11, _⟩ => ⟨S6400x128, .f32⟩
  | .local _ .vmem, ⟨12, _⟩ => ⟨S5000x64, .f32⟩
  | .local _ .vmem, ⟨13, _⟩ => ⟨S5000x64, .f32⟩
  | .local _ .vmem, ⟨14, _⟩ => ⟨S5000x128, .f32⟩
  | .local _ .vmem, ⟨15, _⟩ => ⟨S5000x128, .f32⟩
  | .local _ .vmem, ⟨16, _⟩ => ⟨S192x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S1024x16, .f32⟩
  | .local _ .vmem, ⟨23, _⟩ => ⟨S1024x128, .f32⟩
  | .local _ .vmem, ⟨24, _⟩ => ⟨S144x128, .f32⟩
  | .local _ .vmem, ⟨25, _⟩ => ⟨S1x128, .f32⟩
  | .local _ .vmem, ⟨26, _⟩ => ⟨S128x128, .f32⟩
  | .local _ .vmem, ⟨27, _⟩ => ⟨S1x128, .f32⟩
  | .local _ .vmem, ⟨28, _⟩ => ⟨S1024x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v4 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v5 : Ref sig .tc := ⟨.hbm, 68, rfl⟩
abbrev main_v6 : Ref sig .tc := ⟨.hbm, 69, rfl⟩
abbrev main_v7 : Ref sig .tc := ⟨.hbm, 70, rfl⟩
abbrev main_v8 : Ref sig .tc := ⟨.hbm, 71, rfl⟩
abbrev main_cst : Ref sig .tc := ⟨.hbm, 72, rfl⟩
abbrev main_v9 : Ref sig .tc := ⟨.hbm, 73, rfl⟩
abbrev main_v10 : Ref sig .tc := ⟨.hbm, 74, rfl⟩
abbrev main_v11 : Ref sig .tc := ⟨.hbm, 75, rfl⟩
abbrev main_v12 : Ref sig .tc := ⟨.hbm, 76, rfl⟩
abbrev main_v13 : Ref sig .tc := ⟨.hbm, 77, rfl⟩
abbrev main_v14 : Ref sig .tc := ⟨.hbm, 78, rfl⟩
abbrev main_cst_0 : Ref sig .tc := ⟨.hbm, 79, rfl⟩
abbrev main_v15 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_v25 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S192x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1024x16 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true]

abbrev stage2_1 : Fin 1 → Memref sig .tc .vmem S1024x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true]

abbrev stage2_2 : Fin 1 → Memref sig .tc .vmem S144x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1024x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  shapeCasts_S128_S1x128 : S128.ShapeCasts S1x128
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S6400x32_S6400x32_0_0 : ∀ a, (![0, 0] : Fin 2 → Nat) a + S6400x32.size a ≤ S6400x32.size a
  h_S6400x32 : 0 < S6400x32.numel
  concatenates_S6400x64_S6400x64_S6400x32_S6400x160_d1 : Shape.Concatenates [S6400x64, S6400x64, S6400x32] S6400x160 1
  inb_S160x128_S160x128_0_0 : ∀ a, (![0, 0] : Fin 2 → Nat) a + S160x128.size a ≤ S160x128.size a
  h_S160x128 : 0 < S160x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S128x128_S128x128_0_0 : ∀ a, (![0, 0] : Fin 2 → Nat) a + S128x128.size a ≤ S128x128.size a
  h_S128x128 : 0 < S128x128.numel
  inb_S6400x128_S6400x128_0_0 : ∀ a, (![0, 0] : Fin 2 → Nat) a + S6400x128.size a ≤ S6400x128.size a
  h_S6400x128 : 0 < S6400x128.numel
  bcast_S_S100000x128 : S_.BroadcastsInDim S100000x128 (![] : Fin 0 → Fin S100000x128.rank)
  inb_S5000x64_S5000x64_0_0 : ∀ a, (![0, 0] : Fin 2 → Nat) a + S5000x64.size a ≤ S5000x64.size a
  h_S5000x64 : 0 < S5000x64.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  concatenates_S5000x64_S5000x128_S5000x192_d1 : Shape.Concatenates [S5000x64, S5000x128] S5000x192 1
  inb_S192x128_S192x128_0_0 : ∀ a, (![0, 0] : Fin 2 → Nat) a + S192x128.size a ≤ S192x128.size a
  h_S192x128 : 0 < S192x128.numel
  broadcasts_S1x128_S5000x128 : S1x128.Broadcasts S5000x128
  bcast_S_S1024x128 : S_.BroadcastsInDim S1024x128 (![] : Fin 0 → Fin S1024x128.rank)
  bcast_S100000_S100000x1_0 : S100000.BroadcastsInDim S100000x1 (![0] : Fin 1 → Fin S100000x1.rank)
  inb_S1024x16_S1024x16_0_0 : ∀ a, (![0, 0] : Fin 2 → Nat) a + S1024x16.size a ≤ S1024x16.size a
  h_S1024x16 : 0 < S1024x16.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  concatenates_S1024x16_S1024x128_S1024x144_d1 : Shape.Concatenates [S1024x16, S1024x128] S1024x144 1
  inb_S144x128_S144x128_0_0 : ∀ a, (![0, 0] : Fin 2 → Nat) a + S144x128.size a ≤ S144x128.size a
  h_S144x128 : 0 < S144x128.numel
  broadcasts_S1x128_S1024x128 : S1x128.Broadcasts S1024x128
  bcast_S1x1_S1024x1_0_1 : S1x1.BroadcastsInDim S1024x1 (![0, 1] : Fin 2 → Fin S1024x1.rank)
  shapeCasts_S1024x1_S1024 : S1024x1.ShapeCasts S1024
  gather_S100000x64_S1600000x1_S1600000x64_1_0_n_n_0_1_164_wf : GatherDims.WF S100000x64 S1600000x1 S1600000x64 [1] [0] [] [0] [] 1 ![1, 64]
  dot_S6400x160_S160x128_S6400x128_1_0_0_1_n_n_wf : DotDims.WF S6400x160 S160x128 S6400x128 [1] [0] [0] [1] [] []
  dot_S6400x128_S128x128_S6400x128_1_0_0_1_n_n_wf : DotDims.WF S6400x128 S128x128 S6400x128 [1] [0] [0] [1] [] []
  scatter_S100000x128_S1600000x1_S1600000x128_1_0_0_1_wf : ScatterDims.WF S100000x128 S1600000x1 S1600000x128 [1] [0] [0] 1
  dot_S5000x192_S192x128_S5000x128_1_0_0_1_n_n_wf : DotDims.WF S5000x192 S192x128 S5000x128 [1] [0] [0] [1] [] []
  dot_S5000x128_S128x128_S5000x128_1_0_0_1_n_n_wf : DotDims.WF S5000x128 S128x128 S5000x128 [1] [0] [0] [1] [] []
  scatter_S1024x128_S100000x1_S100000x128_1_0_0_1_wf : ScatterDims.WF S1024x128 S100000x1 S100000x128 [1] [0] [0] 1
  dot_S1024x144_S144x128_S1024x128_1_0_0_1_n_n_wf : DotDims.WF S1024x144 S144x128 S1024x128 [1] [0] [0] [1] [] []
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x32.size a ≤ S1600000x32.size a
  hwx0_2 : ∀ i : grid0.Coords, EltTy.bits .f32 = 32 ∨ (Rect.block (s := S1600000x32) S6400x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S160x128.size a ≤ S160x128.size a
  hwx0_3 : ∀ i : grid0.Coords, EltTy.bits .f32 = 32 ∨ (Rect.block (s := S160x128) S160x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x128.size a ≤ S1600000x128.size a
  hwx0_7 : ∀ i : grid0.Coords, EltTy.bits .f32 = 32 ∨ (Rect.block (s := S1600000x128) S6400x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S192x128.size a ≤ S192x128.size a
  hwx1_2 : ∀ i : grid1.Coords, EltTy.bits .f32 = 32 ∨ (Rect.block (s := S192x128) S192x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 1
  hreads2_0 : ∀ i i' : grid2.Coords, (∀ a, reads2_0 a = true → i a = i' a) → cc2_transform_0 i = cc2_transform_0 i'
  hinb2_0 : ∀ (i : grid2.Coords) a, (cc2_transform_0 i a + 1) * S1024x16.size a ≤ S1024x16.size a
  hwx2_0 : ∀ i : grid2.Coords, EltTy.bits .f32 = 32 ∨ (Rect.block (s := S1024x16) S1024x16.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S1024x128.size a
  hwx2_1 : ∀ i : grid2.Coords, EltTy.bits .f32 = 32 ∨ (Rect.block (s := S1024x128) S1024x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S144x128.size a ≤ S144x128.size a
  hwx2_2 : ∀ i : grid2.Coords, EltTy.bits .f32 = 32 ∨ (Rect.block (s := S144x128) S144x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 1
  hreads2_6 : ∀ i i' : grid2.Coords, (∀ a, reads2_6 a = true → i a = i' a) → cc2_transform_6 i = cc2_transform_6 i'
  hinb2_6 : ∀ (i : grid2.Coords) a, (cc2_transform_6 i a + 1) * S1024x128.size a ≤ S1024x128.size a
  hwx2_6 : ∀ i : grid2.Coords, EltTy.bits .f32 = 32 ∨ (Rect.block (s := S1024x128) S1024x128.size (cc2_transform_6 i) (hinb2_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x160_S160x128_S6400x128_1_0_0_1_n_n : DotDims S6400x160 S160x128 S6400x128 where
  lhsContracting := [1]
  rhsContracting := [0]
  lhsNonContracting := [0]
  rhsNonContracting := [1]
  lhsBatch := []
  rhsBatch := []
  wf := dot_S6400x160_S160x128_S6400x128_1_0_0_1_n_n_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x192_S192x128_S5000x128_1_0_0_1_n_n : DotDims S5000x192 S192x128 S5000x128 where
  lhsContracting := [1]
  rhsContracting := [0]
  lhsNonContracting := [0]
  rhsNonContracting := [1]
  lhsBatch := []
  rhsBatch := []
  wf := dot_S5000x192_S192x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x144_S144x128_S1024x128_1_0_0_1_n_n : DotDims S1024x144 S144x128 S1024x128 where
  lhsContracting := [1]
  rhsContracting := [0]
  lhsNonContracting := [0]
  rhsNonContracting := [1]
  lhsBatch := []
  rhsBatch := []
  wf := dot_S1024x144_S144x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_v4) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S160x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S6400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S192x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg3) S1024x16.size cc2_transform_0 reads2_0 false false 1 stage2_0 sem2_0
    hrank2 hreads2_0 hinb2_0 nbuf2_0 (Memref.isWhole_whole _) hwx2_0 hstage2_0

abbrev win2_1 : Pipeline.Window sig grid2 :=
  Pipeline.Window.ofSpec (Memref.whole main_v17) S1024x128.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_arg13) S144x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v18) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v19) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v20) S1024x128.size cc2_transform_6 reads2_6 true false 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x32 : Shape := ⟨2, ![1600000, 32]⟩
abbrev S1024x16 : Shape := ⟨2, ![1024, 16]⟩
abbrev S100000 : Shape := ⟨1, ![100000]⟩
abbrev S160x128 : Shape := ⟨2, ![160, 128]⟩
abbrev S128 : Shape := ⟨1, ![128]⟩
abbrev S128x128 : Shape := ⟨2, ![128, 128]⟩
abbrev S192x128 : Shape := ⟨2, ![192, 128]⟩
abbrev S144x128 : Shape := ⟨2, ![144, 128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1600000x160 : Shape := ⟨2, ![1600000, 160]⟩
abbrev S1600000x128 : Shape := ⟨2, ![1600000, 128]⟩
abbrev S1x128 : Shape := ⟨2, ![1, 128]⟩
abbrev S100000x128 : Shape := ⟨2, ![100000, 128]⟩
abbrev S100000x192 : Shape := ⟨2, ![100000, 192]⟩
abbrev S1024x128 : Shape := ⟨2, ![1024, 128]⟩
abbrev S100000x1 : Shape := ⟨2, ![100000, 1]⟩
abbrev S1024x144 : Shape := ⟨2, ![1024, 144]⟩
abbrev S1024x1 : Shape := ⟨2, ![1024, 1]⟩
abbrev S1x1 : Shape := ⟨2, ![1, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x32, .f32⟩
  | .hbm, ⟨3, _⟩ => ⟨S1024x16, .f32⟩
  | .hbm, ⟨4, _⟩ => ⟨S100000, .i32⟩
  | .hbm, ⟨5, _⟩ => ⟨S160x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S192x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S144x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x1, .f32⟩
  | .hbm, ⟨18, _⟩ => ⟨S1, .f32⟩
  | .hbm, ⟨19, _⟩ => ⟨S1x1600000, .i32⟩
  | .hbm, ⟨20, _⟩ => ⟨S1600000, .i32⟩
  | .hbm, ⟨21, _⟩ => ⟨S1x1600000, .i32⟩
  | .hbm, ⟨22, _⟩ => ⟨S1600000, .i32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S1600000x160, .f32⟩
  | .hbm, ⟨42, _⟩ => ⟨S1600000x128, .f32⟩
  | .hbm, ⟨43, _⟩ => ⟨S1x128, .f32⟩
  | .hbm, ⟨44, _⟩ => ⟨S1600000x128, .f32⟩
  | .hbm, ⟨45, _⟩ => ⟨S1600000x128, .f32⟩
  | .hbm, ⟨46, _⟩ => ⟨S_, .f32⟩
  | .hbm, ⟨47, _⟩ => ⟨S1600000x128, .f32⟩
  | .hbm, ⟨48, _⟩ => ⟨S1600000x128, .f32⟩
  | .hbm, ⟨49, _⟩ => ⟨S1600000x128, .f32⟩
  | .hbm, ⟨50, _⟩ => ⟨S1x128, .f32⟩
  | .hbm, ⟨51, _⟩ => ⟨S1600000x128, .f32⟩
  | .hbm, ⟨52, _⟩ => ⟨S1600000x128, .f32⟩
  | .hbm, ⟨53, _⟩ => ⟨S_, .f32⟩
  | .hbm, ⟨54, _⟩ => ⟨S1600000x128, .f32⟩
  | .hbm, ⟨55, _⟩ => ⟨S1600000x128, .f32⟩
  | .hbm, ⟨56, _⟩ => ⟨S_, .f32⟩
  | .hbm, ⟨57, _⟩ => ⟨S100000x128, .f32⟩
  | .hbm, ⟨58, _⟩ => ⟨S1600000x1, .i32⟩
  | .hbm, ⟨59, _⟩ => ⟨S100000x128, .f32⟩
  | .hbm, ⟨60, _⟩ => ⟨S100000x192, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S_, .f32⟩
  | .hbm, ⟨76, _⟩ => ⟨S1024x128, .f32⟩
  | .hbm, ⟨77, _⟩ => ⟨S100000x1, .i32⟩
  | .hbm, ⟨78, _⟩ => ⟨S1024x128, .f32⟩
  | .hbm, ⟨79, _⟩ => ⟨S1024x144, .f32⟩
  | .hbm, ⟨80, _⟩ => ⟨S1024x128, .f32⟩
  | .hbm, ⟨81, _⟩ => ⟨S1x128, .f32⟩
  | .hbm, ⟨82, _⟩ => ⟨S1024x128, .f32⟩
  | .hbm, ⟨83, _⟩ => ⟨S1024x128, .f32⟩
  | .hbm, ⟨84, _⟩ => ⟨S_, .f32⟩
  | .hbm, ⟨85, _⟩ => ⟨S1024x128, .f32⟩
  | .hbm, ⟨86, _⟩ => ⟨S1024x128, .f32⟩
  | .hbm, ⟨87, _⟩ => ⟨S1024x128, .f32⟩
  | .hbm, ⟨88, _⟩ => ⟨S1x128, .f32⟩
  | .hbm, ⟨89, _⟩ => ⟨S1024x128, .f32⟩
  | .hbm, ⟨90, _⟩ => ⟨S1024x128, .f32⟩
  | .hbm, ⟨91, _⟩ => ⟨S_, .f32⟩
  | .hbm, ⟨92, _⟩ => ⟨S1024x128, .f32⟩
  | .hbm, ⟨93, _⟩ => ⟨S1024x128, .f32⟩
  | .hbm, ⟨94, _⟩ => ⟨S1024x1, .f32⟩
  | .hbm, ⟨95, _⟩ => ⟨S1x1, .f32⟩
  | .hbm, ⟨96, _⟩ => ⟨S1024x1, .f32⟩
  | .hbm, ⟨97, _⟩ => ⟨S1024x1, .f32⟩
  | .hbm, ⟨98, _⟩ => ⟨S1024, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_c_1 : Ref sig .tc := ⟨.hbm, 32, rfl⟩
abbrev main_v11 : Ref sig .tc := ⟨.hbm, 33, rfl⟩
abbrev main_v12 : Ref sig .tc := ⟨.hbm, 34, rfl⟩
abbrev main_c_2 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call0_cst : Ref sig .tc := ⟨.hbm, 46, rfl⟩
abbrev main_call0_v0 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_call1_cst : Ref sig .tc := ⟨.hbm, 53, rfl⟩
abbrev main_call1_v0 : Ref sig .tc := ⟨.hbm, 54, rfl⟩
abbrev main_v28 : Ref sig .tc := ⟨.hbm, 55, rfl⟩
abbrev main_cst : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call2_cst : Ref sig .tc := ⟨.hbm, 65, rfl⟩
abbrev main_call2_v0 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_call3_cst : Ref sig .tc := ⟨.hbm, 72, rfl⟩
abbrev main_call3_v0 : Ref sig .tc := ⟨.hbm, 73, rfl⟩
abbrev main_v42 : Ref sig .tc := ⟨.hbm, 74, rfl⟩
abbrev main_cst_3 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_call4_cst : Ref sig .tc := ⟨.hbm, 84, rfl⟩
abbrev main_call4_v0 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_call5_cst : Ref sig .tc := ⟨.hbm, 91, rfl⟩
abbrev main_call5_v0 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x32_S1600000x160_d1 : Shape.Concatenates [S1600000x64, S1600000x64, S1600000x32] S1600000x160 1
  bcast_S128_S1x128_1 : S128.BroadcastsInDim S1x128 (![1] : Fin 1 → Fin S1x128.rank)
  bcast_S1x128_S1600000x128_0_1 : S1x128.BroadcastsInDim S1600000x128 (![0, 1] : Fin 2 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  concatenates_S100000x64_S100000x128_S100000x192_d1 : Shape.Concatenates [S100000x64, S100000x128] S100000x192 1
  bcast_S1x128_S100000x128_0_1 : S1x128.BroadcastsInDim S100000x128 (![0, 1] : Fin 2 → Fin S100000x128.rank)
  bcast_S_S1024x128 : S_.BroadcastsInDim S1024x128 (![] : Fin 0 → Fin S1024x128.rank)
  bcast_S100000_S100000x1_0 : S100000.BroadcastsInDim S100000x1 (![0] : Fin 1 → Fin S100000x1.rank)
  concatenates_S1024x16_S1024x128_S1024x144_d1 : Shape.Concatenates [S1024x16, S1024x128] S1024x144 1
  bcast_S1x128_S1024x128_0_1 : S1x128.BroadcastsInDim S1024x128 (![0, 1] : Fin 2 → Fin S1024x128.rank)
  bcast_S1_S1x1_1 : S1.BroadcastsInDim S1x1 (![1] : Fin 1 → Fin S1x1.rank)
  bcast_S1x1_S1024x1_0_1 : S1x1.BroadcastsInDim S1024x1 (![0, 1] : Fin 2 → Fin S1024x1.rank)
  shapeCasts_S1024x1_S1024 : S1024x1.ShapeCasts S1024
  gather_S100000x64_S1600000x1_S1600000x64_1_0_n_n_0_1_164_wf : GatherDims.WF S100000x64 S1600000x1 S1600000x64 [1] [0] [] [0] [] 1 ![1, 64]
  dot_S1600000x160_S160x128_S1600000x128_1_0_0_1_n_n_wf : DotDims.WF S1600000x160 S160x128 S1600000x128 [1] [0] [0] [1] [] []
  dot_S1600000x128_S128x128_S1600000x128_1_0_0_1_n_n_wf : DotDims.WF S1600000x128 S128x128 S1600000x128 [1] [0] [0] [1] [] []
  scatter_S100000x128_S1600000x1_S1600000x128_1_0_0_1_wf : ScatterDims.WF S100000x128 S1600000x1 S1600000x128 [1] [0] [0] 1
  dot_S100000x192_S192x128_S100000x128_1_0_0_1_n_n_wf : DotDims.WF S100000x192 S192x128 S100000x128 [1] [0] [0] [1] [] []
  dot_S100000x128_S128x128_S100000x128_1_0_0_1_n_n_wf : DotDims.WF S100000x128 S128x128 S100000x128 [1] [0] [0] [1] [] []
  scatter_S1024x128_S100000x1_S100000x128_1_0_0_1_wf : ScatterDims.WF S1024x128 S100000x1 S100000x128 [1] [0] [0] 1
  dot_S1024x144_S144x128_S1024x128_1_0_0_1_n_n_wf : DotDims.WF S1024x144 S144x128 S1024x128 [1] [0] [0] [1] [] []
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x160_S160x128_S1600000x128_1_0_0_1_n_n : DotDims S1600000x160 S160x128 S1600000x128 where
  lhsContracting := [1]
  rhsContracting := [0]
  lhsNonContracting := [0]
  rhsNonContracting := [1]
  lhsBatch := []
  rhsBatch := []
  wf := dot_S1600000x160_S160x128_S1600000x128_1_0_0_1_n_n_wf
def dot_S1600000x128_S128x128_S1600000x128_1_0_0_1_n_n : DotDims S1600000x128 S128x128 S1600000x128 where
  lhsContracting := [1]
  rhsContracting := [0]
  lhsNonContracting := [0]
  rhsNonContracting := [1]
  lhsBatch := []
  rhsBatch := []
  wf := dot_S1600000x128_S128x128_S1600000x128_1_0_0_1_n_n_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x192_S192x128_S100000x128_1_0_0_1_n_n : DotDims S100000x192 S192x128 S100000x128 where
  lhsContracting := [1]
  rhsContracting := [0]
  lhsNonContracting := [0]
  rhsNonContracting := [1]
  lhsBatch := []
  rhsBatch := []
  wf := dot_S100000x192_S192x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1024x128_S100000x1_S100000x128_1_0_0_1 : ScatterDims S1024x128 S100000x1 S100000x128 where
  updateWindowDims := [1]
  insertedWindowDims := [0]
  scatterDimsToOperandDims := [0]
  indexVectorDim := 1
  wf := scatter_S1024x128_S100000x1_S100000x128_1_0_0_1_wf
def dot_S1024x144_S144x128_S1024x128_1_0_0_1_n_n : DotDims S1024x144 S144x128 S1024x128 where
  lhsContracting := [1]
  rhsContracting := [0]
  lhsNonContracting := [0]
  rhsNonContracting := [1]
  lhsBatch := []
  rhsBatch := []
  wf := dot_S1024x144_S144x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

class Facts : Prop extends Facts₀ where

variable [Facts]
-- ==== Proof.KTake.lean ====
import proofs.«402856_j7584912245437_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate
import Idealize.ShloMosaic.Lib.ReduceAll

set_option maxRecDepth 16384

noncomputable section

open scoped BigOperators

namespace Cert.KernelIdeal.Glue

open Cert.KernelIdeal Cert.KernelIdeal.Gen Idealize.ShloMosaic Idealize.ShloMosaic.TcCoe Idealize.ShloMosaic.ValueIdx
open Idealize.ShloMosaic.Pipeline (Dat Cfg Window)
open Idealize.SL.Sem

open Idealize.ShloMosaic.StableHlo

/-! ## The host glue of the kernel program, as named array functions -/

/-- Row `0` of the edge list: each edge's source node. -/
def srcOf (e : IVec S2x1600000 32) : IVec S1600000 32 :=
  shapeCast _ (extractStridedSlice S1x1600000 ![0, 0] e slices_S2x1600000_S1x1600000_0_0) shapeCasts_S1x1600000_S1600000
/-- Row `1` of the edge list: each edge's destination node. -/
def dstOf (e : IVec S2x1600000 32) : IVec S1600000 32 :=
  shapeCast _ (extractStridedSlice S1x1600000 ![1, 0] e slices_S2x1600000_S1x1600000_1_0) shapeCasts_S1x1600000_S1600000
/-- A node index with negatives counted from the end (`i < 0 ↦ i + 100000`), as a column of start indices. -/
def wrapIdx (w : IVec S1600000 32) : IVec S1600000x1 32 :=
  broadcastInDim S1600000x1 ![0] bcast_S1600000_S1600000x1_0
    (select (cmpi .slt w (broadcastInDim S1600000 ![] bcast_S_S1600000 (constantI S_ 32 0#32)))
      (addi w (broadcastInDim S1600000 ![] bcast_S_S1600000 (constantI S_ 32 100000#32))) w)
/-- Which wrapped indices lie in `0 … 99999`. -/
def inRange (W : IVec S1600000x1 32) : IVec S1600000 1 :=
  Host.reduce IntOp.andi
    (andi (cmpi .sge W (broadcastInDim S1600000x1 ![] bcast_S_S1600000x1 (constantI S_ 32 0#32)))
      (cmpi .sle W (broadcastInDim S1600000x1 ![0, 1] bcast_S1x1_S1600000x1_0_1 (broadcastInDim S1x1 ![1] bcast_S1_S1x1_1 (constantI S1 32 99999#32)))))
    (constantI S_ 1 1#1) reducesTo_S1600000x1_S1600000_d1 h_S_
/-- The rows of `x` at the wrapped indices. -/
def gatherRows {F : FTy → Type} [FloatOps F] (x : FVec F S100000x64 .f32) (w : IVec S1600000 32) : FVec F S1600000x64 .f32 :=
  Host.gather gather_S100000x64_S1600000x1_S1600000x64_1_0_n_n_0_1_164 x (wrapIdx w)
/-- The kernel's row lookup: the gathered row where the wrapped index is in range, a fill word elsewhere. -/
def takeRows {F : FTy → Type} [FloatOps F] (x : FVec F S100000x64 .f32) (w : IVec S1600000 32) : FVec F S1600000x64 .f32 :=
  select (broadcastInDim S1600000x64 ![0] bcast_S1600000_S1600000x64_0 (inRange (wrapIdx w))) (gatherRows x w)
    (broadcastInDim S1600000x64 ![] bcast_S_S1600000x64 (constant S_ .f32 0x7FC00000#32))

/-! ## Where every index is a node index, the lookup never meets its fill -/

/-- One word of the wrap: a node index counted from either end (`-100000 ≤ a < 100000`), with `100000` added when it
    is negative, lies in `0 … 99999`. The sum does not leave the signed range, so it is the integers' sum. -/
theorem wrap_word (a : BitVec 32) (h : (-100000 : ℤ) ≤ a.toInt ∧ a.toInt < 100000) :
    (0 : ℤ) ≤ (Scalar.select (IntOp.cmpi .slt a 0#32) (IntOp.addi a 100000#32) a).toInt
      ∧ (Scalar.select (IntOp.cmpi .slt a 0#32) (IntOp.addi a 100000#32) a).toInt ≤ 99999 := by
  have h0 : (0#32 : BitVec 32).toInt = 0 := by decide
  have hc : (100000#32 : BitVec 32).toInt = 100000 := by decide
  show (0 : ℤ) ≤ (if BitVec.ofBool (a.slt 0#32) = 1 then a + 100000#32 else a).toInt
    ∧ (if BitVec.ofBool (a.slt 0#32) = 1 then a + 100000#32 else a).toInt ≤ 99999
  by_cases hs : a.slt 0#32 = true
  · have hneg : a.toInt < 0 := by have := BitVec.slt_iff_toInt_lt.mp hs; rw [h0] at this; exact this
    rw [hs, if_pos (show BitVec.ofBool true = (1 : BitVec 1) from rfl), BitVec.toInt_add, hc, Int.bmod_eq_of_le_mul_two (by omega) (by omega)]
    omega
  · have hs' : a.slt 0#32 = false := by simpa using hs
    have hpos : ¬ a.toInt < 0 := fun hlt => hs (BitVec.slt_iff_toInt_lt.mpr (by rw [h0]; exact hlt))
    rw [hs', if_neg (show ¬ BitVec.ofBool false = (1 : BitVec 1) from by decide)]
    omega

set_option maxHeartbeats 400000 in
/-- The wrapped index of row `p` is the wrap of one word of the index vector. -/
theorem wrapIdx_apply (w : IVec S1600000 32) (p : S1600000x1.Idx) :
    ∃ j : S1600000.Idx, wrapIdx w p = Scalar.select (IntOp.cmpi .slt (w j) 0#32) (IntOp.addi (w j) 100000#32) (w j) :=
  ⟨_, rfl⟩

/-- A left fold by `and` from 1 over words that are all 1 is 1. -/
theorem foldl_andi_one {ι : Type} (f : ι → BitVec 1) (hf : ∀ n, f n = 1#1) :
    ∀ (l : List ι), l.foldl (fun r n => IntOp.andi r (f n)) 1#1 = 1#1
  | [] => rfl
  | a :: l => by
    rw [List.foldl_cons, hf a, show IntOp.andi (1#1 : BitVec 1) 1#1 = 1#1 from by decide]
    exact foldl_andi_one f hf l

set_option maxHeartbeats 400000 in
/-- Where every wrapped index lies in `0 … 99999`, the range test is true at every row. -/
theorem inRange_one (W : IVec S1600000x1 32) (hW : ∀ p, (0 : ℤ) ≤ (W p).toInt ∧ (W p).toInt ≤ 99999) (k : S1600000.Idx) :
    inRange W k = 1#1 := by
  have h0 : (0#32 : BitVec 32).toInt = 0 := by decide
  have hc : (99999#32 : BitVec 32).toInt = 99999 := by decide
  unfold inRange
  rw [Host.reduce_eq_foldl]
  show List.foldl (fun r n => IntOp.andi r (IntOp.andi (IntOp.cmpi .sge (W n) 0#32) (IntOp.cmpi .sle (W n) 99999#32))) 1#1 _ = 1#1
  refine foldl_andi_one _ (fun n => ?_) _
  obtain ⟨hlo, hhi⟩ := hW n
  rw [IntOp.andi_eq_one]
  unfold IntOp.cmpi
  constructor
  · rw [StableHlo.Predicate.ofBool_eq_one_iff]; exact BitVec.sle_iff_toInt_le.mpr (by rw [h0]; exact hlo)
  · rw [StableHlo.Predicate.ofBool_eq_one_iff]; exact BitVec.sle_iff_toInt_le.mpr (by rw [hc]; exact hhi)

/-- A row mask that is 1 at every row, laid along the rows of the `[1600000, 64]` array, is 1 at every entry. -/
theorem rowMask_one (m : IVec S1600000 1) (hm : ∀ k, m k = 1#1) (i : S1600000x64.Idx) :
    broadcastInDim S1600000x64 ![0] bcast_S1600000_S1600000x64_0 m i = 1#1 := by
  unfold broadcastInDim; exact hm _

/-- Where every index is a node index counted from either end, every wrapped index lies in `0 … 99999`, the range test
    is true at every edge, and the lookup is the gather. -/
theorem takeRows_of_nodeIdx {F : FTy → Type} [FloatOps F] (x : FVec F S100000x64 .f32) (w : IVec S1600000 32)
    (hw : ∀ j : S1600000.Idx, (-100000 : ℤ) ≤ (w j).toInt ∧ (w j).toInt < 100000) :
    takeRows x w = gatherRows x w := by
  have hW : ∀ p, (0 : ℤ) ≤ (wrapIdx w p).toInt ∧ (wrapIdx w p).toInt ≤ 99999 := fun p => by
    obtain ⟨j, hj⟩ := wrapIdx_apply w p
    rw [hj]; exact wrap_word (w j) (hw j)
  funext i
  unfold takeRows
  rw [select_apply, rowMask_one _ (inRange_one _ hW) i, select_one]

/-- An entry of the source row of the edge list is an entry of the edge list. -/
theorem srcOf_apply (e : IVec S2x1600000 32) (j : S1600000.Idx) : ∃ k : S2x1600000.Idx, srcOf e j = e k := by
  have hj : (j 0).val < 1600000 := (j 0).isLt
  unfold srcOf
  refine ⟨fun a => match a with | ⟨0, _⟩ => ⟨0, by show 0 < 2; omega⟩ | ⟨1, _⟩ => ⟨(j 0).val, hj⟩, ?_⟩
  rw [shapeCast_apply _ shapeCasts_S1x1600000_S1600000 j (fun a => match a with | ⟨0, _⟩ => ⟨0, Nat.one_pos⟩ | ⟨1, _⟩ => ⟨(j 0).val, hj⟩)
    (by rewrite [Shape.rowMajor_val_two, Shape.rowMajor_val_one]; show 0 * 1600000 + (j 0).val = (j 0).val; omega)]
  exact extractStridedSlice_apply ![0, 0] e slices_S2x1600000_S1x1600000_0_0 _ _ (fun a => match a with
    | ⟨0, _⟩ => by show (0 : ℕ) = 0 + 0; omega
    | ⟨1, _⟩ => by show (j 0).val = 0 + (j 0).val; omega)

/-- An entry of the destination row of the edge list is an entry of the edge list. -/
theorem dstOf_apply (e : IVec S2x1600000 32) (j : S1600000.Idx) : ∃ k : S2x1600000.Idx, dstOf e j = e k := by
  have hj : (j 0).val < 1600000 := (j 0).isLt
  unfold dstOf
  refine ⟨fun a => match a with | ⟨0, _⟩ => ⟨1, by show 1 < 2; omega⟩ | ⟨1, _⟩ => ⟨(j 0).val, hj⟩, ?_⟩
  rw [shapeCast_apply _ shapeCasts_S1x1600000_S1600000 j (fun a => match a with | ⟨0, _⟩ => ⟨0, Nat.one_pos⟩ | ⟨1, _⟩ => ⟨(j 0).val, hj⟩)
    (by rewrite [Shape.rowMajor_val_two, Shape.rowMajor_val_one]; show 0 * 1600000 + (j 0).val = (j 0).val; omega)]
  exact extractStridedSlice_apply ![1, 0] e slices_S2x1600000_S1x1600000_1_0 _ _ (fun a => match a with
    | ⟨0, _⟩ => by show (1 : ℕ) = 1 + 0; omega
    | ⟨1, _⟩ => by show (j 0).val = 0 + (j 0).val; omega)

/-- If every entry of the edge list is a node index counted from either end (`-100000 ≤ i < 100000`), every wrapped
    source index lies in `0 … 99999`, the range test is true at every edge, and the lookup is the gather. -/
theorem takeRows_srcOf {F : FTy → Type} [FloatOps F] (x : FVec F S100000x64 .f32) (e : IVec S2x1600000 32)
    (he : ∀ i : S2x1600000.Idx, (-100000 : ℤ) ≤ (e i).toInt ∧ (e i).toInt < 100000) :
    takeRows x (srcOf e) = gatherRows x (srcOf e) :=
  takeRows_of_nodeIdx x (srcOf e) fun j => by
    obtain ⟨k, hk⟩ := srcOf_apply e j
    rw [hk]; exact he k

/-- The same for the destination indices. -/
theorem takeRows_dstOf {F : FTy → Type} [FloatOps F] (x : FVec F S100000x64 .f32) (e : IVec S2x1600000 32)
    (he : ∀ i : S2x1600000.Idx, (-100000 : ℤ) ≤ (e i).toInt ∧ (e i).toInt < 100000) :
    takeRows x (dstOf e) = gatherRows x (dstOf e) :=
  takeRows_of_nodeIdx x (dstOf e) fun j => by
    obtain ⟨k, hk⟩ := dstOf_apply e j
    rw [hk]; exact he k

end Cert.KernelIdeal.Glue

end
-- ==== Proof.Spec.lean ====
/-
  The mathematics of the three perceptron stages, stated once.

  Each of the three stages (on edges, on nodes, on graphs) takes a row `z` — several input rows laid end to end —
  and computes two rectified affine layers of width 128:

      h k   = max (∑ j, z j * w₁ j k + b₁ k) 0
      out n = max (∑ k, h k * w₂ k n + b₂ n) 0

  over the extended reals. `stage2` / `stage3` are the whole-array forms: row `r` of the result is that function of
  row `r` of each input array. They are generic in the number of rows, so the same term describes one block of rows
  and the whole array: a block of the result is the same function of the same block of the inputs.
-/
import Idealize.ShloMosaic.Lib.ValueIdx

noncomputable section

open scoped BigOperators

namespace GraphNet

open Idealize.ShloMosaic Idealize.ShloMosaic.ValueIdx

/-- One output of a rectified affine layer with 128 outputs: the input row against column `n` of the weights, plus
    the bias, cut off below at zero. -/
def layer {K : ℕ} (z : Fin K → EReal) (w : Fin K → Fin 128 → EReal) (b : Fin 128 → EReal) (n : Fin 128) : EReal :=
  max ((∑ j : Fin K, z j * w j n) + b n) 0

/-- Two such layers, one after the other. -/
def mlp {K : ℕ} (z : Fin K → EReal) (w₁ : Fin K → Fin 128 → EReal) (b₁ : Fin 128 → EReal)
    (w₂ : Fin 128 → Fin 128 → EReal) (b₂ : Fin 128 → EReal) (n : Fin 128) : EReal :=
  layer (layer z w₁ b₁) w₂ b₂ n

/-- Two rows laid end to end (positions past both read zero; no caller reaches them). -/
def cat2 {A B K : ℕ} (x : Fin A → EReal) (y : Fin B → EReal) (j : Fin K) : EReal :=
  if h : j.val < A then x ⟨j.val, h⟩
  else if h' : j.val - A < B then y ⟨j.val - A, h'⟩ else 0

/-- Three rows laid end to end (positions past all three read zero; no caller reaches them). -/
def cat3 {A B C K : ℕ} (x : Fin A → EReal) (y : Fin B → EReal) (z : Fin C → EReal) (j : Fin K) : EReal :=
  if h : j.val < A then x ⟨j.val, h⟩
  else if h' : j.val - A < B then y ⟨j.val - A, h'⟩
  else if h'' : j.val - A - B < C then z ⟨j.val - A - B, h''⟩ else 0

/-- The first coordinate of a rank-2 index, typed by the first extent. -/
abbrev row {R N : ℕ} (i : (⟨2, ![R, N]⟩ : Shape).Idx) : Fin R := ⟨(i 0).val, idx2_lt0 i⟩
/-- The second coordinate of a rank-2 index, typed by the second extent. -/
abbrev col {R N : ℕ} (i : (⟨2, ![R, N]⟩ : Shape).Idx) : Fin N := ⟨(i 1).val, idx2_lt1 i⟩

/-- A stage whose input row is two rows laid end to end, as a function of whole arrays: entry `(r, n)` of the result
    is output `n` of the two layers on row `r` of `x` followed by row `r` of `y`. The biases are rows `[1, 128]`. -/
def stage2 {R A B K : ℕ} (x : (⟨2, ![R, A]⟩ : Shape).Idx → EReal) (y : (⟨2, ![R, B]⟩ : Shape).Idx → EReal)
    (w₁ : (⟨2, ![K, 128]⟩ : Shape).Idx → EReal) (b₁ : (⟨2, ![1, 128]⟩ : Shape).Idx → EReal)
    (w₂ : (⟨2, ![128, 128]⟩ : Shape).Idx → EReal) (b₂ : (⟨2, ![1, 128]⟩ : Shape).Idx → EReal) :
    (⟨2, ![R, 128]⟩ : Shape).Idx → EReal :=
  fun i => mlp (cat2 (K := K) (fun j => x (ix2 (row i) j)) (fun j => y (ix2 (row i) j)))
    (fun j k => w₁ (ix2 j k)) (fun k => b₁ (ix2 0 k)) (fun k n => w₂ (ix2 k n)) (fun n => b₂ (ix2 0 n)) (col i)

/-- The same with three input rows laid end to end. -/
def stage3 {R A B C K : ℕ} (x : (⟨2, ![R, A]⟩ : Shape).Idx → EReal) (y : (⟨2, ![R, B]⟩ : Shape).Idx → EReal)
    (z : (⟨2, ![R, C]⟩ : Shape).Idx → EReal)
    (w₁ : (⟨2, ![K, 128]⟩ : Shape).Idx → EReal) (b₁ : (⟨2, ![1, 128]⟩ : Shape).Idx → EReal)
    (w₂ : (⟨2, ![128, 128]⟩ : Shape).Idx → EReal) (b₂ : (⟨2, ![1, 128]⟩ : Shape).Idx → EReal) :
    (⟨2, ![R, 128]⟩ : Shape).Idx → EReal :=
  fun i => mlp (cat3 (K := K) (fun j => x (ix2 (row i) j)) (fun j => y (ix2 (row i) j)) (fun j => z (ix2 (row i) j)))
    (fun j k => w₁ (ix2 j k)) (fun k => b₁ (ix2 0 k)) (fun k n => w₂ (ix2 k n)) (fun n => b₂ (ix2 0 n)) (col i)

/-- A bias vector `[128]` as the row `[1, 128]` both programs broadcast from. -/
def biasRow (b : (⟨1, ![128]⟩ : Shape).Idx → EReal) : (⟨2, ![1, 128]⟩ : Shape).Idx → EReal :=
  fun i => b (ix1 (col i))

end GraphNet

end
-- ==== Proof.KValue.lean ====
import proofs.«402856_j7584912245437_1_alg».proof.Proof.KTake
import proofs.«402856_j7584912245437_1_alg».proof.Proof.Spec

noncomputable section

namespace Cert.KernelIdeal.Glue

open Cert.KernelIdeal Cert.KernelIdeal.Gen Idealize.ShloMosaic Idealize.ShloMosaic.TcCoe

/-! ## What the kernel program computes, as one function of its nineteen argument arrays

Three stages, each two rectified layers on rows: on every edge, the rows of its two end nodes and its attribute row;
on every node, its feature row and the sum of the edge results arriving at it; on every graph, its feature row and the
sum of its nodes' results; then one last affine map to a number per graph. The sums are the host's scatter-adds. -/

/-- A bias vector as the `[1, 128]` row the regions read. -/
def biasOf (b : FVec Ideal S128 .f32) : FVec Ideal S1x128 .f32 := shapeCast _ b shapeCasts_S128_S1x128

/-- The edge stage's result, `[1600000, 128]`. -/
def edgeOut (a0 : FVec Ideal S100000x64 .f32) (a1 : IVec S2x1600000 32) (a2 : FVec Ideal S1600000x32 .f32)
    (a5 : FVec Ideal S160x128 .f32) (a6 : FVec Ideal S128 .f32) (a7 : FVec Ideal S128x128 .f32) (a8 : FVec Ideal S128 .f32) :
    FVec Ideal S1600000x128 .f32 :=
  GraphNet.stage3 (K := 160) (gatherRows (F := Ideal) a0 (srcOf a1)) (gatherRows (F := Ideal) a0 (dstOf a1)) a2 a5 (biasOf a6) a7 (biasOf a8)

/-- The edge results summed at their destination nodes, `[100000, 128]`. -/
def edgeSum (a0 : FVec Ideal S100000x64 .f32) (a1 : IVec S2x1600000 32) (a2 : FVec Ideal S1600000x32 .f32)
    (a5 : FVec Ideal S160x128 .f32) (a6 : FVec Ideal S128 .f32) (a7 : FVec Ideal S128x128 .f32) (a8 : FVec Ideal S128 .f32) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstOf a1))
    (edgeOut a0 a1 a2 a5 a6 a7 a8)

/-- The node stage's result, `[100000, 128]`. -/
def nodeOut (a0 : FVec Ideal S100000x64 .f32) (a1 : IVec S2x1600000 32) (a2 : FVec Ideal S1600000x32 .f32)
    (a5 : FVec Ideal S160x128 .f32) (a6 : FVec Ideal S128 .f32) (a7 : FVec Ideal S128x128 .f32) (a8 : FVec Ideal S128 .f32)
    (a9 : FVec Ideal S192x128 .f32) (a10 : FVec Ideal S128 .f32) (a11 : FVec Ideal S128x128 .f32) (a12 : FVec Ideal S128 .f32) :
    FVec Ideal S100000x128 .f32 :=
  GraphNet.stage2 (K := 192) a0 (edgeSum a0 a1 a2 a5 a6 a7 a8) a9 (biasOf a10) a11 (biasOf a12)

/-- The node results summed per graph, `[1024, 128]`. -/
def nodeSum (a0 : FVec Ideal S100000x64 .f32) (a1 : IVec S2x1600000 32) (a2 : FVec Ideal S1600000x32 .f32) (a3 : FVec Ideal S1024x16 .f32)
    (a4 : IVec S100000 32) (a5 : FVec Ideal S160x128 .f32) (a6 : FVec Ideal S128 .f32) (a7 : FVec Ideal S128x128 .f32) (a8 : FVec Ideal S128 .f32)
    (a9 : FVec Ideal S192x128 .f32) (a10 : FVec Ideal S128 .f32) (a11 : FVec Ideal S128x128 .f32) (a12 : FVec Ideal S128 .f32) :
    FVec Ideal S1024x128 .f32 :=
  Host.scatterAdd (F := Ideal) scatter_S1024x128_S100000x1_S100000x128_1_0_0_1
    (broadcastInDim S1024x128 ![] bcast_S_S1024x128 (constant (F := Ideal) S_ .f32 0x00000000#32))
    (broadcastInDim S100000x1 ![0] bcast_S100000_S100000x1_0 a4)
    (nodeOut a0 a1 a2 a5 a6 a7 a8 a9 a10 a11 a12)

/-- The graph stage's result, `[1024, 128]`. -/
def graphOut (a0 : FVec Ideal S100000x64 .f32) (a1 : IVec S2x1600000 32) (a2 : FVec Ideal S1600000x32 .f32) (a3 : FVec Ideal S1024x16 .f32)
    (a4 : IVec S100000 32) (a5 : FVec Ideal S160x128 .f32) (a6 : FVec Ideal S128 .f32) (a7 : FVec Ideal S128x128 .f32) (a8 : FVec Ideal S128 .f32)
    (a9 : FVec Ideal S192x128 .f32) (a10 : FVec Ideal S128 .f32) (a11 : FVec Ideal S128x128 .f32) (a12 : FVec Ideal S128 .f32)
    (a13 : FVec Ideal S144x128 .f32) (a14 : FVec Ideal S128 .f32) (a15 : FVec Ideal S128x128 .f32) (a16 : FVec Ideal S128 .f32) :
    FVec Ideal S1024x128 .f32 :=
  GraphNet.stage2 (K := 144) a3 (nodeSum a0 a1 a2 a3 a4 a5 a6 a7 a8 a9 a10 a11 a12) a13 (biasOf a14) a15 (biasOf a16)

/-- The program's result: the last affine map, one number per graph. -/
def result (a0 : FVec Ideal S100000x64 .f32) (a1 : IVec S2x1600000 32) (a2 : FVec Ideal S1600000x32 .f32) (a3 : FVec Ideal S1024x16 .f32)
    (a4 : IVec S100000 32) (a5 : FVec Ideal S160x128 .f32) (a6 : FVec Ideal S128 .f32) (a7 : FVec Ideal S128x128 .f32) (a8 : FVec Ideal S128 .f32)
    (a9 : FVec Ideal S192x128 .f32) (a10 : FVec Ideal S128 .f32) (a11 : FVec Ideal S128x128 .f32) (a12 : FVec Ideal S128 .f32)
    (a13 : FVec Ideal S144x128 .f32) (a14 : FVec Ideal S128 .f32) (a15 : FVec Ideal S128x128 .f32) (a16 : FVec Ideal S128 .f32)
    (a17 : FVec Ideal S128x1 .f32) (a18 : FVec Ideal S1 .f32) :
    FVec Ideal S1024 .f32 :=
  shapeCast _ (addf (Host.dotGeneral (F := Ideal) (φ₁ := .f32) (φ₂ := .f32) dot_S1024x128_S128x1_S1024x1_1_0_0_1_n_n none (graphOut a0 a1 a2 a3 a4 a5 a6 a7 a8 a9 a10 a11 a12 a13 a14 a15 a16) a17)
    (broadcastInDim S1024x1 ![0, 1] bcast_S1x1_S1024x1_0_1 (broadcastInDim S1x1 ![1] bcast_S1_S1x1_1 a18))) shapeCasts_S1024x1_S1024

end Cert.KernelIdeal.Glue

end
-- ==== Proof.KArgs.lean ====
import proofs.«402856_j7584912245437_1_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Glue

open Cert.KernelIdeal Cert.KernelIdeal.Gen Idealize.ShloMosaic Idealize.ShloMosaic.TcCoe Idealize.ShloMosaic.ValueIdx
open Idealize.ShloMosaic.Pipeline (Dat Cfg Window)
open Idealize.SL.Sem

open Idealize.ShloMosaic.StableHlo

/-! ## The argument arrays at the segment boundaries

No host operation and no region writes an argument array: a region reads it through an input window, whose array is the
same at the region's exit as at its entry, or does not touch it. So the fold through the program's segments, read at an
argument's buffer, walks back to the launch memory. -/

variable (m : (ℓ : Loc nD τ sig) → Buf (Elt Ideal) ℓ) (ρ : Dev nD → PrngReg)

-- at region 0's entry
set_option maxHeartbeats 2000000 in
theorem W4_arg2 (c : Dev nD) : W4 (F := Ideal) m ρ c (Proc.devRef .tc main_arg2) = m ((c : Thread nD τ).loc main_arg2) := by
  show StableHlo.after hostOps0_3 (StableHlo.after hostOps0_2 (StableHlo.after hostOps0_1 (StableHlo.after hostOps0 (W0 m ρ c)))) (Proc.devRef .tc main_arg2) = _
  after_results
set_option maxHeartbeats 2000000 in
theorem W4_arg5 (c : Dev nD) : W4 (F := Ideal) m ρ c (Proc.devRef .tc main_arg5) = m ((c : Thread nD τ).loc main_arg5) := by
  show StableHlo.after hostOps0_3 (StableHlo.after hostOps0_2 (StableHlo.after hostOps0_1 (StableHlo.after hostOps0 (W0 m ρ c)))) (Proc.devRef .tc main_arg5) = _
  after_results
set_option maxHeartbeats 2000000 in
theorem W4_arg7 (c : Dev nD) : W4 (F := Ideal) m ρ c (Proc.devRef .tc main_arg7) = m ((c : Thread nD τ).loc main_arg7) := by
  show StableHlo.after hostOps0_3 (StableHlo.after hostOps0_2 (StableHlo.after hostOps0_1 (StableHlo.after hostOps0 (W0 m ρ c)))) (Proc.devRef .tc main_arg7) = _
  after_results
-- the same for the arguments the later regions and stretches read
set_option maxHeartbeats 2000000 in
theorem W4_arg0 (c : Dev nD) : W4 (F := Ideal) m ρ c (Proc.devRef .tc main_arg0) = m ((c : Thread nD τ).loc main_arg0) := by
  show StableHlo.after hostOps0_3 (StableHlo.after hostOps0_2 (StableHlo.after hostOps0_1 (StableHlo.after hostOps0 (W0 m ρ c)))) (Proc.devRef .tc main_arg0) = _
  after_results
set_option maxHeartbeats 2000000 in
theorem W4_arg3 (c : Dev nD) : W4 (F := Ideal) m ρ c (Proc.devRef .tc main_arg3) = m ((c : Thread nD τ).loc main_arg3) := by
  show StableHlo.after hostOps0_3 (StableHlo.after hostOps0_2 (StableHlo.after hostOps0_1 (StableHlo.after hostOps0 (W0 m ρ c)))) (Proc.devRef .tc main_arg3) = _
  after_results
set_option maxHeartbeats 2000000 in
theorem W4_arg4 (c : Dev nD) : W4 (F := Ideal) m ρ c (Proc.devRef .tc main_arg4) = m ((c : Thread nD τ).loc main_arg4) := by
  show StableHlo.after hostOps0_3 (StableHlo.after hostOps0_2 (StableHlo.after hostOps0_1 (StableHlo.after hostOps0 (W0 m ρ c)))) (Proc.devRef .tc main_arg4) = _
  after_results
set_option maxHeartbeats 2000000 in
theorem W4_arg9 (c : Dev nD) : W4 (F := Ideal) m ρ c (Proc.devRef .tc main_arg9) = m ((c : Thread nD τ).loc main_arg9) := by
  show StableHlo.after hostOps0_3 (StableHlo.after hostOps0_2 (StableHlo.after hostOps0_1 (StableHlo.after hostOps0 (W0 m ρ c)))) (Proc.devRef .tc main_arg9) = _
  after_results
set_option maxHeartbeats 2000000 in
theorem W4_arg10 (c : Dev nD) : W4 (F := Ideal) m ρ c (Proc.devRef .tc main_arg10) = m ((c : Thread nD τ).loc main_arg10) := by
  show StableHlo.after hostOps0_3 (StableHlo.after hostOps0_2 (StableHlo.after hostOps0_1 (StableHlo.after hostOps0 (W0 m ρ c)))) (Proc.devRef .tc main_arg10) = _
  after_results
set_option maxHeartbeats 2000000 in
theorem W4_arg11 (c : Dev nD) : W4 (F := Ideal) m ρ c (Proc.devRef .tc main_arg11) = m ((c : Thread nD τ).loc main_arg11) := by
  show StableHlo.after hostOps0_3 (StableHlo.after hostOps0_2 (StableHlo.after hostOps0_1 (StableHlo.after hostOps0 (W0 m ρ c)))) (Proc.devRef .tc main_arg11) = _
  after_results
set_option maxHeartbeats 2000000 in
theorem W4_arg12 (c : Dev nD) : W4 (F := Ideal) m ρ c (Proc.devRef .tc main_arg12) = m ((c : Thread nD τ).loc main_arg12) := by
  show StableHlo.after hostOps0_3 (StableHlo.after hostOps0_2 (StableHlo.after hostOps0_1 (StableHlo.after hostOps0 (W0 m ρ c)))) (Proc.devRef .tc main_arg12) = _
  after_results
set_option maxHeartbeats 2000000 in
theorem W4_arg13 (c : Dev nD) : W4 (F := Ideal) m ρ c (Proc.devRef .tc main_arg13) = m ((c : Thread nD τ).loc main_arg13) := by
  show StableHlo.after hostOps0_3 (StableHlo.after hostOps0_2 (StableHlo.after hostOps0_1 (StableHlo.after hostOps0 (W0 m ρ c)))) (Proc.devRef .tc main_arg13) = _
  after_results
set_option maxHeartbeats 2000000 in
theorem W4_arg14 (c : Dev nD) : W4 (F := Ideal) m ρ c (Proc.devRef .tc main_arg14) = m ((c : Thread nD τ).loc main_arg14) := by
  show StableHlo.after hostOps0_3 (StableHlo.after hostOps0_2 (StableHlo.after hostOps0_1 (StableHlo.after hostOps0 (W0 m ρ c)))) (Proc.devRef .tc main_arg14) = _
  after_results
set_option maxHeartbeats 2000000 in
theorem W4_arg15 (c : Dev nD) : W4 (F := Ideal) m ρ c (Proc.devRef .tc main_arg15) = m ((c : Thread nD τ).loc main_arg15) := by
  show StableHlo.after hostOps0_3 (StableHlo.after hostOps0_2 (StableHlo.after hostOps0_1 (StableHlo.after hostOps0 (W0 m ρ c)))) (Proc.devRef .tc main_arg15) = _
  after_results
set_option maxHeartbeats 2000000 in
theorem W4_arg16 (c : Dev nD) : W4 (F := Ideal) m ρ c (Proc.devRef .tc main_arg16) = m ((c : Thread nD τ).loc main_arg16) := by
  show StableHlo.after hostOps0_3 (StableHlo.after hostOps0_2 (StableHlo.after hostOps0_1 (StableHlo.after hostOps0 (W0 m ρ c)))) (Proc.devRef .tc main_arg16) = _
  after_results
set_option maxHeartbeats 2000000 in
theorem W4_arg17 (c : Dev nD) : W4 (F := Ideal) m ρ c (Proc.devRef .tc main_arg17) = m ((c : Thread nD τ).loc main_arg17) := by
  show StableHlo.after hostOps0_3 (StableHlo.after hostOps0_2 (StableHlo.after hostOps0_1 (StableHlo.after hostOps0 (W0 m ρ c)))) (Proc.devRef .tc main_arg17) = _
  after_results
set_option maxHeartbeats 2000000 in
theorem W4_arg18 (c : Dev nD) : W4 (F := Ideal) m ρ c (Proc.devRef .tc main_arg18) = m ((c : Thread nD τ).loc main_arg18) := by
  show StableHlo.after hostOps0_3 (StableHlo.after hostOps0_2 (StableHlo.after hostOps0_1 (StableHlo.after hostOps0 (W0 m ρ c)))) (Proc.devRef .tc main_arg18) = _
  after_results
-- at region 0's exit
theorem W5_arg0 (c : Dev nD) : W5 (F := Ideal) m ρ c (Proc.devRef .tc main_arg0) = m ((c : Thread nD τ).loc main_arg0) :=
  (W5_of_ne m ρ c main_arg0 (by decide)).trans (W4_arg0 m ρ c)
theorem W5_arg9 (c : Dev nD) : W5 (F := Ideal) m ρ c (Proc.devRef .tc main_arg9) = m ((c : Thread nD τ).loc main_arg9) :=
  (W5_of_ne m ρ c main_arg9 (by decide)).trans (W4_arg9 m ρ c)
theorem W5_arg10 (c : Dev nD) : W5 (F := Ideal) m ρ c (Proc.devRef .tc main_arg10) = m ((c : Thread nD τ).loc main_arg10) :=
  (W5_of_ne m ρ c main_arg10 (by decide)).trans (W4_arg10 m ρ c)
theorem W5_arg11 (c : Dev nD) : W5 (F := Ideal) m ρ c (Proc.devRef .tc main_arg11) = m ((c : Thread nD τ).loc main_arg11) :=
  (W5_of_ne m ρ c main_arg11 (by decide)).trans (W4_arg11 m ρ c)
theorem W5_arg12 (c : Dev nD) : W5 (F := Ideal) m ρ c (Proc.devRef .tc main_arg12) = m ((c : Thread nD τ).loc main_arg12) :=
  (W5_of_ne m ρ c main_arg12 (by decide)).trans (W4_arg12 m ρ c)
-- the same for the arguments read after region 1
theorem W5_arg3 (c : Dev nD) : W5 (F := Ideal) m ρ c (Proc.devRef .tc main_arg3) = m ((c : Thread nD τ).loc main_arg3) :=
  (W5_of_ne m ρ c main_arg3 (by decide)).trans (W4_arg3 m ρ c)
theorem W5_arg4 (c : Dev nD) : W5 (F := Ideal) m ρ c (Proc.devRef .tc main_arg4) = m ((c : Thread nD τ).loc main_arg4) :=
  (W5_of_ne m ρ c main_arg4 (by decide)).trans (W4_arg4 m ρ c)
theorem W5_arg13 (c : Dev nD) : W5 (F := Ideal) m ρ c (Proc.devRef .tc main_arg13) = m ((c : Thread nD τ).loc main_arg13) :=
  (W5_of_ne m ρ c main_arg13 (by decide)).trans (W4_arg13 m ρ c)
theorem W5_arg14 (c : Dev nD) : W5 (F := Ideal) m ρ c (Proc.devRef .tc main_arg14) = m ((c : Thread nD τ).loc main_arg14) :=
  (W5_of_ne m ρ c main_arg14 (by decide)).trans (W4_arg14 m ρ c)
theorem W5_arg15 (c : Dev nD) : W5 (F := Ideal) m ρ c (Proc.devRef .tc main_arg15) = m ((c : Thread nD τ).loc main_arg15) :=
  (W5_of_ne m ρ c main_arg15 (by decide)).trans (W4_arg15 m ρ c)
theorem W5_arg16 (c : Dev nD) : W5 (F := Ideal) m ρ c (Proc.devRef .tc main_arg16) = m ((c : Thread nD τ).loc main_arg16) :=
  (W5_of_ne m ρ c main_arg16 (by decide)).trans (W4_arg16 m ρ c)
theorem W5_arg17 (c : Dev nD) : W5 (F := Ideal) m ρ c (Proc.devRef .tc main_arg17) = m ((c : Thread nD τ).loc main_arg17) :=
  (W5_of_ne m ρ c main_arg17 (by decide)).trans (W4_arg17 m ρ c)
theorem W5_arg18 (c : Dev nD) : W5 (F := Ideal) m ρ c (Proc.devRef .tc main_arg18) = m ((c : Thread nD τ).loc main_arg18) :=
  (W5_of_ne m ρ c main_arg18 (by decide)).trans (W4_arg18 m ρ c)
-- at region 1's exit
set_option maxHeartbeats 2000000 in
theorem W7_arg3 (c : Dev nD) : W7 (F := Ideal) m ρ c (Proc.devRef .tc main_arg3) = m ((c : Thread nD τ).loc main_arg3) :=
  (W7_of_ne m ρ c main_arg3 (by decide)).trans (by
    show StableHlo.after hostOps1 (W5 m ρ c) (Proc.devRef .tc main_arg3) = _
    after_results
    exact W5_arg3 m ρ c)
set_option maxHeartbeats 2000000 in
theorem W7_arg4 (c : Dev nD) : W7 (F := Ideal) m ρ c (Proc.devRef .tc main_arg4) = m ((c : Thread nD τ).loc main_arg4) :=
  (W7_of_ne m ρ c main_arg4 (by decide)).trans (by
    show StableHlo.after hostOps1 (W5 m ρ c) (Proc.devRef .tc main_arg4) = _
    after_results
    exact W5_arg4 m ρ c)
set_option maxHeartbeats 2000000 in
theorem W7_arg13 (c : Dev nD) : W7 (F := Ideal) m ρ c (Proc.devRef .tc main_arg13) = m ((c : Thread nD τ).loc main_arg13) :=
  (W7_of_ne m ρ c main_arg13 (by decide)).trans (by
    show StableHlo.after hostOps1 (W5 m ρ c) (Proc.devRef .tc main_arg13) = _
    after_results
    exact W5_arg13 m ρ c)
set_option maxHeartbeats 2000000 in
theorem W7_arg14 (c : Dev nD) : W7 (F := Ideal) m ρ c (Proc.devRef .tc main_arg14) = m ((c : Thread nD τ).loc main_arg14) :=
  (W7_of_ne m ρ c main_arg14 (by decide)).trans (by
    show StableHlo.after hostOps1 (W5 m ρ c) (Proc.devRef .tc main_arg14) = _
    after_results
    exact W5_arg14 m ρ c)
set_option maxHeartbeats 2000000 in
theorem W7_arg15 (c : Dev nD) : W7 (F := Ideal) m ρ c (Proc.devRef .tc main_arg15) = m ((c : Thread nD τ).loc main_arg15) :=
  (W7_of_ne m ρ c main_arg15 (by decide)).trans (by
    show StableHlo.after hostOps1 (W5 m ρ c) (Proc.devRef .tc main_arg15) = _
    after_results
    exact W5_arg15 m ρ c)
set_option maxHeartbeats 2000000 in
theorem W7_arg16 (c : Dev nD) : W7 (F := Ideal) m ρ c (Proc.devRef .tc main_arg16) = m ((c : Thread nD τ).loc main_arg16) :=
  (W7_of_ne m ρ c main_arg16 (by decide)).trans (by
    show StableHlo.after hostOps1 (W5 m ρ c) (Proc.devRef .tc main_arg16) = _
    after_results
    exact W5_arg16 m ρ c)
-- the same for the arguments read after region 2
set_option maxHeartbeats 2000000 in
theorem W7_arg17 (c : Dev nD) : W7 (F := Ideal) m ρ c (Proc.devRef .tc main_arg17) = m ((c : Thread nD τ).loc main_arg17) :=
  (W7_of_ne m ρ c main_arg17 (by decide)).trans (by
    show StableHlo.after hostOps1 (W5 m ρ c) (Proc.devRef .tc main_arg17) = _
    after_results
    exact W5_arg17 m ρ c)
set_option maxHeartbeats 2000000 in
theorem W7_arg18 (c : Dev nD) : W7 (F := Ideal) m ρ c (Proc.devRef .tc main_arg18) = m ((c : Thread nD τ).loc main_arg18) :=
  (W7_of_ne m ρ c main_arg18 (by decide)).trans (by
    show StableHlo.after hostOps1 (W5 m ρ c) (Proc.devRef .tc main_arg18) = _
    after_results
    exact W5_arg18 m ρ c)
-- at region 2's exit
set_option maxHeartbeats 2000000 in
theorem W9_arg17 (c : Dev nD) : W9 (F := Ideal) m ρ c (Proc.devRef .tc main_arg17) = m ((c : Thread nD τ).loc main_arg17) :=
  (W9_of_ne m ρ c main_arg17 (by decide)).trans (by
    show StableHlo.after hostOps2 (W7 m ρ c) (Proc.devRef .tc main_arg17) = _
    after_results
    exact W7_arg17 m ρ c)
set_option maxHeartbeats 2000000 in
theorem W9_arg18 (c : Dev nD) : W9 (F := Ideal) m ρ c (Proc.devRef .tc main_arg18) = m ((c : Thread nD τ).loc main_arg18) :=
  (W9_of_ne m ρ c main_arg18 (by decide)).trans (by
    show StableHlo.after hostOps2 (W7 m ρ c) (Proc.devRef .tc main_arg18) = _
    after_results
    exact W7_arg18 m ρ c)

end Cert.KernelIdeal.Glue

end
-- ==== Proof.KEdgePay.lean ====
import proofs.«402856_j7584912245437_1_alg».proof.Proof.Gen.KernelIdeal.Frame
import proofs.«402856_j7584912245437_1_alg».proof.Proof.Spec

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeStage

open Cert.KernelIdeal Cert.KernelIdeal.Gen Idealize.ShloMosaic Idealize.ShloMosaic.TcCoe Idealize.ShloMosaic.ValueIdx
open Idealize.ShloMosaic.Pipeline (Dat Cfg Window)
open Idealize.SL.Sem

/-- The left operand of the first product is read at the result's row … -/
theorem lhs_first_0 (i : S6400x128.Idx) (q : dot_S6400x160_S160x128_S6400x128_1_0_0_1_n_n.contr.Idx) :
    (dot_S6400x160_S160x128_S6400x128_1_0_0_1_n_n.lhsIdx i q 0).val = (i 0).val := by
  unfold DotDims.lhsIdx
  rw [dif_neg (show ¬(0 : Fin S6400x160.rank) ∈ dot_S6400x160_S160x128_S6400x128_1_0_0_1_n_n.lhsBatch by decide), dif_pos (show (0 : Fin S6400x160.rank) ∈ dot_S6400x160_S160x128_S6400x128_1_0_0_1_n_n.lhsNonContracting by decide)]
  rfl
/-- … and at the contraction position; -/
theorem lhs_first_1 (i : S6400x128.Idx) (q : dot_S6400x160_S160x128_S6400x128_1_0_0_1_n_n.contr.Idx) :
    (dot_S6400x160_S160x128_S6400x128_1_0_0_1_n_n.lhsIdx i q 1).val = (q ⟨0, by decide⟩).val :=
  dot_S6400x160_S160x128_S6400x128_1_0_0_1_n_n.lhsIdx_val_of_single rfl i q
/-- the right operand at the contraction position … -/
theorem rhs_first_0 (i : S6400x128.Idx) (q : dot_S6400x160_S160x128_S6400x128_1_0_0_1_n_n.contr.Idx) :
    (dot_S6400x160_S160x128_S6400x128_1_0_0_1_n_n.rhsIdx i q 0).val = (q ⟨0, by decide⟩).val :=
  dot_S6400x160_S160x128_S6400x128_1_0_0_1_n_n.rhsIdx_val_of_single rfl i q
/-- … and at the result's column. -/
theorem rhs_first_1 (i : S6400x128.Idx) (q : dot_S6400x160_S160x128_S6400x128_1_0_0_1_n_n.contr.Idx) :
    (dot_S6400x160_S160x128_S6400x128_1_0_0_1_n_n.rhsIdx i q 1).val = (i 1).val := by
  unfold DotDims.rhsIdx
  rw [dif_neg (show ¬(1 : Fin S160x128.rank) ∈ dot_S6400x160_S160x128_S6400x128_1_0_0_1_n_n.rhsBatch by decide), dif_pos (show (1 : Fin S160x128.rank) ∈ dot_S6400x160_S160x128_S6400x128_1_0_0_1_n_n.rhsNonContracting by decide)]
  rfl

/-- The first product into the zero accumulator, read at `(p, n)`: the sum over the 160 contraction positions of
    row `p` of the left operand against column `n` of the right. -/
theorem matmul_first_apply (y : FVec Ideal S6400x160 .bf16) (w : FVec Ideal S160x128 .bf16) (p : Fin 6400) (n : Fin 128) :
    matmul dot_S6400x160_S160x128_S6400x128_1_0_0_1_n_n none y w (constant (F := Ideal) S6400x128 .f32 0x00000000#32) (ix2 p n)
      = ∑ k : Fin 160, y (ix2 p k) * w (ix2 k n) := by
  simp only [matmul]
  rw [Ideal.matmul_constant_zero_apply, ← Equiv.sum_comp (contrEquiv1 dot_S6400x160_S160x128_S6400x128_1_0_0_1_n_n 160 rfl rfl).symm]
  refine Finset.sum_congr rfl fun k _ => ?_
  have hk := contrEquiv1_symm_val dot_S6400x160_S160x128_S6400x128_1_0_0_1_n_n 160 rfl rfl k
  have el : dot_S6400x160_S160x128_S6400x128_1_0_0_1_n_n.lhsIdx (ix2 p n) ((contrEquiv1 dot_S6400x160_S160x128_S6400x128_1_0_0_1_n_n 160 rfl rfl).symm k) = ix2 p k := funext fun a => Fin.ext (by
    match a with
    | ⟨0, _⟩ => exact lhs_first_0 _ _
    | ⟨1, _⟩ => exact (lhs_first_1 _ _).trans hk)
  have er : dot_S6400x160_S160x128_S6400x128_1_0_0_1_n_n.rhsIdx (ix2 p n) ((contrEquiv1 dot_S6400x160_S160x128_S6400x128_1_0_0_1_n_n 160 rfl rfl).symm k) = ix2 k n := funext fun a => Fin.ext (by
    match a with
    | ⟨0, _⟩ => exact (rhs_first_0 _ _).trans hk
    | ⟨1, _⟩ => exact rhs_first_1 _ _)
  rw [el, er]

/-- The left operand of the second product is read at the result's row … -/
theorem lhs_second_0 (i : S6400x128.Idx) (q : dot_S6400x128_S128x128_S6400x128_1_0_0_1_n_n.contr.Idx) :
    (dot_S6400x128_S128x128_S6400x128_1_0_0_1_n_n.lhsIdx i q 0).val = (i 0).val := by
  unfold DotDims.lhsIdx
  rw [dif_neg (show ¬(0 : Fin S6400x128.rank) ∈ dot_S6400x128_S128x128_S6400x128_1_0_0_1_n_n.lhsBatch by decide), dif_pos (show (0 : Fin S6400x128.rank) ∈ dot_S6400x128_S128x128_S6400x128_1_0_0_1_n_n.lhsNonContracting by decide)]
  rfl
/-- … and at the contraction position; -/
theorem lhs_second_1 (i : S6400x128.Idx) (q : dot_S6400x128_S128x128_S6400x128_1_0_0_1_n_n.contr.Idx) :
    (dot_S6400x128_S128x128_S6400x128_1_0_0_1_n_n.lhsIdx i q 1).val = (q ⟨0, by decide⟩).val :=
  dot_S6400x128_S128x128_S6400x128_1_0_0_1_n_n.lhsIdx_val_of_single rfl i q
/-- the right operand at the contraction position … -/
theorem rhs_second_0 (i : S6400x128.Idx) (q : dot_S6400x128_S128x128_S6400x128_1_0_0_1_n_n.contr.Idx) :
    (dot_S6400x128_S128x128_S6400x128_1_0_0_1_n_n.rhsIdx i q 0).val = (q ⟨0, by decide⟩).val :=
  dot_S6400x128_S128x128_S6400x128_1_0_0_1_n_n.rhsIdx_val_of_single rfl i q
/-- … and at the result's column. -/
theorem rhs_second_1 (i : S6400x128.Idx) (q : dot_S6400x128_S128x128_S6400x128_1_0_0_1_n_n.contr.Idx) :
    (dot_S6400x128_S128x128_S6400x128_1_0_0_1_n_n.rhsIdx i q 1).val = (i 1).val := by
  unfold DotDims.rhsIdx
  rw [dif_neg (show ¬(1 : Fin S128x128.rank) ∈ dot_S6400x128_S128x128_S6400x128_1_0_0_1_n_n.rhsBatch by decide), dif_pos (show (1 : Fin S128x128.rank) ∈ dot_S6400x128_S128x128_S6400x128_1_0_0_1_n_n.rhsNonContracting by decide)]
  rfl

/-- The second product into the zero accumulator, read at `(p, n)`: the sum over the 128 contraction positions of
    row `p` of the left operand against column `n` of the right. -/
theorem matmul_second_apply (y : FVec Ideal S6400x128 .bf16) (w : FVec Ideal S128x128 .bf16) (p : Fin 6400) (n : Fin 128) :
    matmul dot_S6400x128_S128x128_S6400x128_1_0_0_1_n_n none y w (constant (F := Ideal) S6400x128 .f32 0x00000000#32) (ix2 p n)
      = ∑ k : Fin 128, y (ix2 p k) * w (ix2 k n) := by
  simp only [matmul]
  rw [Ideal.matmul_constant_zero_apply, ← Equiv.sum_comp (contrEquiv1 dot_S6400x128_S128x128_S6400x128_1_0_0_1_n_n 128 rfl rfl).symm]
  refine Finset.sum_congr rfl fun k _ => ?_
  have hk := contrEquiv1_symm_val dot_S6400x128_S128x128_S6400x128_1_0_0_1_n_n 128 rfl rfl k
  have el : dot_S6400x128_S128x128_S6400x128_1_0_0_1_n_n.lhsIdx (ix2 p n) ((contrEquiv1 dot_S6400x128_S128x128_S6400x128_1_0_0_1_n_n 128 rfl rfl).symm k) = ix2 p k := funext fun a => Fin.ext (by
    match a with
    | ⟨0, _⟩ => exact lhs_second_0 _ _
    | ⟨1, _⟩ => exact (lhs_second_1 _ _).trans hk)
  have er : dot_S6400x128_S128x128_S6400x128_1_0_0_1_n_n.rhsIdx (ix2 p n) ((contrEquiv1 dot_S6400x128_S128x128_S6400x128_1_0_0_1_n_n 128 rfl rfl).symm k) = ix2 k n := funext fun a => Fin.ext (by
    match a with
    | ⟨0, _⟩ => exact (rhs_second_0 _ _).trans hk
    | ⟨1, _⟩ => exact rhs_second_1 _ _)
  rw [el, er]

/-- The three input blocks laid side by side, read at `(p, j)`: row `p` of the first block for the first 64 columns,
    of the second for the next 64, of the third for the last 32. -/
theorem concat_apply (a b : FVec Ideal S6400x64 .bf16) (c : FVec Ideal S6400x32 .bf16) (p : Fin 6400) (j : Fin 160) :
    concatenate S6400x160 1 [⟨S6400x64, a⟩, ⟨S6400x64, b⟩, ⟨S6400x32, c⟩]
        concatenates_S6400x64_S6400x64_S6400x32_S6400x160_d1 (ix2 p j)
      = GraphNet.cat3 (K := 160) (fun j => a (ix2 p j)) (fun j => b (ix2 p j)) (fun j => c (ix2 p j)) j := by
  unfold GraphNet.cat3
  by_cases h1 : j.val < 64
  · rw [dif_pos h1]
    refine concatenate_apply_piece 1 _ _ (ix2 p j) 0 (by show 0 < 3; decide) S6400x64 a rfl rfl 0 rfl (ix2 p ⟨j.val, h1⟩) (fun ax hax => ?_) ?_
    · match ax with
      | ⟨0, _⟩ => rfl
      | ⟨1, _⟩ => exact absurd rfl hax
    · show 0 + j.val = j.val
      omega
  · rw [dif_neg h1]
    by_cases h2 : j.val - 64 < 64
    · rw [dif_pos h2]
      refine concatenate_apply_piece 1 _ _ (ix2 p j) 1 (by show 1 < 3; decide) S6400x64 b rfl rfl 64 rfl (ix2 p ⟨j.val - 64, h2⟩) (fun ax hax => ?_) ?_
      · match ax with
        | ⟨0, _⟩ => rfl
        | ⟨1, _⟩ => exact absurd rfl hax
      · show 64 + (j.val - 64) = j.val
        omega
    · rw [dif_neg h2]
      have h3 : j.val - 64 - 64 < 32 := by have := j.isLt; omega
      rw [dif_pos h3]
      refine concatenate_apply_piece 1 _ _ (ix2 p j) 2 (by show 2 < 3; decide) S6400x32 c rfl rfl 128 rfl (ix2 p ⟨j.val - 64 - 64, h3⟩) (fun ax hax => ?_) ?_
      · match ax with
        | ⟨0, _⟩ => rfl
        | ⟨1, _⟩ => exact absurd rfl hax
      · show 128 + (j.val - 64 - 64) = j.val
        omega

/-- One rectified layer on the first product, read at `(p, n)`: whatever row `p` of the left operand, the weights
    and the bias row are known to be (`hz`, `hW`, `hB`), the result there is that row's layer output `n`. -/
theorem layer_first_apply (y : FVec Ideal S6400x160 .bf16) (w : FVec Ideal S160x128 .bf16) (b : FVec Ideal S1x128 .f32)
    (p : Fin 6400) (n : Fin 128) (z : Fin 160 → EReal) (W : Fin 160 → Fin 128 → EReal) (B : Fin 128 → EReal)
    (hz : ∀ k, y (ix2 p k) = z k) (hW : ∀ k m, w (ix2 k m) = W k m) (hB : ∀ m, b (ix2 (0 : Fin 1) m) = B m) :
    maximumf (addf (matmul dot_S6400x160_S160x128_S6400x128_1_0_0_1_n_n none y w (constant (F := Ideal) S6400x128 .f32 0x00000000#32))
        (broadcastTo S6400x128 b broadcasts_S1x128_S6400x128))
      (broadcast S6400x128 (Scalar.ofBits (F := Ideal) .f32 0x00000000#32)) (ix2 p n) = GraphNet.layer z W B n := by
  show max (matmul dot_S6400x160_S160x128_S6400x128_1_0_0_1_n_n none y w (constant (F := Ideal) S6400x128 .f32 0x00000000#32) (ix2 p n)
      + broadcastTo S6400x128 b broadcasts_S1x128_S6400x128 (ix2 p n)) (Ideal.ofBits .f32 0x00000000#32)
    = max ((∑ j : Fin 160, z j * W j n) + B n) 0
  rw [matmul_first_apply, broadcastTo_1b_ab_apply, Ideal.ofBits_zero_f32, hB n,
    Finset.sum_congr rfl fun k _ => (by rw [hz k, hW k n] : y (ix2 p k) * w (ix2 k n) = z k * W k n)]

/-- One rectified layer on the second product, read at `(p, n)`: whatever row `p` of the left operand, the weights
    and the bias row are known to be (`hz`, `hW`, `hB`), the result there is that row's layer output `n`. -/
theorem layer_second_apply (y : FVec Ideal S6400x128 .bf16) (w : FVec Ideal S128x128 .bf16) (b : FVec Ideal S1x128 .f32)
    (p : Fin 6400) (n : Fin 128) (z : Fin 128 → EReal) (W : Fin 128 → Fin 128 → EReal) (B : Fin 128 → EReal)
    (hz : ∀ k, y (ix2 p k) = z k) (hW : ∀ k m, w (ix2 k m) = W k m) (hB : ∀ m, b (ix2 (0 : Fin 1) m) = B m) :
    maximumf (addf (matmul dot_S6400x128_S128x128_S6400x128_1_0_0_1_n_n none y w (constant (F := Ideal) S6400x128 .f32 0x00000000#32))
        (broadcastTo S6400x128 b broadcasts_S1x128_S6400x128))
      (broadcast S6400x128 (Scalar.ofBits (F := Ideal) .f32 0x00000000#32)) (ix2 p n) = GraphNet.layer z W B n := by
  show max (matmul dot_S6400x128_S128x128_S6400x128_1_0_0_1_n_n none y w (constant (F := Ideal) S6400x128 .f32 0x00000000#32) (ix2 p n)
      + broadcastTo S6400x128 b broadcasts_S1x128_S6400x128 (ix2 p n)) (Ideal.ofBits .f32 0x00000000#32)
    = max ((∑ j : Fin 128, z j * W j n) + B n) 0
  rw [matmul_second_apply, broadcastTo_1b_ab_apply, Ideal.ofBits_zero_f32, hB n,
    Finset.sum_congr rfl fun k _ => (by rw [hz k, hW k n] : y (ix2 p k) * w (ix2 k n) = z k * W k n)]

/-- The specification's whole-array function read at `(p, n)`: the two layers on row `p` of the three inputs laid end
    to end. -/
theorem stage3_apply {R A B C K : ℕ} (x : (⟨2, ![R, A]⟩ : Shape).Idx → EReal) (y : (⟨2, ![R, B]⟩ : Shape).Idx → EReal)
    (z : (⟨2, ![R, C]⟩ : Shape).Idx → EReal)
    (w₁ : (⟨2, ![K, 128]⟩ : Shape).Idx → EReal) (b₁ : (⟨2, ![1, 128]⟩ : Shape).Idx → EReal)
    (w₂ : (⟨2, ![128, 128]⟩ : Shape).Idx → EReal) (b₂ : (⟨2, ![1, 128]⟩ : Shape).Idx → EReal) (p : Fin R) (n : Fin 128) :
    GraphNet.stage3 (K := K) x y z w₁ b₁ w₂ b₂ (ix2 p n)
      = GraphNet.layer (GraphNet.layer
          (GraphNet.cat3 (K := K) (fun j => x (ix2 p j)) (fun j => y (ix2 p j)) (fun j => z (ix2 p j)))
          (fun j k => w₁ (ix2 j k)) (fun k => b₁ (ix2 0 k))) (fun k m => w₂ (ix2 k m)) (fun m => b₂ (ix2 0 m)) n := rfl

/-- The edge stage's block: the body's result on a block of 6400 edges is the two rectified layers, row by row, of the
    three input blocks' rows laid end to end. -/
theorem payload (x0 x1 : Vec Ideal S6400x64 .f32) (x2 : Vec Ideal S6400x32 .f32) (x3 : Vec Ideal S160x128 .f32)
    (x4 : Vec Ideal S1x128 .f32) (x5 : Vec Ideal S128x128 .f32) (x6 : Vec Ideal S1x128 .f32) :
    k0_pay1 (F := Ideal) x0 x1 x2 x3 x4 x5 x6 = GraphNet.stage3 (K := 160) x0 x1 x2 x3 x4 x5 x6 := by
  funext i
  obtain ⟨p, n, rfl⟩ : ∃ (p : Fin 6400) (n : Fin 128), i = ix2 p n := ⟨_, _, eq_ix2 i⟩
  rw [stage3_apply]
  unfold k0_pay1
  rw [shapeCast_self x0, shapeCast_self x1, shapeCast_self x4, shapeCast_self x6]
  refine layer_second_apply _ _ _ p n _ _ _ (fun k => ?_) (fun k m => rfl) (fun m => rfl)
  refine (truncf_apply _ bitsLt_bf16_f32 (ix2 p k)).trans ?_
  refine layer_first_apply _ _ _ p k _ _ _ (fun j => ?_) (fun j m => rfl) (fun m => rfl)
  exact concat_apply _ _ _ p j

end Cert.KernelIdeal.EdgeStage

end
-- ==== Proof.KEdgeArr.lean ====
import proofs.«402856_j7584912245437_1_alg».proof.Proof.Gen.KernelIdeal.Frame
import proofs.«402856_j7584912245437_1_alg».proof.Proof.Spec
import proofs.«402856_j7584912245437_1_alg».proof.Proof.KEdgePay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.EdgeStage

open Cert.KernelIdeal Cert.KernelIdeal.Gen Idealize.ShloMosaic Idealize.ShloMosaic.TcCoe Idealize.ShloMosaic.ValueIdx
open Idealize.ShloMosaic.Pipeline (Dat Cfg Window)
open Idealize.SL.Sem

/-- The zero offsets of a whole-block access, as the constant function. -/
theorem zeroOff : (![0, 0] : Fin 2 → Nat) = fun _ => 0 := funext fun a => by fin_cases a <;> rfl

/-- An entry of the stage depends on its arrays only through the three input rows at the entry's row, the weights and
    biases, and the entry's column: two settings that agree there give the same entry, whatever their row counts. -/
theorem stage3_entry {R R' : ℕ}
    (x : (⟨2, ![R, 64]⟩ : Shape).Idx → EReal) (x' : (⟨2, ![R', 64]⟩ : Shape).Idx → EReal)
    (y : (⟨2, ![R, 64]⟩ : Shape).Idx → EReal) (y' : (⟨2, ![R', 64]⟩ : Shape).Idx → EReal)
    (z : (⟨2, ![R, 32]⟩ : Shape).Idx → EReal) (z' : (⟨2, ![R', 32]⟩ : Shape).Idx → EReal)
    (w₁ w₁' : (⟨2, ![160, 128]⟩ : Shape).Idx → EReal) (b₁ b₁' : (⟨2, ![1, 128]⟩ : Shape).Idx → EReal)
    (w₂ w₂' : (⟨2, ![128, 128]⟩ : Shape).Idx → EReal) (b₂ b₂' : (⟨2, ![1, 128]⟩ : Shape).Idx → EReal)
    (i : (⟨2, ![R, 128]⟩ : Shape).Idx) (i' : (⟨2, ![R', 128]⟩ : Shape).Idx)
    (hx : ∀ j : Fin 64, x (ix2 (GraphNet.row i) j) = x' (ix2 (GraphNet.row i') j))
    (hy : ∀ j : Fin 64, y (ix2 (GraphNet.row i) j) = y' (ix2 (GraphNet.row i') j))
    (hz : ∀ j : Fin 32, z (ix2 (GraphNet.row i) j) = z' (ix2 (GraphNet.row i') j))
    (hw₁ : w₁ = w₁') (hb₁ : b₁ = b₁') (hw₂ : w₂ = w₂') (hb₂ : b₂ = b₂')
    (hc : GraphNet.col i = GraphNet.col i') :
    GraphNet.stage3 (K := 160) x y z w₁ b₁ w₂ b₂ i = GraphNet.stage3 (K := 160) x' y' z' w₁' b₁' w₂' b₂' i' := by
  subst hw₁ hb₁ hw₂ hb₂
  have ex : (fun j : Fin 64 => x (ix2 (GraphNet.row i) j)) = fun j => x' (ix2 (GraphNet.row i') j) := funext hx
  have ey : (fun j : Fin 64 => y (ix2 (GraphNet.row i) j)) = fun j => y' (ix2 (GraphNet.row i') j) := funext hy
  have ez : (fun j : Fin 32 => z (ix2 (GraphNet.row i) j)) = fun j => z' (ix2 (GraphNet.row i') j) := funext hz
  unfold GraphNet.stage3
  rw [ex, ey, ez, hc]

/-- The printed index maps over the grid: the three row-blocked inputs and the output move one block of rows per point
    and stay on the one block of columns; the weights and biases stay on their one block. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Point `t`'s block of the edges' source-node rows: row `p` of the block is row `6400 t + p` of the array. -/
theorem srcBlock (V : (c : Dev nD) → (b : Ref sig .tc) → Buf (Elt Ideal) ((c : Thread nD τ).loc b)) (c : Dev nD) (t : Fin cfg0.N)
    (p : Fin 6400) (r : Fin 1600000) (hr : r.val = t.val * 6400 + p.val) (j : Fin 64) :
    (iblk0 (F := Ideal) V c 0 t : S6400x64.Idx → EReal) (ix2 p j) = (V c main_v4 : S1600000x64.Idx → EReal) (ix2 r j) := by
  obtain ⟨e00, e01, e10, e11, e20, e21, e30, e31, e40, e41, e50, e51, e60, e61, e70, e71⟩ := blockIndex t
  unfold iblk0
  rw [View.read_apply]
  show V c main_v4 _ = V c main_v4 _
  refine congrArg (V c main_v4) ?_
  funext a; apply Fin.ext
  match a with
  | ⟨0, _⟩ => show win0_0.index t (0 : Fin 2) * 6400 + 1 * p.val = r.val; omega
  | ⟨1, _⟩ => show win0_0.index t (1 : Fin 2) * 64 + 1 * j.val = j.val; omega

/-- Point `t`'s block of the edges' target-node rows: row `p` of the block is row `6400 t + p` of the array. -/
theorem dstBlock (V : (c : Dev nD) → (b : Ref sig .tc) → Buf (Elt Ideal) ((c : Thread nD τ).loc b)) (c : Dev nD) (t : Fin cfg0.N)
    (p : Fin 6400) (r : Fin 1600000) (hr : r.val = t.val * 6400 + p.val) (j : Fin 64) :
    (iblk0 (F := Ideal) V c 1 t : S6400x64.Idx → EReal) (ix2 p j) = (V c main_v5 : S1600000x64.Idx → EReal) (ix2 r j) := by
  obtain ⟨e00, e01, e10, e11, e20, e21, e30, e31, e40, e41, e50, e51, e60, e61, e70, e71⟩ := blockIndex t
  unfold iblk0
  rw [View.read_apply]
  show V c main_v5 _ = V c main_v5 _
  refine congrArg (V c main_v5) ?_
  funext a; apply Fin.ext
  match a with
  | ⟨0, _⟩ => show win0_1.index t (0 : Fin 2) * 6400 + 1 * p.val = r.val; omega
  | ⟨1, _⟩ => show win0_1.index t (1 : Fin 2) * 64 + 1 * j.val = j.val; omega

/-- Point `t`'s block of the edges' own attributes: row `p` of the block is row `6400 t + p` of the array. -/
theorem attrBlock (V : (c : Dev nD) → (b : Ref sig .tc) → Buf (Elt Ideal) ((c : Thread nD τ).loc b)) (c : Dev nD) (t : Fin cfg0.N)
    (p : Fin 6400) (r : Fin 1600000) (hr : r.val = t.val * 6400 + p.val) (j : Fin 32) :
    (iblk0 (F := Ideal) V c 2 t : S6400x32.Idx → EReal) (ix2 p j) = (V c main_arg2 : S1600000x32.Idx → EReal) (ix2 r j) := by
  obtain ⟨e00, e01, e10, e11, e20, e21, e30, e31, e40, e41, e50, e51, e60, e61, e70, e71⟩ := blockIndex t
  unfold iblk0
  rw [View.read_apply]
  show V c main_arg2 _ = V c main_arg2 _
  refine congrArg (V c main_arg2) ?_
  funext a; apply Fin.ext
  match a with
  | ⟨0, _⟩ => show win0_2.index t (0 : Fin 2) * 6400 + 1 * p.val = r.val; omega
  | ⟨1, _⟩ => show win0_2.index t (1 : Fin 2) * 32 + 1 * j.val = j.val; omega

/-- The first layer's weights are one block, the whole array, at every point. -/
theorem weights1Block (V : (c : Dev nD) → (b : Ref sig .tc) → Buf (Elt Ideal) ((c : Thread nD τ).loc b)) (c : Dev nD) (t : Fin cfg0.N) :
    (iblk0 (F := Ideal) V c 3 t : S160x128.Idx → EReal) = V c main_arg5 := by
  obtain ⟨e00, e01, e10, e11, e20, e21, e30, e31, e40, e41, e50, e51, e60, e61, e70, e71⟩ := blockIndex t
  funext y
  unfold iblk0
  rw [View.read_apply]
  show V c main_arg5 _ = V c main_arg5 y
  refine congrArg (V c main_arg5) ?_
  funext a; apply Fin.ext
  match a with
  | ⟨0, _⟩ => show win0_3.index t (0 : Fin 2) * 160 + 1 * (y 0).val = (y 0).val; omega
  | ⟨1, _⟩ => show win0_3.index t (1 : Fin 2) * 128 + 1 * (y 1).val = (y 1).val; omega

/-- The first layer's bias row is one block, the whole array, at every point. -/
theorem bias1Block (V : (c : Dev nD) → (b : Ref sig .tc) → Buf (Elt Ideal) ((c : Thread nD τ).loc b)) (c : Dev nD) (t : Fin cfg0.N) :
    (iblk0 (F := Ideal) V c 4 t : S1x128.Idx → EReal) = V c main_v6 := by
  obtain ⟨e00, e01, e10, e11, e20, e21, e30, e31, e40, e41, e50, e51, e60, e61, e70, e71⟩ := blockIndex t
  funext y
  unfold iblk0
  rw [View.read_apply]
  show V c main_v6 _ = V c main_v6 y
  refine congrArg (V c main_v6) ?_
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The second layer's weights are one block, the whole array, at every point. -/
theorem weights2Block (V : (c : Dev nD) → (b : Ref sig .tc) → Buf (Elt Ideal) ((c : Thread nD τ).loc b)) (c : Dev nD) (t : Fin cfg0.N) :
    (iblk0 (F := Ideal) V c 5 t : S128x128.Idx → EReal) = V c main_arg7 := by
  obtain ⟨e00, e01, e10, e11, e20, e21, e30, e31, e40, e41, e50, e51, e60, e61, e70, e71⟩ := blockIndex t
  funext y
  unfold iblk0
  rw [View.read_apply]
  show V c main_arg7 _ = V c main_arg7 y
  refine congrArg (V c main_arg7) ?_
  funext a; apply Fin.ext
  match a with
  | ⟨0, _⟩ => show win0_5.index t (0 : Fin 2) * 128 + 1 * (y 0).val = (y 0).val; omega
  | ⟨1, _⟩ => show win0_5.index t (1 : Fin 2) * 128 + 1 * (y 1).val = (y 1).val; omega

/-- The second layer's bias row is one block, the whole array, at every point. -/
theorem bias2Block (V : (c : Dev nD) → (b : Ref sig .tc) → Buf (Elt Ideal) ((c : Thread nD τ).loc b)) (c : Dev nD) (t : Fin cfg0.N) :
    (iblk0 (F := Ideal) V c 6 t : S1x128.Idx → EReal) = V c main_v7 := by
  obtain ⟨e00, e01, e10, e11, e20, e21, e30, e31, e40, e41, e50, e51, e60, e61, e70, e71⟩ := blockIndex t
  funext y
  unfold iblk0
  rw [View.read_apply]
  show V c main_v7 _ = V c main_v7 y
  refine congrArg (V c main_v7) ?_
  funext a; apply Fin.ext
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- One entry of what point `t` computes from its blocks is the same entry of the stage on the whole arrays, at the
    array row `6400 t + p` that block row `p` is: the three input rows are that array row's, the weights and biases are
    the whole arrays, the column is the same. -/
theorem pointEntry (V : (c : Dev nD) → (b : Ref sig .tc) → Buf (Elt Ideal) ((c : Thread nD τ).loc b)) (c : Dev nD) (t : Fin cfg0.N)
    (y : S6400x128.Idx) (i : S1600000x128.Idx) (h0 : (i 0).val = t.val * 6400 + (y 0).val) (h1 : (i 1).val = (y 1).val) :
    GraphNet.stage3 (K := 160) (iblk0 (F := Ideal) V c 0 t : S6400x64.Idx → EReal) (iblk0 (F := Ideal) V c 1 t : S6400x64.Idx → EReal)
        (iblk0 (F := Ideal) V c 2 t : S6400x32.Idx → EReal) (iblk0 (F := Ideal) V c 3 t : S160x128.Idx → EReal)
        (iblk0 (F := Ideal) V c 4 t : S1x128.Idx → EReal) (iblk0 (F := Ideal) V c 5 t : S128x128.Idx → EReal)
        (iblk0 (F := Ideal) V c 6 t : S1x128.Idx → EReal) y
      = GraphNet.stage3 (K := 160) (V c main_v4) (V c main_v5) (V c main_arg2) (V c main_arg5) (V c main_v6) (V c main_arg7) (V c main_v7) i :=
  stage3_entry (iblk0 (F := Ideal) V c 0 t : S6400x64.Idx → EReal) (V c main_v4 : S1600000x64.Idx → EReal)
    (iblk0 (F := Ideal) V c 1 t : S6400x64.Idx → EReal) (V c main_v5 : S1600000x64.Idx → EReal)
    (iblk0 (F := Ideal) V c 2 t : S6400x32.Idx → EReal) (V c main_arg2 : S1600000x32.Idx → EReal)
    (iblk0 (F := Ideal) V c 3 t : S160x128.Idx → EReal) (V c main_arg5 : S160x128.Idx → EReal)
    (iblk0 (F := Ideal) V c 4 t : S1x128.Idx → EReal) (V c main_v6 : S1x128.Idx → EReal)
    (iblk0 (F := Ideal) V c 5 t : S128x128.Idx → EReal) (V c main_arg7 : S128x128.Idx → EReal)
    (iblk0 (F := Ideal) V c 6 t : S1x128.Idx → EReal) (V c main_v7 : S1x128.Idx → EReal)
    y i
    (fun j => srcBlock V c t (GraphNet.row y) (GraphNet.row i) h0 j)
    (fun j => dstBlock V c t (GraphNet.row y) (GraphNet.row i) h0 j)
    (fun j => attrBlock V c t (GraphNet.row y) (GraphNet.row i) h0 j)
    (weights1Block V c t) (bias1Block V c t) (weights2Block V c t) (bias2Block V c t)
    (Fin.ext h1.symm)

set_option maxHeartbeats 400000 in
/-- What point `t` writes back is block `t` of the stage's function of the whole arrays: the body's one store is its
    payload on the whole input blocks, which is the stage on those blocks, entry by entry the stage on the arrays. -/
theorem pointBlock (V : (c : Dev nD) → (b : Ref sig .tc) → Buf (Elt Ideal) ((c : Thread nD τ).loc b)) (c : Dev nD) (t : Fin cfg0.N) :
    (dat0 (F := Ideal) V c).flushed 7 t = ((cfg0.win 7).blk t).view.read (Elt Ideal)
      (GraphNet.stage3 (K := 160) (V c main_v4) (V c main_v5) (V c main_arg2) (V c main_arg5) (V c main_v6) (V c main_arg7) (V c main_v7)) := by
  obtain ⟨e00, e01, e10, e11, e20, e21, e30, e31, e40, e41, e50, e51, e60, e61, e70, e71⟩ := blockIndex t
  show (cfg0.win 7).cut (grid0.coords t) ((dat0 V c).after 7 t) = _
  rw [after0_7]
  unfold out0_7
  rw [View.canon_unit_zero zeroOff]
  simp only [View.ld_unit_zero (S := S6400x64) zeroOff, View.ld_unit_zero (S := S6400x32) zeroOff,
    View.ld_unit_zero (S := S160x128) zeroOff, View.ld_unit_zero (S := S1x128) zeroOff,
    View.ld_unit_zero (S := S128x128) zeroOff]
  rw [payload]
  funext y
  refine pointEntry V c t y (((cfg0.win 7).blk t).view.emb y) ?_ ?_
  · show win0_7.index t (0 : Fin 2) * 6400 + 1 * (y 0).val = t.val * 6400 + (y 0).val
    omega
  · show win0_7.index t (1 : Fin 2) * 128 + 1 * (y 1).val = (y 1).val
    omega

/-- An index of the output array is in point `t`'s block iff each coordinate is in the block's range on its axis. -/
theorem mem_pointBlock (t : Fin cfg0.N) (i : S1600000x128.Idx) :
    i ∈ ((cfg0.win 7).blk t).view.set ↔ ∀ a : Fin 2, win0_7.index t a * S6400x128.size a ≤ (i a).val
      ∧ (i a).val < win0_7.index t a * S6400x128.size a + S6400x128.size a := by
  show i ∈ ((View.whole main_v8).slice (win0_7.rect t)).set ↔ _
  rw [View.set_slice_whole, Rect.mem_set_unit]
  exact Iff.rfl

/-- Every index of the output array is in the block of the point that holds its row: row `r` is in block `r / 6400`. -/
theorem covered (i : S1600000x128.Idx) :
    ∃ t : Fin cfg0.N, (cfg0.win 7).flush t = true ∧ i ∈ ((cfg0.win 7).blk t).view.set := by
  have hi0 : (i 0).val < 1600000 := (i 0).isLt
  have hi1 : (i 1).val < 128 := (i 1).isLt
  have hN : cfg0.N = 250 := N_0
  let t : Fin cfg0.N := ⟨(i 0).val / 6400, by rw [hN]; omega⟩
  have ht : t.val = (i 0).val / 6400 := rfl
  obtain ⟨e00, e01, e10, e11, e20, e21, e30, e31, e40, e41, e50, e51, e60, e61, e70, e71⟩ := blockIndex t
  refine ⟨t, flush0_7 t, ?_⟩
  rw [mem_pointBlock]
  intro a
  match a with
  | ⟨0, _⟩ => show win0_7.index t (0 : Fin 2) * 6400 ≤ (i 0).val ∧ (i 0).val < win0_7.index t (0 : Fin 2) * 6400 + 6400; omega
  | ⟨1, _⟩ => show win0_7.index t (1 : Fin 2) * 128 ≤ (i 1).val ∧ (i 1).val < win0_7.index t (1 : Fin 2) * 128 + 128; omega

/-- The edge stage's whole result: after the 250 grid points, each writing back its block of 6400 rows, the output array
    is the stage's function of the arrays the region found, whatever they are. -/
theorem array (V : (c : Dev nD) → (b : Ref sig .tc) → Buf (Elt Ideal) ((c : Thread nD τ).loc b)) (c : Dev nD) :
    (dat0 (F := Ideal) V c).arrAt 7 cfg0.N
      = GraphNet.stage3 (K := 160) (V c main_v4) (V c main_v5) (V c main_arg2) (V c main_arg5) (V c main_v6) (V c main_arg7) (V c main_v7) :=
  (dat0 (F := Ideal) V c).arrAt_eq_of_cover 7 _ (fun t _ => pointBlock V c t) covered

end Cert.KernelIdeal.EdgeStage

end
-- ==== Proof.KNodePay.lean ====
import proofs.«402856_j7584912245437_1_alg».proof.Proof.Gen.KernelIdeal.Frame
import proofs.«402856_j7584912245437_1_alg».proof.Proof.Spec

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NodeStage

open Cert.KernelIdeal Cert.KernelIdeal.Gen Idealize.ShloMosaic Idealize.ShloMosaic.TcCoe Idealize.ShloMosaic.ValueIdx
open Idealize.ShloMosaic.Pipeline (Dat Cfg Window)
open Idealize.SL.Sem

/-! ## The first contraction: a row of 192 against a column of the first weights -/

theorem lhsA_0 (i : S5000x128.Idx) (q : dot_S5000x192_S192x128_S5000x128_1_0_0_1_n_n.contr.Idx) :
    (dot_S5000x192_S192x128_S5000x128_1_0_0_1_n_n.lhsIdx i q 0).val = (i 0).val := by
  unfold DotDims.lhsIdx
  rw [dif_neg (show ¬(0 : Fin S5000x192.rank) ∈ dot_S5000x192_S192x128_S5000x128_1_0_0_1_n_n.lhsBatch by decide), dif_pos (show (0 : Fin S5000x192.rank) ∈ dot_S5000x192_S192x128_S5000x128_1_0_0_1_n_n.lhsNonContracting by decide)]
  rfl
theorem lhsA_1 (i : S5000x128.Idx) (q : dot_S5000x192_S192x128_S5000x128_1_0_0_1_n_n.contr.Idx) :
    (dot_S5000x192_S192x128_S5000x128_1_0_0_1_n_n.lhsIdx i q 1).val = (q ⟨0, by decide⟩).val :=
  dot_S5000x192_S192x128_S5000x128_1_0_0_1_n_n.lhsIdx_val_of_single rfl i q
theorem rhsA_0 (i : S5000x128.Idx) (q : dot_S5000x192_S192x128_S5000x128_1_0_0_1_n_n.contr.Idx) :
    (dot_S5000x192_S192x128_S5000x128_1_0_0_1_n_n.rhsIdx i q 0).val = (q ⟨0, by decide⟩).val :=
  dot_S5000x192_S192x128_S5000x128_1_0_0_1_n_n.rhsIdx_val_of_single rfl i q
theorem rhsA_1 (i : S5000x128.Idx) (q : dot_S5000x192_S192x128_S5000x128_1_0_0_1_n_n.contr.Idx) :
    (dot_S5000x192_S192x128_S5000x128_1_0_0_1_n_n.rhsIdx i q 1).val = (i 1).val := by
  unfold DotDims.rhsIdx
  rw [dif_neg (show ¬(1 : Fin S192x128.rank) ∈ dot_S5000x192_S192x128_S5000x128_1_0_0_1_n_n.rhsBatch by decide), dif_pos (show (1 : Fin S192x128.rank) ∈ dot_S5000x192_S192x128_S5000x128_1_0_0_1_n_n.rhsNonContracting by decide)]
  rfl

/-- The first product into the zero accumulator, at row `p` and column `n`: the sum over the 192 positions. -/
theorem mmA_apply (y : FVec Ideal S5000x192 .bf16) (w : FVec Ideal S192x128 .bf16) (p : Fin 5000) (n : Fin 128) :
    matmul dot_S5000x192_S192x128_S5000x128_1_0_0_1_n_n none y w (constant (F := Ideal) S5000x128 .f32 0x00000000#32) (ix2 p n)
      = ∑ k : Fin 192, y (ix2 p k) * w (ix2 k n) := by
  simp only [matmul]
  rw [Ideal.matmul_constant_zero_apply, ← Equiv.sum_comp (contrEquiv1 dot_S5000x192_S192x128_S5000x128_1_0_0_1_n_n 192 rfl rfl).symm]
  refine Finset.sum_congr rfl fun k _ => ?_
  have hk := contrEquiv1_symm_val dot_S5000x192_S192x128_S5000x128_1_0_0_1_n_n 192 rfl rfl k
  have el : dot_S5000x192_S192x128_S5000x128_1_0_0_1_n_n.lhsIdx (ix2 p n) ((contrEquiv1 dot_S5000x192_S192x128_S5000x128_1_0_0_1_n_n 192 rfl rfl).symm k) = ix2 p k := funext fun a => Fin.ext (by
    match a with
    | ⟨0, _⟩ => exact lhsA_0 _ _
    | ⟨1, _⟩ => exact (lhsA_1 _ _).trans hk)
  have er : dot_S5000x192_S192x128_S5000x128_1_0_0_1_n_n.rhsIdx (ix2 p n) ((contrEquiv1 dot_S5000x192_S192x128_S5000x128_1_0_0_1_n_n 192 rfl rfl).symm k) = ix2 k n := funext fun a => Fin.ext (by
    match a with
    | ⟨0, _⟩ => exact (rhsA_0 _ _).trans hk
    | ⟨1, _⟩ => exact rhsA_1 _ _)
  rw [el, er]

/-! ## The second contraction: a row of 128 against a column of the second weights -/

theorem lhsB_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhsB_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhsB_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhsB_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The second product into the zero accumulator, at row `p` and column `n`: the sum over the 128 hidden units. -/
theorem mmB_apply (y : FVec Ideal S5000x128 .bf16) (w : FVec Ideal S128x128 .bf16) (p : Fin 5000) (n : Fin 128) :
    matmul dot_S5000x128_S128x128_S5000x128_1_0_0_1_n_n none y w (constant (F := Ideal) S5000x128 .f32 0x00000000#32) (ix2 p n)
      = ∑ k : Fin 128, y (ix2 p k) * w (ix2 k n) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p n) ((contrEquiv1 dot_S5000x128_S128x128_S5000x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S5000x128_S128x128_S5000x128_1_0_0_1_n_n.rhsIdx (ix2 p n) ((contrEquiv1 dot_S5000x128_S128x128_S5000x128_1_0_0_1_n_n 128 rfl rfl).symm k) = ix2 k n := funext fun a => Fin.ext (by
    match a with
    | ⟨0, _⟩ => exact (rhsB_0 _ _).trans hk
    | ⟨1, _⟩ => exact rhsB_1 _ _)
  rw [el, er]

/-! ## The two input rows laid end to end, and the bias row read at every row -/

/-- The joined block at row `p`, position `j`: the first input's row up to 64, then the second's. -/
theorem cat_apply (a : FVec Ideal S5000x64 .bf16) (b : FVec Ideal S5000x128 .bf16) (p : Fin 5000) (j : Fin 192) :
    concatenate S5000x192 1 [⟨S5000x64, a⟩, ⟨S5000x128, b⟩] concatenates_S5000x64_S5000x128_S5000x192_d1 (ix2 p j)
      = GraphNet.cat2 (K := 192) (fun c : Fin 64 => a (ix2 p c)) (fun c : Fin 128 => b (ix2 p c)) j := by
  unfold GraphNet.cat2
  by_cases h : j.val < 64
  · rw [dif_pos h]
    exact concatenate_pair_apply_left (1 : Fin S5000x192.rank) a b _ (ix2 p j) rfl (ix2 p ⟨j.val, h⟩) (fun c => by
      match c with
      | ⟨0, _⟩ => rfl
      | ⟨1, _⟩ => rfl)
  · have h' : j.val - 64 < 128 := by have := j.isLt; omega
    rw [dif_neg h, dif_pos h']
    exact concatenate_pair_apply_right (1 : Fin S5000x192.rank) a b _ (ix2 p j) rfl rfl (ix2 p ⟨j.val - 64, h'⟩) (fun c hc => by
      match c, hc with
      | ⟨0, _⟩, _ => rfl
      | ⟨1, _⟩, hc => exact absurd rfl hc)
      (by show (j.val - 64) + 64 = j.val; omega)

/-- The bias row broadcast over the block reads the row's entry of the column. -/
theorem bias_apply (b : FVec Ideal S1x128 .f32) (p : Fin 5000) (n : Fin 128) :
    broadcastTo S5000x128 b broadcasts_S1x128_S5000x128 (ix2 p n) = b (ix2 0 n) :=
  broadcastTo_apply b _ (ix2 p n) (ix2 0 n) (fun a => by
    match a with
    | ⟨0, _⟩ => rfl
    | ⟨1, _⟩ => rfl)

/-! ## One rectified layer of each width, and the two composed -/

/-- The first layer at row `p`, unit `n`: the 192-position row against the weights' column, plus the bias, cut at zero. -/
theorem layerA_apply (y : FVec Ideal S5000x192 .bf16) (w : FVec Ideal S192x128 .bf16) (b : FVec Ideal S1x128 .f32)
    (p : Fin 5000) (n : Fin 128) :
    maximumf (addf (matmul dot_S5000x192_S192x128_S5000x128_1_0_0_1_n_n none y w (constant (F := Ideal) S5000x128 .f32 0x00000000#32))
        (broadcastTo S5000x128 b broadcasts_S1x128_S5000x128))
      (broadcast S5000x128 (Scalar.ofBits (F := Ideal) .f32 0x00000000#32)) (ix2 p n)
      = GraphNet.layer (fun k : Fin 192 => y (ix2 p k)) (fun k m => w (ix2 k m)) (fun m => b (ix2 0 m)) n := by
  rw [maximumf_apply, addf_apply, broadcast_apply, mmA_apply, bias_apply]
  show max _ (Ideal.ofBits .f32 0x00000000#32) = _
  rw [Ideal.ofBits_zero_f32]
  rfl

/-- The second layer at row `p`, output `n`: the 128 hidden units against the weights' column, plus the bias, cut at zero. -/
theorem layerB_apply (y : FVec Ideal S5000x128 .bf16) (w : FVec Ideal S128x128 .bf16) (b : FVec Ideal S1x128 .f32)
    (p : Fin 5000) (n : Fin 128) :
    maximumf (addf (matmul dot_S5000x128_S128x128_S5000x128_1_0_0_1_n_n none y w (constant (F := Ideal) S5000x128 .f32 0x00000000#32))
        (broadcastTo S5000x128 b broadcasts_S1x128_S5000x128))
      (broadcast S5000x128 (Scalar.ofBits (F := Ideal) .f32 0x00000000#32)) (ix2 p n)
      = GraphNet.layer (fun k : Fin 128 => y (ix2 p k)) (fun k m => w (ix2 k m)) (fun m => b (ix2 0 m)) n := by
  rw [maximumf_apply, addf_apply, broadcast_apply, mmB_apply, bias_apply]
  show max _ (Ideal.ofBits .f32 0x00000000#32) = _
  rw [Ideal.ofBits_zero_f32]
  rfl

/-- The node stage's block: the body's result on a block of 5000 nodes is the two rectified layers, row by row, of the
    two input blocks' rows laid end to end. -/
theorem payload (x0 : Vec Ideal S5000x64 .f32) (x1 : Vec Ideal S5000x128 .f32) (x2 : Vec Ideal S192x128 .f32)
    (x3 : Vec Ideal S1x128 .f32) (x4 : Vec Ideal S128x128 .f32) (x5 : Vec Ideal S1x128 .f32) :
    k1_pay1 (F := Ideal) x0 x1 x2 x3 x4 x5 = GraphNet.stage2 (K := 192) x0 x1 x2 x3 x4 x5 := by
  funext i
  obtain ⟨p, n, rfl⟩ : ∃ (p : Fin 5000) (n : Fin 128), i = ix2 p n := ⟨_, _, eq_ix2 i⟩
  unfold k1_pay1
  -- a cast to the same shape is the identity
  have e1 : shapeCast S5000x128 x1 shapeCasts_S5000x128_S5000x128 = x1 := shapeCast_self _ _
  have e3 : shapeCast S1x128 x3 shapeCasts_S1x128_S1x128 = x3 := shapeCast_self _ _
  have e5 : shapeCast S1x128 x5 shapeCasts_S1x128_S1x128 = x5 := shapeCast_self _ _
  -- the outer layer, read at (p, n)
  refine (layerB_apply _ _ _ p n).trans ?_
  unfold GraphNet.stage2 GraphNet.mlp
  rw [e5]
  refine congrArg (fun z => GraphNet.layer z (fun k m => x4 (ix2 k m)) (fun m => x5 (ix2 0 m)) n) (funext fun k => ?_)
  -- the inner layer, read at (p, k): the format change is the identity on extended reals
  refine (layerA_apply _ _ _ p k).trans ?_
  rw [e3]
  refine congrArg (fun z => GraphNet.layer z (fun j m => x2 (ix2 j m)) (fun m => x3 (ix2 0 m)) k) (funext fun j => ?_)
  -- the joined row, read at (p, j)
  refine (cat_apply _ _ p j).trans ?_
  rw [e1]
  rfl

end Cert.KernelIdeal.NodeStage

end
-- ==== Proof.KNodeArr.lean ====
import proofs.«402856_j7584912245437_1_alg».proof.Proof.Gen.KernelIdeal.Frame
import proofs.«402856_j7584912245437_1_alg».proof.Proof.Spec
import proofs.«402856_j7584912245437_1_alg».proof.Proof.KNodePay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.NodeStage

open Cert.KernelIdeal Cert.KernelIdeal.Gen Idealize.ShloMosaic Idealize.ShloMosaic.TcCoe Idealize.ShloMosaic.ValueIdx
open Idealize.ShloMosaic.Pipeline (Dat Cfg Window)
open Idealize.SL.Sem

section Blocks

/-- The offsets of an access to a whole buffer are zero on both axes. -/
theorem zero_offsets : (![0, 0] : Fin 2 → Nat) = fun _ => 0 := funext fun a => by fin_cases a <;> rfl

/-- The seven index maps over the 20 grid points: the two row-blocked inputs and the output take block `t` of rows at
    point `t`; the weights and biases always take their one block. -/
theorem index_maps : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ t.val < 20 :=
  (by decide +kernel : ∀ t : Fin grid1.N, _)

/-- An entry of a stage is a function of the two input rows at the entry's row, of the weights and biases, and of the
    entry's column: two stages, possibly of different row counts, agree at two entries where these agree. -/
theorem stage2_entry_congr {R R' A B K : ℕ}
    (x : (⟨2, ![R, A]⟩ : Shape).Idx → EReal) (y : (⟨2, ![R, B]⟩ : Shape).Idx → EReal)
    (x' : (⟨2, ![R', A]⟩ : Shape).Idx → EReal) (y' : (⟨2, ![R', B]⟩ : Shape).Idx → EReal)
    (w₁ w₁' : (⟨2, ![K, 128]⟩ : Shape).Idx → EReal) (b₁ b₁' : (⟨2, ![1, 128]⟩ : Shape).Idx → EReal)
    (w₂ w₂' : (⟨2, ![128, 128]⟩ : Shape).Idx → EReal) (b₂ b₂' : (⟨2, ![1, 128]⟩ : Shape).Idx → EReal)
    (i : (⟨2, ![R, 128]⟩ : Shape).Idx) (i' : (⟨2, ![R', 128]⟩ : Shape).Idx)
    (hx : ∀ j, x (ix2 (GraphNet.row i) j) = x' (ix2 (GraphNet.row i') j))
    (hy : ∀ j, y (ix2 (GraphNet.row i) j) = y' (ix2 (GraphNet.row i') j))
    (hw₁ : w₁ = w₁') (hb₁ : b₁ = b₁') (hw₂ : w₂ = w₂') (hb₂ : b₂ = b₂')
    (hcol : GraphNet.col i = GraphNet.col i') :
    GraphNet.stage2 (K := K) x y w₁ b₁ w₂ b₂ i = GraphNet.stage2 (K := K) x' y' w₁' b₁' w₂' b₂' i' := by
  subst hw₁ hb₁ hw₂ hb₂
  unfold GraphNet.stage2
  rw [show (fun j => x (ix2 (GraphNet.row i) j)) = fun j => x' (ix2 (GraphNet.row i') j) from funext hx,
    show (fun j => y (ix2 (GraphNet.row i) j)) = fun j => y' (ix2 (GraphNet.row i') j) from funext hy, hcol]

variable (V : (c : Dev nD) → (b : Ref sig .tc) → Buf (Elt Ideal) ((c : Thread nD τ).loc b))

set_option maxHeartbeats 400000 in
/-- Window 0's block at point `t` is rows `5000 t … 5000 t + 4999` of its array. -/
theorem block0_read (c : Dev nD) (t : Fin cfg1.N) (y : S5000x64.Idx) (k : S100000x64.Idx)
    (hk0 : (k 0).val = 5000 * t.val + (y 0).val) (hk1 : (k 1).val = (y 1).val) :
    (iblk1 (F := Ideal) V c 0 t : Vec Ideal S5000x64 .f32) y = (V c main_arg0 : S100000x64.Idx → EReal) k := by
  obtain ⟨e0, e1, -⟩ := index_maps t
  show V c main_arg0 (((cfg1.win 0).blk t).view.emb y) = V c main_arg0 k
  refine congrArg _ ?_
  funext a
  apply Fin.ext
  match a with
  | ⟨0, _⟩ => show win1_0.index t (0 : Fin 2) * 5000 + 1 * (y 0).val = (k 0).val; omega
  | ⟨1, _⟩ => show win1_0.index t (1 : Fin 2) * 64 + 1 * (y 1).val = (k 1).val; omega

set_option maxHeartbeats 400000 in
/-- Window 1's block at point `t` is rows `5000 t … 5000 t + 4999` of its array. -/
theorem block1_read (c : Dev nD) (t : Fin cfg1.N) (y : S5000x128.Idx) (k : S100000x128.Idx)
    (hk0 : (k 0).val = 5000 * t.val + (y 0).val) (hk1 : (k 1).val = (y 1).val) :
    (iblk1 (F := Ideal) V c 1 t : Vec Ideal S5000x128 .f32) y = (V c main_v11 : S100000x128.Idx → EReal) k := by
  obtain ⟨-, -, e0, e1, -⟩ := index_maps t
  show V c main_v11 (((cfg1.win 1).blk t).view.emb y) = V c main_v11 k
  refine congrArg _ ?_
  funext a
  apply Fin.ext
  match a with
  | ⟨0, _⟩ => show win1_1.index t (0 : Fin 2) * 5000 + 1 * (y 0).val = (k 0).val; omega
  | ⟨1, _⟩ => show win1_1.index t (1 : Fin 2) * 128 + 1 * (y 1).val = (k 1).val; omega

set_option maxHeartbeats 400000 in
/-- Window 2's block at every point is its whole array, the first layer's weights. -/
theorem block2_whole (c : Dev nD) (t : Fin cfg1.N) :
    (iblk1 (F := Ideal) V c 2 t : Vec Ideal S192x128 .f32) = (V c main_arg9 : S192x128.Idx → EReal) := by
  obtain ⟨-, -, -, -, e0, e1, -⟩ := index_maps t
  funext y
  show V c main_arg9 (((cfg1.win 2).blk t).view.emb y) = V c main_arg9 y
  refine congrArg _ ?_
  funext a
  apply Fin.ext
  match a with
  | ⟨0, _⟩ => show win1_2.index t (0 : Fin 2) * 192 + 1 * (y 0).val = (y 0).val; omega
  | ⟨1, _⟩ => show win1_2.index t (1 : Fin 2) * 128 + 1 * (y 1).val = (y 1).val; omega

set_option maxHeartbeats 400000 in
/-- Window 3's block at every point is its whole array, the first layer's bias row. -/
theorem block3_whole (c : Dev nD) (t : Fin cfg1.N) :
    (iblk1 (F := Ideal) V c 3 t : Vec Ideal S1x128 .f32) = (V c main_v12 : S1x128.Idx → EReal) := by
  obtain ⟨-, -, -, -, -, -, e0, e1, -⟩ := index_maps t
  funext y
  show V c main_v12 (((cfg1.win 3).blk t).view.emb y) = V c main_v12 y
  refine congrArg _ ?_
  funext a
  apply Fin.ext
  match a with
  | ⟨0, _⟩ => show win1_3.index t (0 : Fin 2) * 1 + 1 * (y 0).val = (y 0).val; omega
  | ⟨1, _⟩ => show win1_3.index t (1 : Fin 2) * 128 + 1 * (y 1).val = (y 1).val; omega

set_option maxHeartbeats 400000 in
/-- Window 4's block at every point is its whole array, the second layer's weights. -/
theorem block4_whole (c : Dev nD) (t : Fin cfg1.N) :
    (iblk1 (F := Ideal) V c 4 t : Vec Ideal S128x128 .f32) = (V c main_arg11 : S128x128.Idx → EReal) := by
  obtain ⟨-, -, -, -, -, -, -, -, e0, e1, -⟩ := index_maps t
  funext y
  show V c main_arg11 (((cfg1.win 4).blk t).view.emb y) = V c main_arg11 y
  refine congrArg _ ?_
  funext a
  apply Fin.ext
  match a with
  | ⟨0, _⟩ => show win1_4.index t (0 : Fin 2) * 128 + 1 * (y 0).val = (y 0).val; omega
  | ⟨1, _⟩ => show win1_4.index t (1 : Fin 2) * 128 + 1 * (y 1).val = (y 1).val; omega

set_option maxHeartbeats 400000 in
/-- Window 5's block at every point is its whole array, the second layer's bias row. -/
theorem block5_whole (c : Dev nD) (t : Fin cfg1.N) :
    (iblk1 (F := Ideal) V c 5 t : Vec Ideal S1x128 .f32) = (V c main_v13 : S1x128.Idx → EReal) := by
  obtain ⟨-, -, -, -, -, -, -, -, -, -, e0, e1, -⟩ := index_maps t
  funext y
  show V c main_v13 (((cfg1.win 5).blk t).view.emb y) = V c main_v13 y
  refine congrArg _ ?_
  funext a
  apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

set_option maxHeartbeats 400000 in
/-- An element of the output's block at point `t` sits in the array at row `5000 t +` its row, at its own column. -/
theorem out_block_emb (t : Fin cfg1.N) (y : S5000x128.Idx) :
    ((((cfg1.win 6).blk t).view.emb y : S100000x128.Idx) 0).val = 5000 * t.val + (y 0).val
    ∧ ((((cfg1.win 6).blk t).view.emb y : S100000x128.Idx) 1).val = (y 1).val := by
  obtain ⟨-, -, -, -, -, -, -, -, -, -, -, -, e0, e1, -⟩ := index_maps t
  constructor
  · show win1_6.index t (0 : Fin 2) * 5000 + 1 * (y 0).val = _; omega
  · show win1_6.index t (1 : Fin 2) * 128 + 1 * (y 1).val = _; omega

set_option maxHeartbeats 400000 in
/-- WHAT POINT `t` WRITES BACK is block `t` of the stage's function of the whole arrays. -/
theorem written_back (c : Dev nD) (t : Fin cfg1.N) :
    (dat1 (F := Ideal) V c).flushed 6 t = ((cfg1.win 6).blk t).view.read (Elt Ideal)
      (GraphNet.stage2 (K := 192) (V c main_arg0) (V c main_v11) (V c main_arg9) (V c main_v12) (V c main_arg11) (V c main_v13)) := by
  show (cfg1.win 6).cut (grid1.coords t) ((dat1 V c).after 6 t) = _
  rw [after1_6]
  unfold out1_6
  rw [View.canon_unit_zero zero_offsets]
  simp only [View.ld_unit_zero (S := S5000x64) zero_offsets, View.ld_unit_zero (S := S5000x128) zero_offsets,
    View.ld_unit_zero (S := S192x128) zero_offsets, View.ld_unit_zero (S := S1x128) zero_offsets,
    View.ld_unit_zero (S := S128x128) zero_offsets]
  rw [payload]
  refine funext fun (y : S5000x128.Idx) => ?_
  show GraphNet.stage2 (K := 192) (iblk1 V c 0 t : Vec Ideal S5000x64 .f32) (iblk1 V c 1 t : Vec Ideal S5000x128 .f32)
        (iblk1 V c 2 t : Vec Ideal S192x128 .f32) (iblk1 V c 3 t : Vec Ideal S1x128 .f32)
        (iblk1 V c 4 t : Vec Ideal S128x128 .f32) (iblk1 V c 5 t : Vec Ideal S1x128 .f32) y
      = GraphNet.stage2 (K := 192) (V c main_arg0) (V c main_v11) (V c main_arg9) (V c main_v12) (V c main_arg11) (V c main_v13)
          (((cfg1.win 6).blk t).view.emb y : S100000x128.Idx)
  obtain ⟨r0, r1⟩ := out_block_emb t y
  refine stage2_entry_congr _ _ _ _ _ _ _ _ _ _ _ _ y _ (fun j => ?_) (fun j => ?_)
    (block2_whole V c t) (block3_whole V c t) (block4_whole V c t) (block5_whole V c t) (Fin.ext r1.symm)
  · exact block0_read V c t _ _ r0 rfl
  · exact block1_read V c t _ _ r0 rfl

/-- An index of the output array is in point `t`'s block iff each coordinate is in the block's range on its axis. -/
theorem mem_block (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v14).slice (win1_6.rect t)).set ↔ _
  rw [View.set_slice_whole, Rect.mem_set_unit]
  exact Iff.rfl

set_option maxHeartbeats 400000 in
/-- Every entry of the output array is written back: row `r` lies in the block of point `r / 5000`. -/
theorem covered (i : S100000x128.Idx) :
    ∃ t : Fin cfg1.N, (cfg1.win 6).flush t = true ∧ i ∈ ((cfg1.win 6).blk t).view.set := by
  have hN : cfg1.N = 20 := N_1
  have h0 : (i 0).val < 100000 := idx2_lt0 i
  have h1 : (i 1).val < 128 := idx2_lt1 i
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1, -⟩ := index_maps t
  refine ⟨t, flush1_6 t, ?_⟩
  rw [mem_block]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

end Blocks

/-- The node stage's whole result: after the 20 grid points, each writing back its block of 5000 rows, the output array
    is the stage's function of the arrays the region found, whatever they are. -/
theorem array (V : (c : Dev nD) → (b : Ref sig .tc) → Buf (Elt Ideal) ((c : Thread nD τ).loc b)) (c : Dev nD) :
    (dat1 (F := Ideal) V c).arrAt 6 cfg1.N
      = GraphNet.stage2 (K := 192) (V c main_arg0) (V c main_v11) (V c main_arg9) (V c main_v12) (V c main_arg11) (V c main_v13) :=
  (dat1 (F := Ideal) V c).arrAt_eq_of_cover 6 _ (fun t _ => written_back V c t) covered

end Cert.KernelIdeal.NodeStage

end
-- ==== Proof.KGraphPay.lean ====
import proofs.«402856_j7584912245437_1_alg».proof.Proof.Gen.KernelIdeal.Frame
import proofs.«402856_j7584912245437_1_alg».proof.Proof.Spec

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GraphStage

open Cert.KernelIdeal Cert.KernelIdeal.Gen Idealize.ShloMosaic Idealize.ShloMosaic.TcCoe Idealize.ShloMosaic.ValueIdx
open Idealize.ShloMosaic.Pipeline (Dat Cfg Window)
open Idealize.SL.Sem

/-! ## The first contraction: a row of 144 against a column of the first weights -/

theorem lhsA_0 (i : S1024x128.Idx) (q : dot_S1024x144_S144x128_S1024x128_1_0_0_1_n_n.contr.Idx) :
    (dot_S1024x144_S144x128_S1024x128_1_0_0_1_n_n.lhsIdx i q 0).val = (i 0).val := by
  unfold DotDims.lhsIdx
  rw [dif_neg (show ¬(0 : Fin S1024x144.rank) ∈ dot_S1024x144_S144x128_S1024x128_1_0_0_1_n_n.lhsBatch by decide), dif_pos (show (0 : Fin S1024x144.rank) ∈ dot_S1024x144_S144x128_S1024x128_1_0_0_1_n_n.lhsNonContracting by decide)]
  rfl
theorem lhsA_1 (i : S1024x128.Idx) (q : dot_S1024x144_S144x128_S1024x128_1_0_0_1_n_n.contr.Idx) :
    (dot_S1024x144_S144x128_S1024x128_1_0_0_1_n_n.lhsIdx i q 1).val = (q ⟨0, by decide⟩).val :=
  dot_S1024x144_S144x128_S1024x128_1_0_0_1_n_n.lhsIdx_val_of_single rfl i q
theorem rhsA_0 (i : S1024x128.Idx) (q : dot_S1024x144_S144x128_S1024x128_1_0_0_1_n_n.contr.Idx) :
    (dot_S1024x144_S144x128_S1024x128_1_0_0_1_n_n.rhsIdx i q 0).val = (q ⟨0, by decide⟩).val :=
  dot_S1024x144_S144x128_S1024x128_1_0_0_1_n_n.rhsIdx_val_of_single rfl i q
theorem rhsA_1 (i : S1024x128.Idx) (q : dot_S1024x144_S144x128_S1024x128_1_0_0_1_n_n.contr.Idx) :
    (dot_S1024x144_S144x128_S1024x128_1_0_0_1_n_n.rhsIdx i q 1).val = (i 1).val := by
  unfold DotDims.rhsIdx
  rw [dif_neg (show ¬(1 : Fin S144x128.rank) ∈ dot_S1024x144_S144x128_S1024x128_1_0_0_1_n_n.rhsBatch by decide), dif_pos (show (1 : Fin S144x128.rank) ∈ dot_S1024x144_S144x128_S1024x128_1_0_0_1_n_n.rhsNonContracting by decide)]
  rfl

/-- The first product into the zero accumulator, at row `p` and column `n`: the sum over the 144 positions. -/
theorem mmA_apply (y : FVec Ideal S1024x144 .bf16) (w : FVec Ideal S144x128 .bf16) (p : Fin 1024) (n : Fin 128) :
    matmul dot_S1024x144_S144x128_S1024x128_1_0_0_1_n_n none y w (constant (F := Ideal) S1024x128 .f32 0x00000000#32) (ix2 p n)
      = ∑ k : Fin 144, y (ix2 p k) * w (ix2 k n) := by
  simp only [matmul]
  rw [Ideal.matmul_constant_zero_apply, ← Equiv.sum_comp (contrEquiv1 dot_S1024x144_S144x128_S1024x128_1_0_0_1_n_n 144 rfl rfl).symm]
  refine Finset.sum_congr rfl fun k _ => ?_
  have hk := contrEquiv1_symm_val dot_S1024x144_S144x128_S1024x128_1_0_0_1_n_n 144 rfl rfl k
  have el : dot_S1024x144_S144x128_S1024x128_1_0_0_1_n_n.lhsIdx (ix2 p n) ((contrEquiv1 dot_S1024x144_S144x128_S1024x128_1_0_0_1_n_n 144 rfl rfl).symm k) = ix2 p k := funext fun a => Fin.ext (by
    match a with
    | ⟨0, _⟩ => exact lhsA_0 _ _
    | ⟨1, _⟩ => exact (lhsA_1 _ _).trans hk)
  have er : dot_S1024x144_S144x128_S1024x128_1_0_0_1_n_n.rhsIdx (ix2 p n) ((contrEquiv1 dot_S1024x144_S144x128_S1024x128_1_0_0_1_n_n 144 rfl rfl).symm k) = ix2 k n := funext fun a => Fin.ext (by
    match a with
    | ⟨0, _⟩ => exact (rhsA_0 _ _).trans hk
    | ⟨1, _⟩ => exact rhsA_1 _ _)
  rw [el, er]

/-! ## The second contraction: a row of 128 against a column of the second weights -/

theorem lhsB_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhsB_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhsB_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhsB_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The second product into the zero accumulator, at row `p` and column `n`: the sum over the 128 hidden units. -/
theorem mmB_apply (y : FVec Ideal S1024x128 .bf16) (w : FVec Ideal S128x128 .bf16) (p : Fin 1024) (n : Fin 128) :
    matmul dot_S1024x128_S128x128_S1024x128_1_0_0_1_n_n none y w (constant (F := Ideal) S1024x128 .f32 0x00000000#32) (ix2 p n)
      = ∑ k : Fin 128, y (ix2 p k) * w (ix2 k n) := by
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p n) ((contrEquiv1 dot_S1024x128_S128x128_S1024x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S1024x128_S128x128_S1024x128_1_0_0_1_n_n.rhsIdx (ix2 p n) ((contrEquiv1 dot_S1024x128_S128x128_S1024x128_1_0_0_1_n_n 128 rfl rfl).symm k) = ix2 k n := funext fun a => Fin.ext (by
    match a with
    | ⟨0, _⟩ => exact (rhsB_0 _ _).trans hk
    | ⟨1, _⟩ => exact rhsB_1 _ _)
  rw [el, er]

/-! ## The two input rows laid end to end, and the bias row read at every row -/

/-- The joined block at row `p`, position `j`: the first input's row up to 16, then the second's. -/
theorem cat_apply (a : FVec Ideal S1024x16 .bf16) (b : FVec Ideal S1024x128 .bf16) (p : Fin 1024) (j : Fin 144) :
    concatenate S1024x144 1 [⟨S1024x16, a⟩, ⟨S1024x128, b⟩] concatenates_S1024x16_S1024x128_S1024x144_d1 (ix2 p j)
      = GraphNet.cat2 (K := 144) (fun c : Fin 16 => a (ix2 p c)) (fun c : Fin 128 => b (ix2 p c)) j := by
  unfold GraphNet.cat2
  by_cases h : j.val < 16
  · rw [dif_pos h]
    exact concatenate_pair_apply_left (1 : Fin S1024x144.rank) a b _ (ix2 p j) rfl (ix2 p ⟨j.val, h⟩) (fun c => by
      match c with
      | ⟨0, _⟩ => rfl
      | ⟨1, _⟩ => rfl)
  · have h' : j.val - 16 < 128 := by have := j.isLt; omega
    rw [dif_neg h, dif_pos h']
    exact concatenate_pair_apply_right (1 : Fin S1024x144.rank) a b _ (ix2 p j) rfl rfl (ix2 p ⟨j.val - 16, h'⟩) (fun c hc => by
      match c, hc with
      | ⟨0, _⟩, _ => rfl
      | ⟨1, _⟩, hc => exact absurd rfl hc)
      (by show (j.val - 16) + 16 = j.val; omega)

/-- The bias row broadcast over the block reads the row's entry of the column. -/
theorem bias_apply (b : FVec Ideal S1x128 .f32) (p : Fin 1024) (n : Fin 128) :
    broadcastTo S1024x128 b broadcasts_S1x128_S1024x128 (ix2 p n) = b (ix2 0 n) :=
  broadcastTo_apply b _ (ix2 p n) (ix2 0 n) (fun a => by
    match a with
    | ⟨0, _⟩ => rfl
    | ⟨1, _⟩ => rfl)

/-! ## One rectified layer of each width, and the two composed -/

/-- The first layer at row `p`, unit `n`: the 144-position row against the weights' column, plus the bias, cut at zero. -/
theorem layerA_apply (y : FVec Ideal S1024x144 .bf16) (w : FVec Ideal S144x128 .bf16) (b : FVec Ideal S1x128 .f32)
    (p : Fin 1024) (n : Fin 128) :
    maximumf (addf (matmul dot_S1024x144_S144x128_S1024x128_1_0_0_1_n_n none y w (constant (F := Ideal) S1024x128 .f32 0x00000000#32))
        (broadcastTo S1024x128 b broadcasts_S1x128_S1024x128))
      (broadcast S1024x128 (Scalar.ofBits (F := Ideal) .f32 0x00000000#32)) (ix2 p n)
      = GraphNet.layer (fun k : Fin 144 => y (ix2 p k)) (fun k m => w (ix2 k m)) (fun m => b (ix2 0 m)) n := by
  rw [maximumf_apply, addf_apply, broadcast_apply, mmA_apply, bias_apply]
  show max _ (Ideal.ofBits .f32 0x00000000#32) = _
  rw [Ideal.ofBits_zero_f32]
  rfl

/-- The second layer at row `p`, output `n`: the 128 hidden units against the weights' column, plus the bias, cut at zero. -/
theorem layerB_apply (y : FVec Ideal S1024x128 .bf16) (w : FVec Ideal S128x128 .bf16) (b : FVec Ideal S1x128 .f32)
    (p : Fin 1024) (n : Fin 128) :
    maximumf (addf (matmul dot_S1024x128_S128x128_S1024x128_1_0_0_1_n_n none y w (constant (F := Ideal) S1024x128 .f32 0x00000000#32))
        (broadcastTo S1024x128 b broadcasts_S1x128_S1024x128))
      (broadcast S1024x128 (Scalar.ofBits (F := Ideal) .f32 0x00000000#32)) (ix2 p n)
      = GraphNet.layer (fun k : Fin 128 => y (ix2 p k)) (fun k m => w (ix2 k m)) (fun m => b (ix2 0 m)) n := by
  rw [maximumf_apply, addf_apply, broadcast_apply, mmB_apply, bias_apply]
  show max _ (Ideal.ofBits .f32 0x00000000#32) = _
  rw [Ideal.ofBits_zero_f32]
  rfl

/-- The graph stage's one block: the body's result on all 1024 graphs is the two rectified layers, row by row, of the
    two inputs' rows laid end to end. -/
theorem payload (x0 : Vec Ideal S1024x16 .f32) (x1 : Vec Ideal S1024x128 .f32) (x2 : Vec Ideal S144x128 .f32)
    (x3 : Vec Ideal S1x128 .f32) (x4 : Vec Ideal S128x128 .f32) (x5 : Vec Ideal S1x128 .f32) :
    k2_pay1 (F := Ideal) x0 x1 x2 x3 x4 x5 = GraphNet.stage2 (K := 144) x0 x1 x2 x3 x4 x5 := by
  funext i
  obtain ⟨p, n, rfl⟩ : ∃ (p : Fin 1024) (n : Fin 128), i = ix2 p n := ⟨_, _, eq_ix2 i⟩
  unfold k2_pay1
  -- a cast to the same shape is the identity
  have e1 : shapeCast S1024x128 x1 shapeCasts_S1024x128_S1024x128 = x1 := shapeCast_self _ _
  have e3 : shapeCast S1x128 x3 shapeCasts_S1x128_S1x128 = x3 := shapeCast_self _ _
  have e5 : shapeCast S1x128 x5 shapeCasts_S1x128_S1x128 = x5 := shapeCast_self _ _
  -- the outer layer, read at (p, n)
  refine (layerB_apply _ _ _ p n).trans ?_
  unfold GraphNet.stage2 GraphNet.mlp
  rw [e5]
  refine congrArg (fun z => GraphNet.layer z (fun k m => x4 (ix2 k m)) (fun m => x5 (ix2 0 m)) n) (funext fun k => ?_)
  -- the inner layer, read at (p, k): the format change is the identity on extended reals
  refine (layerA_apply _ _ _ p k).trans ?_
  rw [e3]
  refine congrArg (fun z => GraphNet.layer z (fun j m => x2 (ix2 j m)) (fun m => x3 (ix2 0 m)) k) (funext fun j => ?_)
  -- the joined row, read at (p, j)
  refine (cat_apply _ _ p j).trans ?_
  rw [e1]
  rfl

end Cert.KernelIdeal.GraphStage

end
-- ==== Proof.KGraphArr.lean ====
import proofs.«402856_j7584912245437_1_alg».proof.Proof.Gen.KernelIdeal.Frame
import proofs.«402856_j7584912245437_1_alg».proof.Proof.Spec
import proofs.«402856_j7584912245437_1_alg».proof.Proof.KGraphPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GraphStage

open Cert.KernelIdeal Cert.KernelIdeal.Gen Idealize.ShloMosaic Idealize.ShloMosaic.TcCoe Idealize.ShloMosaic.ValueIdx
open Idealize.ShloMosaic.Pipeline (Dat Cfg Window)
open Idealize.SL.Sem

section Blocks

/-- The offsets of an access to a whole buffer are zero on both axes. -/
theorem zero_offsets : (![0, 0] : Fin 2 → Nat) = fun _ => 0 := funext fun a => by fin_cases a <;> rfl

/-- The seven index maps at the grid's one point: every window takes its block 0 on both axes. -/
theorem index_maps : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

variable (V : (c : Dev nD) → (b : Ref sig .tc) → Buf (Elt Ideal) ((c : Thread nD τ).loc b))

set_option maxHeartbeats 400000 in
/-- Window 0's one block is its whole array, the first of the two inputs laid end to end. -/
theorem block0_whole (c : Dev nD) (t : Fin cfg2.N) :
    (iblk2 (F := Ideal) V c 0 t : Vec Ideal S1024x16 .f32) = (V c main_arg3 : S1024x16.Idx → EReal) := by
  obtain ⟨e0, e1, -⟩ := index_maps t
  funext y
  show V c main_arg3 (((cfg2.win 0).blk t).view.emb y) = V c main_arg3 y
  refine congrArg _ ?_
  funext a
  apply Fin.ext
  match a with
  | ⟨0, _⟩ => show win2_0.index t (0 : Fin 2) * 1024 + 1 * (y 0).val = (y 0).val; omega
  | ⟨1, _⟩ => show win2_0.index t (1 : Fin 2) * 16 + 1 * (y 1).val = (y 1).val; omega

set_option maxHeartbeats 400000 in
/-- Window 1's one block is its whole array, the second of the two inputs laid end to end. -/
theorem block1_whole (c : Dev nD) (t : Fin cfg2.N) :
    (iblk2 (F := Ideal) V c 1 t : Vec Ideal S1024x128 .f32) = (V c main_v17 : S1024x128.Idx → EReal) := by
  obtain ⟨-, -, e0, e1, -⟩ := index_maps t
  funext y
  show V c main_v17 (((cfg2.win 1).blk t).view.emb y) = V c main_v17 y
  refine congrArg _ ?_
  funext a
  apply Fin.ext
  match a with
  | ⟨0, _⟩ => show win2_1.index t (0 : Fin 2) * 1024 + 1 * (y 0).val = (y 0).val; omega
  | ⟨1, _⟩ => show win2_1.index t (1 : Fin 2) * 128 + 1 * (y 1).val = (y 1).val; omega

set_option maxHeartbeats 400000 in
/-- Window 2's one block is its whole array, the first layer's weights. -/
theorem block2_whole (c : Dev nD) (t : Fin cfg2.N) :
    (iblk2 (F := Ideal) V c 2 t : Vec Ideal S144x128 .f32) = (V c main_arg13 : S144x128.Idx → EReal) := by
  obtain ⟨-, -, -, -, e0, e1, -⟩ := index_maps t
  funext y
  show V c main_arg13 (((cfg2.win 2).blk t).view.emb y) = V c main_arg13 y
  refine congrArg _ ?_
  funext a
  apply Fin.ext
  match a with
  | ⟨0, _⟩ => show win2_2.index t (0 : Fin 2) * 144 + 1 * (y 0).val = (y 0).val; omega
  | ⟨1, _⟩ => show win2_2.index t (1 : Fin 2) * 128 + 1 * (y 1).val = (y 1).val; omega

set_option maxHeartbeats 400000 in
/-- Window 3's one block is its whole array, the first layer's bias row. -/
theorem block3_whole (c : Dev nD) (t : Fin cfg2.N) :
    (iblk2 (F := Ideal) V c 3 t : Vec Ideal S1x128 .f32) = (V c main_v18 : S1x128.Idx → EReal) := by
  obtain ⟨-, -, -, -, -, -, e0, e1, -⟩ := index_maps t
  funext y
  show V c main_v18 (((cfg2.win 3).blk t).view.emb y) = V c main_v18 y
  refine congrArg _ ?_
  funext a
  apply Fin.ext
  match a with
  | ⟨0, _⟩ => show win2_3.index t (0 : Fin 2) * 1 + 1 * (y 0).val = (y 0).val; omega
  | ⟨1, _⟩ => show win2_3.index t (1 : Fin 2) * 128 + 1 * (y 1).val = (y 1).val; omega

set_option maxHeartbeats 400000 in
/-- Window 4's one block is its whole array, the second layer's weights. -/
theorem block4_whole (c : Dev nD) (t : Fin cfg2.N) :
    (iblk2 (F := Ideal) V c 4 t : Vec Ideal S128x128 .f32) = (V c main_arg15 : S128x128.Idx → EReal) := by
  obtain ⟨-, -, -, -, -, -, -, -, e0, e1, -⟩ := index_maps t
  funext y
  show V c main_arg15 (((cfg2.win 4).blk t).view.emb y) = V c main_arg15 y
  refine congrArg _ ?_
  funext a
  apply Fin.ext
  match a with
  | ⟨0, _⟩ => show win2_4.index t (0 : Fin 2) * 128 + 1 * (y 0).val = (y 0).val; omega
  | ⟨1, _⟩ => show win2_4.index t (1 : Fin 2) * 128 + 1 * (y 1).val = (y 1).val; omega

set_option maxHeartbeats 400000 in
/-- Window 5's one block is its whole array, the second layer's bias row. -/
theorem block5_whole (c : Dev nD) (t : Fin cfg2.N) :
    (iblk2 (F := Ideal) V c 5 t : Vec Ideal S1x128 .f32) = (V c main_v19 : S1x128.Idx → EReal) := by
  obtain ⟨-, -, -, -, -, -, -, -, -, -, e0, e1, -⟩ := index_maps t
  funext y
  show V c main_v19 (((cfg2.win 5).blk t).view.emb y) = V c main_v19 y
  refine congrArg _ ?_
  funext a
  apply Fin.ext
  match a with
  | ⟨0, _⟩ => show win2_5.index t (0 : Fin 2) * 1 + 1 * (y 0).val = (y 0).val; omega
  | ⟨1, _⟩ => show win2_5.index t (1 : Fin 2) * 128 + 1 * (y 1).val = (y 1).val; omega

set_option maxHeartbeats 400000 in
/-- An element of the output's one block sits in the array at its own row and column. -/
theorem out_block_emb (t : Fin cfg2.N) (y : S1024x128.Idx) :
    (((cfg2.win 6).blk t).view.emb y : S1024x128.Idx) = y := by
  obtain ⟨-, -, -, -, -, -, -, -, -, -, -, -, e0, e1⟩ := index_maps t
  funext a
  apply Fin.ext
  match a with
  | ⟨0, _⟩ => show win2_6.index t (0 : Fin 2) * 1024 + 1 * (y 0).val = (y 0).val; omega
  | ⟨1, _⟩ => show win2_6.index t (1 : Fin 2) * 128 + 1 * (y 1).val = (y 1).val; omega

set_option maxHeartbeats 400000 in
/-- WHAT THE ONE POINT WRITES BACK is the stage's function of the whole arrays, read through the output's one block. -/
theorem written_back (c : Dev nD) (t : Fin cfg2.N) :
    (dat2 (F := Ideal) V c).flushed 6 t = ((cfg2.win 6).blk t).view.read (Elt Ideal)
      (GraphNet.stage2 (K := 144) (V c main_arg3) (V c main_v17) (V c main_arg13) (V c main_v18) (V c main_arg15) (V c main_v19)) := by
  show (cfg2.win 6).cut (grid2.coords t) ((dat2 V c).after 6 t) = _
  rw [after2_6]
  unfold out2_6
  rw [View.canon_unit_zero zero_offsets]
  simp only [View.ld_unit_zero (S := S1024x16) zero_offsets, View.ld_unit_zero (S := S1024x128) zero_offsets,
    View.ld_unit_zero (S := S144x128) zero_offsets, View.ld_unit_zero (S := S1x128) zero_offsets,
    View.ld_unit_zero (S := S128x128) zero_offsets]
  rw [payload]
  refine funext fun (y : S1024x128.Idx) => ?_
  show GraphNet.stage2 (K := 144) (iblk2 V c 0 t : Vec Ideal S1024x16 .f32) (iblk2 V c 1 t : Vec Ideal S1024x128 .f32)
        (iblk2 V c 2 t : Vec Ideal S144x128 .f32) (iblk2 V c 3 t : Vec Ideal S1x128 .f32)
        (iblk2 V c 4 t : Vec Ideal S128x128 .f32) (iblk2 V c 5 t : Vec Ideal S1x128 .f32) y
      = GraphNet.stage2 (K := 144) (V c main_arg3) (V c main_v17) (V c main_arg13) (V c main_v18) (V c main_arg15) (V c main_v19)
          (((cfg2.win 6).blk t).view.emb y : S1024x128.Idx)
  rw [block0_whole V c t, block1_whole V c t, block2_whole V c t, block3_whole V c t, block4_whole V c t, block5_whole V c t,
    out_block_emb t y]

/-- An index of the output array is in the one point's block iff each coordinate is in the block's range on its axis. -/
theorem mem_block (t : Fin cfg2.N) (i : S1024x128.Idx) :
    i ∈ ((cfg2.win 6).blk t).view.set ↔ ∀ a : Fin 2, win2_6.index t a * S1024x128.size a ≤ (i a).val
      ∧ (i a).val < win2_6.index t a * S1024x128.size a + S1024x128.size a := by
  show i ∈ ((View.whole main_v20).slice (win2_6.rect t)).set ↔ _
  rw [View.set_slice_whole, Rect.mem_set_unit]
  exact Iff.rfl

set_option maxHeartbeats 400000 in
/-- Every entry of the output array is written back, by the grid's one point. -/
theorem covered (i : S1024x128.Idx) :
    ∃ t : Fin cfg2.N, (cfg2.win 6).flush t = true ∧ i ∈ ((cfg2.win 6).blk t).view.set := by
  have h0 : (i 0).val < 1024 := idx2_lt0 i
  have h1 : (i 1).val < 128 := idx2_lt1 i
  obtain ⟨-, -, -, -, -, -, -, -, -, -, -, -, e0, e1⟩ := index_maps t2_0
  refine ⟨t2_0, flush2_6 t2_0, ?_⟩
  rw [mem_block]
  intro a
  match a with
  | ⟨0, _⟩ =>
    show win2_6.index t2_0 (0 : Fin 2) * 1024 ≤ (i 0).val ∧ (i 0).val < win2_6.index t2_0 (0 : Fin 2) * 1024 + 1024
    omega
  | ⟨1, _⟩ =>
    show win2_6.index t2_0 (1 : Fin 2) * 128 ≤ (i 1).val ∧ (i 1).val < win2_6.index t2_0 (1 : Fin 2) * 128 + 128
    omega

end Blocks

/-- The graph stage's whole result: its one grid point writes back the whole array, the stage's function of the arrays
    the region found, whatever they are. -/
theorem array (V : (c : Dev nD) → (b : Ref sig .tc) → Buf (Elt Ideal) ((c : Thread nD τ).loc b)) (c : Dev nD) :
    (dat2 (F := Ideal) V c).arrAt 6 cfg2.N
      = GraphNet.stage2 (K := 144) (V c main_arg3) (V c main_v17) (V c main_arg13) (V c main_v18) (V c main_arg15) (V c main_v19) :=
  (dat2 (F := Ideal) V c).arrAt_eq_of_cover 6 _ (fun t _ => written_back V c t) covered

end Cert.KernelIdeal.GraphStage

end
-- ==== Proof.LibTypedRef.lean ====
/-
  Typed buffer references: the two transports cancel.

  A host function called from the program names its values by typed references: a buffer together with the equation
  "this buffer's type is the value's type". A value is written into the buffer through the transport along that equation
  and read back through the transport along its inverse. Both are the identity as soon as the equation is closed, but a
  term composed of many such operations carries a pair of transports around every intermediate value. The lemmas here
  remove each pair by rewriting, for any reference, with no computation on the buffer's type.
-/
import Idealize.ShloMosaic.Lib.StableHlo

namespace TypedRef

open Idealize.ShloMosaic

/-- Reading a typed buffer back after writing it is the identity: the transports along the buffer's type equation and
    along its inverse cancel. -/
theorem ofBuf_toBuf {sig : RefSig} {Val : EltTy → Type} {T : BufTy} (x : StableHlo.TRef sig T) (v : T.Contents Val) :
    x.ofBuf (x.toBuf v) = v := by
  obtain ⟨r, h, d, u⟩ := x
  subst h
  rfl

/-- Writing back what was read from a typed buffer is the identity. -/
theorem toBuf_ofBuf {sig : RefSig} {Val : EltTy → Type} {T : BufTy} (x : StableHlo.TRef sig T) (v : x.ref.ty.Contents Val) :
    x.toBuf (x.ofBuf v) = v := by
  obtain ⟨r, h, d, u⟩ := x
  subst h
  rfl

end TypedRef
-- ==== Proof.KFold.lean ====
import proofs.«402856_j7584912245437_1_alg».proof.Proof.KValue
import proofs.«402856_j7584912245437_1_alg».proof.Proof.KArgs
import proofs.«402856_j7584912245437_1_alg».proof.Proof.KEdgeArr
import proofs.«402856_j7584912245437_1_alg».proof.Proof.KNodeArr
import proofs.«402856_j7584912245437_1_alg».proof.Proof.KGraphArr
import proofs.«402856_j7584912245437_1_alg».proof.Proof.LibTypedRef
import Idealize.ShloMosaic.Lib.StableHlo.Run

set_option maxRecDepth 16384

noncomputable section

namespace Cert.KernelIdeal.Glue

open Cert.KernelIdeal Cert.KernelIdeal.Gen Idealize.ShloMosaic Idealize.ShloMosaic.TcCoe Idealize.ShloMosaic.StableHlo
open Idealize.SL.Sem

/-! ## The kernel program's result, read off the fold through its segments

The generated frame gives every buffer's contents at every segment boundary as a fold: a host stretch applies its
operations in order, a region leaves each of its arrays at what its grid points wrote back. Here the fold is read at
the buffers that matter: each region's windows at its entry, its output array at its exit, and the result buffer at the
end. Every host operation between the regions is kept whole; only the three regions' arrays are opened, by the stage
theorems. -/

/-! ### The called row lookup, from any contents of the buffers -/

set_option maxHeartbeats 4000000 in
/-- The called row lookup, from any contents `W` of the buffers: its result buffer holds the lookup of the table's rows
    at the index vector, both as `W` has them (each buffer read at its value's type). -/
theorem take_fold0 {F : FTy → Type} [FloatOps F] (W : Valuation τ sig (Elt F)) :
    (StableHlo.TRef.of (sig := sig) (T := ⟨S1600000x64, .f32⟩) main_v4).ofBuf (StableHlo.after hostOps0_1 W (Proc.devRef .tc main_v4))
      = takeRows (F := F) ((StableHlo.TRef.of (sig := sig) (T := ⟨S100000x64, .f32⟩) main_arg0).ofBuf (W (Proc.devRef .tc main_arg0)))
          ((StableHlo.TRef.of (sig := sig) (T := ⟨S1600000, .i32⟩) main_v1).ofBuf (W (Proc.devRef .tc main_v1))) := by
  unfold takeRows gatherRows inRange wrapIdx
  after_results
  simp only [TypedRef.ofBuf_toBuf]

set_option maxHeartbeats 4000000 in
/-- The called row lookup, from any contents `W` of the buffers: its result buffer holds the lookup of the table's rows
    at the index vector, both as `W` has them (each buffer read at its value's type). -/
theorem take_fold1 {F : FTy → Type} [FloatOps F] (W : Valuation τ sig (Elt F)) :
    (StableHlo.TRef.of (sig := sig) (T := ⟨S1600000x64, .f32⟩) main_v5).ofBuf (StableHlo.after hostOps0_2 W (Proc.devRef .tc main_v5))
      = takeRows (F := F) ((StableHlo.TRef.of (sig := sig) (T := ⟨S100000x64, .f32⟩) main_arg0).ofBuf (W (Proc.devRef .tc main_arg0)))
          ((StableHlo.TRef.of (sig := sig) (T := ⟨S1600000, .i32⟩) main_v3).ofBuf (W (Proc.devRef .tc main_v3))) := by
  unfold takeRows gatherRows inRange wrapIdx
  after_results
  simp only [TypedRef.ofBuf_toBuf]

variable (m : (ℓ : Loc nD τ sig) → Buf (Elt Ideal) ℓ) (ρ : Dev nD → PrngReg)

/-! ### Region 0's windows at its entry -/

set_option maxHeartbeats 2000000 in
theorem W1_src (c : Dev nD) : (StableHlo.TRef.of (sig := sig) (T := ⟨S1600000, .i32⟩) main_v1).ofBuf (W1 (F := Ideal) m ρ c (Proc.devRef .tc main_v1)) = srcOf (m ((c : Thread nD τ).loc main_arg1)) := by
  unfold srcOf
  show (StableHlo.TRef.of (sig := sig) (T := ⟨S1600000, .i32⟩) main_v1).ofBuf (StableHlo.after hostOps0 (W0 m ρ c) (Proc.devRef .tc main_v1)) = _
  after_results
  rfl

set_option maxHeartbeats 2000000 in
theorem W1_x (c : Dev nD) : (StableHlo.TRef.of (sig := sig) (T := ⟨S100000x64, .f32⟩) main_arg0).ofBuf (W1 (F := Ideal) m ρ c (Proc.devRef .tc main_arg0)) = (m ((c : Thread nD τ).loc main_arg0)) := by
  show (StableHlo.TRef.of (sig := sig) (T := ⟨S100000x64, .f32⟩) main_arg0).ofBuf (StableHlo.after hostOps0 (W0 m ρ c) (Proc.devRef .tc main_arg0)) = _
  after_results
  rfl

set_option maxHeartbeats 2000000 in
theorem W2_dst (c : Dev nD) : (StableHlo.TRef.of (sig := sig) (T := ⟨S1600000, .i32⟩) main_v3).ofBuf (W2 (F := Ideal) m ρ c (Proc.devRef .tc main_v3)) = dstOf (m ((c : Thread nD τ).loc main_arg1)) := by
  unfold dstOf
  show (StableHlo.TRef.of (sig := sig) (T := ⟨S1600000, .i32⟩) main_v3).ofBuf (StableHlo.after hostOps0_1 (StableHlo.after hostOps0 (W0 m ρ c)) (Proc.devRef .tc main_v3)) = _
  after_results
  rfl

set_option maxHeartbeats 2000000 in
theorem W2_x (c : Dev nD) : (StableHlo.TRef.of (sig := sig) (T := ⟨S100000x64, .f32⟩) main_arg0).ofBuf (W2 (F := Ideal) m ρ c (Proc.devRef .tc main_arg0)) = (m ((c : Thread nD τ).loc main_arg0)) := by
  show (StableHlo.TRef.of (sig := sig) (T := ⟨S100000x64, .f32⟩) main_arg0).ofBuf (StableHlo.after hostOps0_1 (StableHlo.after hostOps0 (W0 m ρ c)) (Proc.devRef .tc main_arg0)) = _
  after_results
  rfl

set_option maxHeartbeats 2000000 in
/-- The first input window holds the lookup of the source nodes' rows. -/
theorem V4_src (c : Dev nD) : (V4 (F := Ideal) m ρ c main_v4 : FVec Ideal S1600000x64 .f32) = takeRows (F := Ideal) (m ((c : Thread nD τ).loc main_arg0)) (srcOf (m ((c : Thread nD τ).loc main_arg1))) := by
  have h := take_fold0 (F := Ideal) (W1 m ρ c)
  rw [W1_x, W1_src] at h
  refine Eq.trans ?_ h
  show StableHlo.after hostOps0_3 (StableHlo.after hostOps0_2 (StableHlo.after hostOps0_1 (W1 m ρ c))) (Proc.devRef .tc main_v4) = _
  generalize StableHlo.after hostOps0_1 (W1 m ρ c) = X
  after_results
  rfl

set_option maxHeartbeats 2000000 in
/-- The second input window holds the lookup of the destination nodes' rows. -/
theorem V4_dst (c : Dev nD) : (V4 (F := Ideal) m ρ c main_v5 : FVec Ideal S1600000x64 .f32) = takeRows (F := Ideal) (m ((c : Thread nD τ).loc main_arg0)) (dstOf (m ((c : Thread nD τ).loc main_arg1))) := by
  have h := take_fold1 (F := Ideal) (W2 m ρ c)
  rw [W2_x, W2_dst] at h
  refine Eq.trans ?_ h
  show StableHlo.after hostOps0_3 (StableHlo.after hostOps0_2 (W2 m ρ c)) (Proc.devRef .tc main_v5) = _
  generalize StableHlo.after hostOps0_2 (W2 m ρ c) = X
  after_results
  rfl

set_option maxHeartbeats 2000000 in
theorem V4_b1 (c : Dev nD) : (V4 (F := Ideal) m ρ c main_v6 : FVec Ideal S1x128 .f32) = biasOf (m ((c : Thread nD τ).loc main_arg6)) := by
  unfold biasOf
  show StableHlo.after hostOps0_3 (StableHlo.after hostOps0_2 (StableHlo.after hostOps0_1 (StableHlo.after hostOps0 (W0 m ρ c)))) (Proc.devRef .tc main_v6) = _
  after_results
  rfl

set_option maxHeartbeats 2000000 in
theorem V4_b2 (c : Dev nD) : (V4 (F := Ideal) m ρ c main_v7 : FVec Ideal S1x128 .f32) = biasOf (m ((c : Thread nD τ).loc main_arg8)) := by
  unfold biasOf
  show StableHlo.after hostOps0_3 (StableHlo.after hostOps0_2 (StableHlo.after hostOps0_1 (StableHlo.after hostOps0 (W0 m ρ c)))) (Proc.devRef .tc main_v7) = _
  after_results
  rfl

/-! ### Region 0's exit, and region 1's windows at its entry -/

variable (he : ∀ (c : Dev nD) (i : S2x1600000.Idx), (-100000 : ℤ) ≤ ((m ((c : Thread nD τ).loc main_arg1)) i).toInt ∧ ((m ((c : Thread nD τ).loc main_arg1)) i).toInt < 100000)
include he

/-- At region 0's exit its output array is the edge stage's result. -/
theorem W5_edge (c : Dev nD) : W5 (F := Ideal) m ρ c (Proc.devRef .tc main_v8) = edgeOut (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := by
  refine (W5_arr m ρ c 7).trans ((Cert.KernelIdeal.EdgeStage.array (V4 m ρ) c).trans ?_)
  rw [V4_src, V4_dst, V4_b1, V4_b2, takeRows_srcOf _ _ (he c), takeRows_dstOf _ _ (he c)]
  show GraphNet.stage3 _ _ (W4 m ρ c (Proc.devRef .tc main_arg2)) (W4 m ρ c (Proc.devRef .tc main_arg5)) _ (W4 m ρ c (Proc.devRef .tc main_arg7)) _ = _
  rw [W4_arg2, W4_arg5, W4_arg7]
  rfl
omit he

set_option maxHeartbeats 2000000 in
theorem W4_dst (c : Dev nD) : (W4 (F := Ideal) m ρ c (Proc.devRef .tc main_v3) : IVec S1600000 32) = dstOf (m ((c : Thread nD τ).loc main_arg1)) := by
  unfold dstOf
  show StableHlo.after hostOps0_3 (StableHlo.after hostOps0_2 (StableHlo.after hostOps0_1 (StableHlo.after hostOps0 (W0 m ρ c)))) (Proc.devRef .tc main_v3) = _
  after_results
  rfl

theorem W5_dst (c : Dev nD) : (W5 (F := Ideal) m ρ c (Proc.devRef .tc main_v3) : IVec S1600000 32) = dstOf (m ((c : Thread nD τ).loc main_arg1)) :=
  (W5_of_ne m ρ c main_v3 (by decide)).trans (W4_dst m ρ c)

set_option maxHeartbeats 2000000 in
theorem V6_x (c : Dev nD) : V6 (F := Ideal) m ρ c main_arg0 = (m ((c : Thread nD τ).loc main_arg0)) := by
  show StableHlo.after hostOps1 (W5 m ρ c) (Proc.devRef .tc main_arg0) = _
  after_results
  exact W5_arg0 m ρ c
set_option maxHeartbeats 2000000 in
theorem V6_w1 (c : Dev nD) : V6 (F := Ideal) m ρ c main_arg9 = (m ((c : Thread nD τ).loc main_arg9)) := by
  show StableHlo.after hostOps1 (W5 m ρ c) (Proc.devRef .tc main_arg9) = _
  after_results
  exact W5_arg9 m ρ c
set_option maxHeartbeats 2000000 in
theorem V6_w2 (c : Dev nD) : V6 (F := Ideal) m ρ c main_arg11 = (m ((c : Thread nD τ).loc main_arg11)) := by
  show StableHlo.after hostOps1 (W5 m ρ c) (Proc.devRef .tc main_arg11) = _
  after_results
  exact W5_arg11 m ρ c
set_option maxHeartbeats 2000000 in
theorem V6_b1 (c : Dev nD) : (V6 (F := Ideal) m ρ c main_v12 : FVec Ideal S1x128 .f32) = biasOf (m ((c : Thread nD τ).loc main_arg10)) := by
  unfold biasOf
  show StableHlo.after hostOps1 (W5 m ρ c) (Proc.devRef .tc main_v12) = _
  after_results
  rw [W5_arg10]
  rfl
set_option maxHeartbeats 2000000 in
theorem V6_b2 (c : Dev nD) : (V6 (F := Ideal) m ρ c main_v13 : FVec Ideal S1x128 .f32) = biasOf (m ((c : Thread nD τ).loc main_arg12)) := by
  unfold biasOf
  show StableHlo.after hostOps1 (W5 m ρ c) (Proc.devRef .tc main_v13) = _
  after_results
  rw [W5_arg12]
  rfl

include he
set_option maxHeartbeats 2000000 in
/-- Region 1's second window holds the edge results summed at their destination nodes. -/
theorem V6_sum (c : Dev nD) : (V6 (F := Ideal) m ρ c main_v11 : FVec Ideal S100000x128 .f32) = edgeSum (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) := by
  unfold edgeSum
  show StableHlo.after hostOps1 (W5 m ρ c) (Proc.devRef .tc main_v11) = _
  after_results
  rw [W5_edge m ρ he c, W5_dst m ρ c]

/-- At region 1's exit its output array is the node stage's result. -/
theorem W7_node (c : Dev nD) : W7 (F := Ideal) m ρ c (Proc.devRef .tc main_v14) = nodeOut (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (W7_arr m ρ c 6).trans ((Cert.KernelIdeal.NodeStage.array (V6 m ρ) c).trans ?_)
  rw [V6_x, V6_sum m ρ he, V6_w1, V6_b1, V6_w2, V6_b2]
  rfl
omit he

/-! ### Region 2's windows at its entry, its exit, and the result -/

set_option maxHeartbeats 2000000 in
theorem V8_u (c : Dev nD) : V8 (F := Ideal) m ρ c main_arg3 = (m ((c : Thread nD τ).loc main_arg3)) := by
  show StableHlo.after hostOps2 (W7 m ρ c) (Proc.devRef .tc main_arg3) = _
  after_results
  exact W7_arg3 m ρ c
set_option maxHeartbeats 2000000 in
theorem V8_w1 (c : Dev nD) : V8 (F := Ideal) m ρ c main_arg13 = (m ((c : Thread nD τ).loc main_arg13)) := by
  show StableHlo.after hostOps2 (W7 m ρ c) (Proc.devRef .tc main_arg13) = _
  after_results
  exact W7_arg13 m ρ c
set_option maxHeartbeats 2000000 in
theorem V8_w2 (c : Dev nD) : V8 (F := Ideal) m ρ c main_arg15 = (m ((c : Thread nD τ).loc main_arg15)) := by
  show StableHlo.after hostOps2 (W7 m ρ c) (Proc.devRef .tc main_arg15) = _
  after_results
  exact W7_arg15 m ρ c
set_option maxHeartbeats 2000000 in
theorem V8_b1 (c : Dev nD) : (V8 (F := Ideal) m ρ c main_v18 : FVec Ideal S1x128 .f32) = biasOf (m ((c : Thread nD τ).loc main_arg14)) := by
  unfold biasOf
  show StableHlo.after hostOps2 (W7 m ρ c) (Proc.devRef .tc main_v18) = _
  after_results
  rw [W7_arg14]
  rfl
set_option maxHeartbeats 2000000 in
theorem V8_b2 (c : Dev nD) : (V8 (F := Ideal) m ρ c main_v19 : FVec Ideal S1x128 .f32) = biasOf (m ((c : Thread nD τ).loc main_arg16)) := by
  unfold biasOf
  show StableHlo.after hostOps2 (W7 m ρ c) (Proc.devRef .tc main_v19) = _
  after_results
  rw [W7_arg16]
  rfl

include he
set_option maxHeartbeats 2000000 in
/-- Region 2's second window holds the node results summed per graph. -/
theorem V8_sum (c : Dev nD) : (V8 (F := Ideal) m ρ c main_v17 : FVec Ideal S1024x128 .f32) = nodeSum (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold nodeSum
  show StableHlo.after hostOps2 (W7 m ρ c) (Proc.devRef .tc main_v17) = _
  after_results
  rw [W7_node m ρ he c, W7_arg4]

/-- At region 2's exit its output array is the graph stage's result. -/
theorem W9_graph (c : Dev nD) : W9 (F := Ideal) m ρ c (Proc.devRef .tc main_v20) = graphOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W9_arr m ρ c 6).trans ((Cert.KernelIdeal.GraphStage.array (V8 m ρ) c).trans ?_)
  rw [V8_u, V8_sum m ρ he, V8_w1, V8_b1, V8_w2, V8_b2]
  rfl

set_option maxHeartbeats 2000000 in
/-- THE KERNEL PROGRAM'S VALUE: at the end of the fold the result buffer holds the program's function of the argument
    arrays as launched. -/
theorem kernel_value (c : Dev nD) : (W10 (F := Ideal) m ρ c (Proc.devRef .tc main_v25) : FVec Ideal S1024 .f32)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  unfold result
  show StableHlo.after hostOps3 (W9 m ρ c) (Proc.devRef .tc main_v25) = _
  after_results
  rw [W9_graph m ρ he c, W9_arg17, W9_arg18]
  rfl
omit he

end Cert.KernelIdeal.Glue

end
-- ==== Proof.PreIdx.lean ====
/-
  What the precondition says about the edge list: its last conjunct — every entry of `edge_index` is at least
  `-100000` and below `100000`, all of them, reduced by "and" — read back entry by entry as signed integers.
-/
import proofs.«402856_j7584912245437_1_alg».proof.Pre_finite_inputs
import proofs.«402856_j7584912245437_1_alg».proof.Proof.Gen.Pre_finite_inputs
import Idealize.ShloMosaic.Lib.ValueIdx
import Idealize.ShloMosaic.Lib.ReduceAll
import Idealize.ShloMosaic.Lib.StableHlo.Predicate

noncomputable section

namespace Cert.Pre_finite_inputs.EdgeRange

open Cert.Pre_finite_inputs Cert.Pre_finite_inputs.Gen Idealize.ShloMosaic Idealize.ShloMosaic.ValueIdx

/-- The two bounds of the range test, as the arrays the predicate compares the edge list with. -/
abbrev lowBound : IVec S2x1600000 32 := broadcastInDim S2x1600000 ![] Gen.bcast_S_S2x1600000 (constantI S_ 32 4294867296#32)
abbrev highBound : IVec S2x1600000 32 := broadcastInDim S2x1600000 ![] Gen.bcast_S_S2x1600000 (constantI S_ 32 100000#32)

set_option maxHeartbeats 400000 in
/-- The predicate is a conjunction whose last conjunct is the range test of the edge list, reduced by "and" over all its
    entries; the conjuncts before it are about the other inputs. -/
theorem last_conjunct {F : FTy → Type} [FloatOps F] (a0 : FVec F S100000x64 .f32) (a1 : IVec S2x1600000 32) (a2 : FVec F S1600000x32 .f32) (a3 : FVec F S1024x16 .f32)
    (a4 : IVec S100000 32) (a5 : FVec F S160x128 .f32) (a6 : FVec F S128 .f32) (a7 : FVec F S128x128 .f32) (a8 : FVec F S128 .f32)
    (a9 : FVec F S192x128 .f32) (a10 : FVec F S128 .f32) (a11 : FVec F S128x128 .f32) (a12 : FVec F S128 .f32)
    (a13 : FVec F S144x128 .f32) (a14 : FVec F S128 .f32) (a15 : FVec F S128x128 .f32) (a16 : FVec F S128 .f32)
    (a17 : FVec F S128x1 .f32) (a18 : FVec F S1 .f32) :
    ∃ p : IVec S_ 1, Cert.Pre_finite_inputs.fn (F := F) a0 a1 a2 a3 a4 a5 a6 a7 a8 a9 a10 a11 a12 a13 a14 a15 a16 a17 a18
      = andi p (Host.reduce IntOp.andi (andi (cmpi .sge a1 lowBound) (cmpi .slt a1 highBound)) (constantI S_ 1 1#1)
          Gen.reducesTo_S2x1600000_S_d0_1 Gen.h_S_) :=
  ⟨_, rfl⟩

/-- The lower bound as a signed integer. -/
theorem low_toInt : (4294867296#32 : BitVec 32).toInt = -100000 := by decide
/-- The upper bound as a signed integer. -/
theorem high_toInt : (100000#32 : BitVec 32).toInt = 100000 := by decide

/-- One entry's range test, read back: the two signed comparisons are the two integer inequalities. -/
theorem entry_range (w : BitVec 32)
    (e : IntOp.andi (IntOp.cmpi .sge w 4294867296#32) (IntOp.cmpi .slt w 100000#32) = 1#1) :
    (-100000 : ℤ) ≤ w.toInt ∧ w.toInt < 100000 := by
  obtain ⟨hge, hlt⟩ := IntOp.andi_eq_one.mp e
  rw [IntOp.cmpi_sge, low_toInt] at hge
  rw [IntOp.cmpi_slt, high_toInt] at hlt
  exact ⟨hge, hlt⟩

/-- Under the precondition every entry of the edge list is a node index counted from either end. -/
theorem edge_index_range {F : FTy → Type} [FloatOps F] (a0 : FVec F S100000x64 .f32) (a1 : IVec S2x1600000 32) (a2 : FVec F S1600000x32 .f32) (a3 : FVec F S1024x16 .f32)
    (a4 : IVec S100000 32) (a5 : FVec F S160x128 .f32) (a6 : FVec F S128 .f32) (a7 : FVec F S128x128 .f32) (a8 : FVec F S128 .f32)
    (a9 : FVec F S192x128 .f32) (a10 : FVec F S128 .f32) (a11 : FVec F S128x128 .f32) (a12 : FVec F S128 .f32)
    (a13 : FVec F S144x128 .f32) (a14 : FVec F S128 .f32) (a15 : FVec F S128x128 .f32) (a16 : FVec F S128 .f32)
    (a17 : FVec F S128x1 .f32) (a18 : FVec F S1 .f32)
    (h : Cert.Pre_finite_inputs.fn (F := F) a0 a1 a2 a3 a4 a5 a6 a7 a8 a9 a10 a11 a12 a13 a14 a15 a16 a17 a18 = (fun _ => 1#1)) :
    ∀ i : S2x1600000.Idx, (-100000 : ℤ) ≤ (a1 i).toInt ∧ (a1 i).toInt < 100000 := by
  intro i
  haveI : Subsingleton S_.Idx := ⟨fun a b => funext fun d => d.elim0⟩
  obtain ⟨p, hp⟩ := last_conjunct a0 a1 a2 a3 a4 a5 a6 a7 a8 a9 a10 a11 a12 a13 a14 a15 a16 a17 a18
  rw [hp] at h
  have h0 : IntOp.andi (p ix0) (Host.reduce IntOp.andi (andi (cmpi .sge a1 lowBound) (cmpi .slt a1 highBound)) (constantI S_ 1 1#1)
      Gen.reducesTo_S2x1600000_S_d0_1 Gen.h_S_ ix0) = 1#1 := congrFun h ix0
  have hall := Host.reduce_andi_all _ _ _ _ ix0 (IntOp.andi_eq_one.mp h0).2 i
  exact entry_range (a1 i) hall

end Cert.Pre_finite_inputs.EdgeRange

end
-- ==== Proof.RefEdge.lean ====
import proofs.«402856_j7584912245437_1_alg».proof.Proof.Gen.ReferenceIdeal.Read
import proofs.«402856_j7584912245437_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.Stages

open Cert.ReferenceIdeal Cert.ReferenceIdeal.Gen Cert.ReferenceIdeal.Read Idealize.ShloMosaic Idealize.ShloMosaic.TcCoe
open Idealize.ShloMosaic.ValueIdx Idealize.SL.Sem

/-! The edge stage's own lemmas: each host operation of the stage read at one entry. -/
namespace Edge

/-- The left operand of the first product is read at the result's row … -/
theorem lhs_first_0 (i : S1600000x128.Idx) (q : dot_S1600000x160_S160x128_S1600000x128_1_0_0_1_n_n.contr.Idx) :
    (dot_S1600000x160_S160x128_S1600000x128_1_0_0_1_n_n.lhsIdx i q 0).val = (i 0).val := by
  unfold DotDims.lhsIdx
  rw [dif_neg (show ¬(0 : Fin S1600000x160.rank) ∈ dot_S1600000x160_S160x128_S1600000x128_1_0_0_1_n_n.lhsBatch by decide), dif_pos (show (0 : Fin S1600000x160.rank) ∈ dot_S1600000x160_S160x128_S1600000x128_1_0_0_1_n_n.lhsNonContracting by decide)]
  rfl
/-- … and at the contraction position; -/
theorem lhs_first_1 (i : S1600000x128.Idx) (q : dot_S1600000x160_S160x128_S1600000x128_1_0_0_1_n_n.contr.Idx) :
    (dot_S1600000x160_S160x128_S1600000x128_1_0_0_1_n_n.lhsIdx i q 1).val = (q ⟨0, by decide⟩).val :=
  dot_S1600000x160_S160x128_S1600000x128_1_0_0_1_n_n.lhsIdx_val_of_single rfl i q
/-- the right operand at the contraction position … -/
theorem rhs_first_0 (i : S1600000x128.Idx) (q : dot_S1600000x160_S160x128_S1600000x128_1_0_0_1_n_n.contr.Idx) :
    (dot_S1600000x160_S160x128_S1600000x128_1_0_0_1_n_n.rhsIdx i q 0).val = (q ⟨0, by decide⟩).val :=
  dot_S1600000x160_S160x128_S1600000x128_1_0_0_1_n_n.rhsIdx_val_of_single rfl i q
/-- … and at the result's column. -/
theorem rhs_first_1 (i : S1600000x128.Idx) (q : dot_S1600000x160_S160x128_S1600000x128_1_0_0_1_n_n.contr.Idx) :
    (dot_S1600000x160_S160x128_S1600000x128_1_0_0_1_n_n.rhsIdx i q 1).val = (i 1).val := by
  unfold DotDims.rhsIdx
  rw [dif_neg (show ¬(1 : Fin S160x128.rank) ∈ dot_S1600000x160_S160x128_S1600000x128_1_0_0_1_n_n.rhsBatch by decide), dif_pos (show (1 : Fin S160x128.rank) ∈ dot_S1600000x160_S160x128_S1600000x128_1_0_0_1_n_n.rhsNonContracting by decide)]
  rfl

/-- The first product read at `(e, n)`: the sum over the 160 contraction positions of row `e` of the left operand
    against column `n` of the right. -/
theorem dot_first_apply (y : FVec Ideal S1600000x160 .f32) (w : FVec Ideal S160x128 .f32) (e : Fin 1600000) (n : Fin 128) :
    Host.dotGeneral dot_S1600000x160_S160x128_S1600000x128_1_0_0_1_n_n none y w (ix2 e n) = ∑ k : Fin 160, y (ix2 e k) * w (ix2 k n) := by
  simp only [Host.dotGeneral]
  rw [Ideal.dotGeneral_apply, ← Equiv.sum_comp (contrEquiv1 dot_S1600000x160_S160x128_S1600000x128_1_0_0_1_n_n 160 rfl rfl).symm]
  refine Finset.sum_congr rfl fun k _ => ?_
  have hk := contrEquiv1_symm_val dot_S1600000x160_S160x128_S1600000x128_1_0_0_1_n_n 160 rfl rfl k
  have el : dot_S1600000x160_S160x128_S1600000x128_1_0_0_1_n_n.lhsIdx (ix2 e n) ((contrEquiv1 dot_S1600000x160_S160x128_S1600000x128_1_0_0_1_n_n 160 rfl rfl).symm k) = ix2 e k := funext fun a => Fin.ext (by
    match a with
    | ⟨0, _⟩ => exact lhs_first_0 _ _
    | ⟨1, _⟩ => exact (lhs_first_1 _ _).trans hk)
  have er : dot_S1600000x160_S160x128_S1600000x128_1_0_0_1_n_n.rhsIdx (ix2 e n) ((contrEquiv1 dot_S1600000x160_S160x128_S1600000x128_1_0_0_1_n_n 160 rfl rfl).symm k) = ix2 k n := funext fun a => Fin.ext (by
    match a with
    | ⟨0, _⟩ => exact (rhs_first_0 _ _).trans hk
    | ⟨1, _⟩ => exact rhs_first_1 _ _)
  rw [el, er]

/-- The left operand of the second product is read at the result's row … -/
theorem lhs_second_0 (i : S1600000x128.Idx) (q : dot_S1600000x128_S128x128_S1600000x128_1_0_0_1_n_n.contr.Idx) :
    (dot_S1600000x128_S128x128_S1600000x128_1_0_0_1_n_n.lhsIdx i q 0).val = (i 0).val := by
  unfold DotDims.lhsIdx
  rw [dif_neg (show ¬(0 : Fin S1600000x128.rank) ∈ dot_S1600000x128_S128x128_S1600000x128_1_0_0_1_n_n.lhsBatch by decide), dif_pos (show (0 : Fin S1600000x128.rank) ∈ dot_S1600000x128_S128x128_S1600000x128_1_0_0_1_n_n.lhsNonContracting by decide)]
  rfl
/-- … and at the contraction position; -/
theorem lhs_second_1 (i : S1600000x128.Idx) (q : dot_S1600000x128_S128x128_S1600000x128_1_0_0_1_n_n.contr.Idx) :
    (dot_S1600000x128_S128x128_S1600000x128_1_0_0_1_n_n.lhsIdx i q 1).val = (q ⟨0, by decide⟩).val :=
  dot_S1600000x128_S128x128_S1600000x128_1_0_0_1_n_n.lhsIdx_val_of_single rfl i q
/-- the right operand at the contraction position … -/
theorem rhs_second_0 (i : S1600000x128.Idx) (q : dot_S1600000x128_S128x128_S1600000x128_1_0_0_1_n_n.contr.Idx) :
    (dot_S1600000x128_S128x128_S1600000x128_1_0_0_1_n_n.rhsIdx i q 0).val = (q ⟨0, by decide⟩).val :=
  dot_S1600000x128_S128x128_S1600000x128_1_0_0_1_n_n.rhsIdx_val_of_single rfl i q
/-- … and at the result's column. -/
theorem rhs_second_1 (i : S1600000x128.Idx) (q : dot_S1600000x128_S128x128_S1600000x128_1_0_0_1_n_n.contr.Idx) :
    (dot_S1600000x128_S128x128_S1600000x128_1_0_0_1_n_n.rhsIdx i q 1).val = (i 1).val := by
  unfold DotDims.rhsIdx
  rw [dif_neg (show ¬(1 : Fin S128x128.rank) ∈ dot_S1600000x128_S128x128_S1600000x128_1_0_0_1_n_n.rhsBatch by decide), dif_pos (show (1 : Fin S128x128.rank) ∈ dot_S1600000x128_S128x128_S1600000x128_1_0_0_1_n_n.rhsNonContracting by decide)]
  rfl

/-- The second product read at `(e, n)`: the sum over the 128 contraction positions of row `e` of the left operand
    against column `n` of the right. -/
theorem dot_second_apply (y : FVec Ideal S1600000x128 .f32) (w : FVec Ideal S128x128 .f32) (e : Fin 1600000) (n : Fin 128) :
    Host.dotGeneral dot_S1600000x128_S128x128_S1600000x128_1_0_0_1_n_n none y w (ix2 e n) = ∑ k : Fin 128, y (ix2 e k) * w (ix2 k n) := by
  simp only [Host.dotGeneral]
  rw [Ideal.dotGeneral_apply, ← Equiv.sum_comp (contrEquiv1 dot_S1600000x128_S128x128_S1600000x128_1_0_0_1_n_n 128 rfl rfl).symm]
  refine Finset.sum_congr rfl fun k _ => ?_
  have hk := contrEquiv1_symm_val dot_S1600000x128_S128x128_S1600000x128_1_0_0_1_n_n 128 rfl rfl k
  have el : dot_S1600000x128_S128x128_S1600000x128_1_0_0_1_n_n.lhsIdx (ix2 e n) ((contrEquiv1 dot_S1600000x128_S128x128_S1600000x128_1_0_0_1_n_n 128 rfl rfl).symm k) = ix2 e k := funext fun a => Fin.ext (by
    match a with
    | ⟨0, _⟩ => exact lhs_second_0 _ _
    | ⟨1, _⟩ => exact (lhs_second_1 _ _).trans hk)
  have er : dot_S1600000x128_S128x128_S1600000x128_1_0_0_1_n_n.rhsIdx (ix2 e n) ((contrEquiv1 dot_S1600000x128_S128x128_S1600000x128_1_0_0_1_n_n 128 rfl rfl).symm k) = ix2 k n := funext fun a => Fin.ext (by
    match a with
    | ⟨0, _⟩ => exact (rhs_second_0 _ _).trans hk
    | ⟨1, _⟩ => exact rhs_second_1 _ _)
  rw [el, er]

/-- A bias vector broadcast to a row and then over all rows, read at `(e, n)`: the vector at `n`. -/
theorem bias_apply (b : FVec Ideal S128 .f32) (h1 : S128.BroadcastsInDim S1x128 (![1] : Fin 1 → Fin S1x128.rank))
    (h2 : S1x128.BroadcastsInDim S1600000x128 (![0, 1] : Fin 2 → Fin S1600000x128.rank)) (e : Fin 1600000) (n : Fin 128) :
    broadcastInDim S1600000x128 ![0, 1] h2 (broadcastInDim S1x128 ![1] h1 b) (ix2 e n) = b (ix1 n) := by
  refine (broadcastInDim_apply _ h2 _ (ix2 e n) (ix2 (0 : Fin 1) n) (fun a => ?_)).trans ?_
  · match a with
    | ⟨0, _⟩ => show 0 = if (1 : Nat) = 1 then 0 else e.val; rw [if_pos rfl]
    | ⟨1, _⟩ => show n.val = if (128 : Nat) = 1 then 0 else n.val; rw [if_neg (by decide)]
  · refine broadcastInDim_apply _ h1 b (ix2 (0 : Fin 1) n) (ix1 n) (fun a => ?_)
    match a with
    | ⟨0, _⟩ => show n.val = if (128 : Nat) = 1 then 0 else n.val; rw [if_neg (by decide)]

/-- The zero scalar broadcast over the whole array reads zero everywhere. -/
theorem zero_apply (h : S_.BroadcastsInDim S1600000x128 (![] : Fin 0 → Fin S1600000x128.rank)) (j : S1600000x128.Idx) :
    broadcastInDim S1600000x128 ![] h (constant (F := Ideal) S_ .f32 0x00000000#32) j = 0 := by
  show Ideal.ofBits .f32 0x00000000#32 = 0
  exact Ideal.ofBits_zero_f32

/-- The three input arrays laid side by side, read at `(e, j)`: row `e` of the first array for the first 64 columns,
    of the second for the next 64, of the third for the last 32. -/
theorem concat_apply (a b : FVec Ideal S1600000x64 .f32) (c : FVec Ideal S1600000x32 .f32)
    (h : Shape.Concatenates [S1600000x64, S1600000x64, S1600000x32] S1600000x160 1) (e : Fin 1600000) (j : Fin 160) :
    concatenate S1600000x160 1 [⟨S1600000x64, a⟩, ⟨S1600000x64, b⟩, ⟨S1600000x32, c⟩] h (ix2 e j)
      = GraphNet.cat3 (K := 160) (fun j => a (ix2 e j)) (fun j => b (ix2 e j)) (fun j => c (ix2 e j)) j := by
  unfold GraphNet.cat3
  by_cases h1 : j.val < 64
  · rw [dif_pos h1]
    refine concatenate_apply_piece 1 _ _ (ix2 e j) 0 (by show 0 < 3; decide) S1600000x64 a rfl rfl 0 rfl (ix2 e ⟨j.val, h1⟩) (fun ax hax => ?_) ?_
    · match ax with
      | ⟨0, _⟩ => rfl
      | ⟨1, _⟩ => exact absurd rfl hax
    · show 0 + j.val = j.val
      omega
  · rw [dif_neg h1]
    by_cases h2 : j.val - 64 < 64
    · rw [dif_pos h2]
      refine concatenate_apply_piece 1 _ _ (ix2 e j) 1 (by show 1 < 3; decide) S1600000x64 b rfl rfl 64 rfl (ix2 e ⟨j.val - 64, h2⟩) (fun ax hax => ?_) ?_
      · match ax with
        | ⟨0, _⟩ => rfl
        | ⟨1, _⟩ => exact absurd rfl hax
      · show 64 + (j.val - 64) = j.val
        omega
    · rw [dif_neg h2]
      have h3 : j.val - 64 - 64 < 32 := by have := j.isLt; omega
      rw [dif_pos h3]
      refine concatenate_apply_piece 1 _ _ (ix2 e j) 2 (by show 2 < 3; decide) S1600000x32 c rfl rfl 128 rfl (ix2 e ⟨j.val - 64 - 64, h3⟩) (fun ax hax => ?_) ?_
      · match ax with
        | ⟨0, _⟩ => rfl
        | ⟨1, _⟩ => exact absurd rfl hax
      · show 128 + (j.val - 64 - 64) = j.val
        omega

/-- One rectified layer on the first product, read at `(e, n)`: whatever row `e` of the left operand, the weights
    and the bias vector are known to be (`hz`, `hW`, `hB`), the result there is that row's layer output `n`. -/
theorem layer_first_apply (y : FVec Ideal S1600000x160 .f32) (w : FVec Ideal S160x128 .f32) (b : FVec Ideal S128 .f32)
    (h1 : S128.BroadcastsInDim S1x128 (![1] : Fin 1 → Fin S1x128.rank))
    (h2 : S1x128.BroadcastsInDim S1600000x128 (![0, 1] : Fin 2 → Fin S1600000x128.rank))
    (h0 : S_.BroadcastsInDim S1600000x128 (![] : Fin 0 → Fin S1600000x128.rank))
    (e : Fin 1600000) (n : Fin 128) (z : Fin 160 → EReal) (W : Fin 160 → Fin 128 → EReal) (B : Fin 128 → EReal)
    (hz : ∀ k, y (ix2 e k) = z k) (hW : ∀ k m, w (ix2 k m) = W k m) (hB : ∀ m, b (ix1 m) = B m) :
    maximumf (addf (Host.dotGeneral dot_S1600000x160_S160x128_S1600000x128_1_0_0_1_n_n none y w)
        (broadcastInDim S1600000x128 ![0, 1] h2 (broadcastInDim S1x128 ![1] h1 b)))
      (broadcastInDim S1600000x128 ![] h0 (constant (F := Ideal) S_ .f32 0x00000000#32)) (ix2 e n) = GraphNet.layer z W B n := by
  show max (Host.dotGeneral dot_S1600000x160_S160x128_S1600000x128_1_0_0_1_n_n none y w (ix2 e n)
      + broadcastInDim S1600000x128 ![0, 1] h2 (broadcastInDim S1x128 ![1] h1 b) (ix2 e n))
      (broadcastInDim S1600000x128 ![] h0 (constant (F := Ideal) S_ .f32 0x00000000#32) (ix2 e n))
    = max ((∑ j : Fin 160, z j * W j n) + B n) 0
  rw [dot_first_apply, bias_apply, zero_apply, hB n,
    Finset.sum_congr rfl fun k _ => (by rw [hz k, hW k n] : y (ix2 e k) * w (ix2 k n) = z k * W k n)]

/-- One rectified layer on the second product, read at `(e, n)`: whatever row `e` of the left operand, the weights
    and the bias vector are known to be (`hz`, `hW`, `hB`), the result there is that row's layer output `n`. -/
theorem layer_second_apply (y : FVec Ideal S1600000x128 .f32) (w : FVec Ideal S128x128 .f32) (b : FVec Ideal S128 .f32)
    (h1 : S128.BroadcastsInDim S1x128 (![1] : Fin 1 → Fin S1x128.rank))
    (h2 : S1x128.BroadcastsInDim S1600000x128 (![0, 1] : Fin 2 → Fin S1600000x128.rank))
    (h0 : S_.BroadcastsInDim S1600000x128 (![] : Fin 0 → Fin S1600000x128.rank))
    (e : Fin 1600000) (n : Fin 128) (z : Fin 128 → EReal) (W : Fin 128 → Fin 128 → EReal) (B : Fin 128 → EReal)
    (hz : ∀ k, y (ix2 e k) = z k) (hW : ∀ k m, w (ix2 k m) = W k m) (hB : ∀ m, b (ix1 m) = B m) :
    maximumf (addf (Host.dotGeneral dot_S1600000x128_S128x128_S1600000x128_1_0_0_1_n_n none y w)
        (broadcastInDim S1600000x128 ![0, 1] h2 (broadcastInDim S1x128 ![1] h1 b)))
      (broadcastInDim S1600000x128 ![] h0 (constant (F := Ideal) S_ .f32 0x00000000#32)) (ix2 e n) = GraphNet.layer z W B n := by
  show max (Host.dotGeneral dot_S1600000x128_S128x128_S1600000x128_1_0_0_1_n_n none y w (ix2 e n)
      + broadcastInDim S1600000x128 ![0, 1] h2 (broadcastInDim S1x128 ![1] h1 b) (ix2 e n))
      (broadcastInDim S1600000x128 ![] h0 (constant (F := Ideal) S_ .f32 0x00000000#32) (ix2 e n))
    = max ((∑ j : Fin 128, z j * W j n) + B n) 0
  rw [dot_second_apply, bias_apply, zero_apply, hB n,
    Finset.sum_congr rfl fun k _ => (by rw [hz k, hW k n] : y (ix2 e k) * w (ix2 k n) = z k * W k n)]

/-- The specification's whole-array function read at `(p, n)`: the two layers on row `p` of the three inputs laid end
    to end. -/
theorem stage3_apply {R A B C K : ℕ} (x : (⟨2, ![R, A]⟩ : Shape).Idx → EReal) (y : (⟨2, ![R, B]⟩ : Shape).Idx → EReal)
    (z : (⟨2, ![R, C]⟩ : Shape).Idx → EReal)
    (w₁ : (⟨2, ![K, 128]⟩ : Shape).Idx → EReal) (b₁ : (⟨2, ![1, 128]⟩ : Shape).Idx → EReal)
    (w₂ : (⟨2, ![128, 128]⟩ : Shape).Idx → EReal) (b₂ : (⟨2, ![1, 128]⟩ : Shape).Idx → EReal) (p : Fin R) (n : Fin 128) :
    GraphNet.stage3 (K := K) x y z w₁ b₁ w₂ b₂ (ix2 p n)
      = GraphNet.layer (GraphNet.layer
          (GraphNet.cat3 (K := K) (fun j => x (ix2 p j)) (fun j => y (ix2 p j)) (fun j => z (ix2 p j)))
          (fun j k => w₁ (ix2 j k)) (fun k => b₁ (ix2 0 k))) (fun k m => w₂ (ix2 k m)) (fun m => b₂ (ix2 0 m)) n := rfl

/-- The edge stage's host operations on ARBITRARY first two input arrays: concatenate, product, bias, rectifier, and
    again, read at `(e, n)`, are the specification's two layers on row `e`. -/
theorem twoLayer_apply (g1 g2 : FVec Ideal S1600000x64 .f32) (x2 : FVec Ideal S1600000x32 .f32) (x5 : FVec Ideal S160x128 .f32)
    (x6 : FVec Ideal S128 .f32) (x7 : FVec Ideal S128x128 .f32) (x8 : FVec Ideal S128 .f32)
    (hc : Shape.Concatenates [S1600000x64, S1600000x64, S1600000x32] S1600000x160 1)
    (h1 : S128.BroadcastsInDim S1x128 (![1] : Fin 1 → Fin S1x128.rank))
    (h2 : S1x128.BroadcastsInDim S1600000x128 (![0, 1] : Fin 2 → Fin S1600000x128.rank))
    (h0 : S_.BroadcastsInDim S1600000x128 (![] : Fin 0 → Fin S1600000x128.rank))
    (e : Fin 1600000) (n : Fin 128) :
    maximumf (addf (Host.dotGeneral dot_S1600000x128_S128x128_S1600000x128_1_0_0_1_n_n none
          (maximumf (addf (Host.dotGeneral dot_S1600000x160_S160x128_S1600000x128_1_0_0_1_n_n none
                (concatenate S1600000x160 1 [⟨S1600000x64, g1⟩, ⟨S1600000x64, g2⟩, ⟨S1600000x32, x2⟩] hc) x5)
              (broadcastInDim S1600000x128 ![0, 1] h2 (broadcastInDim S1x128 ![1] h1 x6)))
            (broadcastInDim S1600000x128 ![] h0 (constant (F := Ideal) S_ .f32 0x00000000#32)))
          x7)
        (broadcastInDim S1600000x128 ![0, 1] h2 (broadcastInDim S1x128 ![1] h1 x8)))
      (broadcastInDim S1600000x128 ![] h0 (constant (F := Ideal) S_ .f32 0x00000000#32)) (ix2 e n)
      = GraphNet.stage3 (K := 160) g1 g2 x2 x5 (GraphNet.biasRow x6) x7 (GraphNet.biasRow x8) (ix2 e n) := by
  rw [stage3_apply]
  refine layer_second_apply _ _ _ h1 h2 h0 e n _ _ _ (fun k => ?_) (fun k m => rfl) (fun m => rfl)
  refine layer_first_apply _ _ _ h1 h2 h0 e k _ _ _ (fun j => ?_) (fun j m => rfl) (fun m => rfl)
  exact concat_apply _ _ _ hc e j

end Edge

/-- The reference's edge stage — concatenate, two matrix products with broadcast biases, two rectifiers — is, entry by
    entry, the two rectified layers on the three gathered/attribute rows laid end to end. -/
theorem edge_eq (x0 : (⟨S100000x64, .f32⟩ : BufTy).Contents (Elt Ideal)) (x1 : (⟨S2x1600000, .i32⟩ : BufTy).Contents (Elt Ideal)) (x2 : (⟨S1600000x32, .f32⟩ : BufTy).Contents (Elt Ideal))
    (x5 : (⟨S160x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal)) :
    val_main_v28 (F := Ideal) x0 x1 x2 x5 x6 x7 x8
      = GraphNet.stage3 (K := 160) (val_main_v10 (F := Ideal) x0 x1) (val_main_v17 (F := Ideal) x0 x1) x2 x5 (GraphNet.biasRow x6) x7 (GraphNet.biasRow x8) := by
  funext i
  obtain ⟨e, n, rfl⟩ : ∃ (e : Fin 1600000) (n : Fin 128), i = ix2 e n := ⟨_, _, eq_ix2 i⟩
  unfold val_main_v28 val_main_v27 val_main_v26 val_main_v25 val_main_v24 val_main_v23 val_main_v22 val_main_v21 val_main_v20
    val_main_v19 val_main_v18 val_main_call0_v0 val_main_call0_cst val_main_call1_v0 val_main_call1_cst
  exact Edge.twoLayer_apply (val_main_v10 (F := Ideal) x0 x1) (val_main_v17 (F := Ideal) x0 x1) x2 x5 x6 x7 x8 _ _ _ _ e n

end Cert.ReferenceIdeal.Stages

end
-- ==== Proof.RefNode.lean ====
import proofs.«402856_j7584912245437_1_alg».proof.Proof.Gen.ReferenceIdeal.Read
import proofs.«402856_j7584912245437_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Stages

open Cert.ReferenceIdeal Cert.ReferenceIdeal.Gen Cert.ReferenceIdeal.Read Idealize.ShloMosaic Idealize.ShloMosaic.TcCoe
open Idealize.ShloMosaic.ValueIdx Idealize.SL.Sem

/-! ## The node stage's first contraction: a row of 192 against a column of the first weights -/

theorem node_lhsA_0 (i : S100000x128.Idx) (q : dot_S100000x192_S192x128_S100000x128_1_0_0_1_n_n.contr.Idx) :
    (dot_S100000x192_S192x128_S100000x128_1_0_0_1_n_n.lhsIdx i q 0).val = (i 0).val := by
  unfold DotDims.lhsIdx
  rw [dif_neg (show ¬(0 : Fin S100000x192.rank) ∈ dot_S100000x192_S192x128_S100000x128_1_0_0_1_n_n.lhsBatch by decide), dif_pos (show (0 : Fin S100000x192.rank) ∈ dot_S100000x192_S192x128_S100000x128_1_0_0_1_n_n.lhsNonContracting by decide)]
  rfl
theorem node_lhsA_1 (i : S100000x128.Idx) (q : dot_S100000x192_S192x128_S100000x128_1_0_0_1_n_n.contr.Idx) :
    (dot_S100000x192_S192x128_S100000x128_1_0_0_1_n_n.lhsIdx i q 1).val = (q ⟨0, by decide⟩).val :=
  dot_S100000x192_S192x128_S100000x128_1_0_0_1_n_n.lhsIdx_val_of_single rfl i q
theorem node_rhsA_0 (i : S100000x128.Idx) (q : dot_S100000x192_S192x128_S100000x128_1_0_0_1_n_n.contr.Idx) :
    (dot_S100000x192_S192x128_S100000x128_1_0_0_1_n_n.rhsIdx i q 0).val = (q ⟨0, by decide⟩).val :=
  dot_S100000x192_S192x128_S100000x128_1_0_0_1_n_n.rhsIdx_val_of_single rfl i q
theorem node_rhsA_1 (i : S100000x128.Idx) (q : dot_S100000x192_S192x128_S100000x128_1_0_0_1_n_n.contr.Idx) :
    (dot_S100000x192_S192x128_S100000x128_1_0_0_1_n_n.rhsIdx i q 1).val = (i 1).val := by
  unfold DotDims.rhsIdx
  rw [dif_neg (show ¬(1 : Fin S192x128.rank) ∈ dot_S100000x192_S192x128_S100000x128_1_0_0_1_n_n.rhsBatch by decide), dif_pos (show (1 : Fin S192x128.rank) ∈ dot_S100000x192_S192x128_S100000x128_1_0_0_1_n_n.rhsNonContracting by decide)]
  rfl

/-- The first product at row `p` and column `n`: the sum over the 192 positions. -/
theorem node_dotA_apply (y : (⟨S100000x192, .f32⟩ : BufTy).Contents (Elt Ideal)) (w : (⟨S192x128, .f32⟩ : BufTy).Contents (Elt Ideal))
    (p : Fin 100000) (n : Fin 128) :
    Host.dotGeneral (F := Ideal) (φ₁ := .f32) (φ₂ := .f32) dot_S100000x192_S192x128_S100000x128_1_0_0_1_n_n none y w (ix2 p n)
      = ∑ k : Fin 192, y (ix2 p k) * w (ix2 k n) := by
  simp only [Host.dotGeneral]
  rw [Ideal.dotGeneral_apply, ← Equiv.sum_comp (contrEquiv1 dot_S100000x192_S192x128_S100000x128_1_0_0_1_n_n 192 rfl rfl).symm]
  refine Finset.sum_congr rfl fun k _ => ?_
  have hk := contrEquiv1_symm_val dot_S100000x192_S192x128_S100000x128_1_0_0_1_n_n 192 rfl rfl k
  have el : dot_S100000x192_S192x128_S100000x128_1_0_0_1_n_n.lhsIdx (ix2 p n) ((contrEquiv1 dot_S100000x192_S192x128_S100000x128_1_0_0_1_n_n 192 rfl rfl).symm k) = ix2 p k := funext fun a => Fin.ext (by
    match a with
    | ⟨0, _⟩ => exact node_lhsA_0 _ _
    | ⟨1, _⟩ => exact (node_lhsA_1 _ _).trans hk)
  have er : dot_S100000x192_S192x128_S100000x128_1_0_0_1_n_n.rhsIdx (ix2 p n) ((contrEquiv1 dot_S100000x192_S192x128_S100000x128_1_0_0_1_n_n 192 rfl rfl).symm k) = ix2 k n := funext fun a => Fin.ext (by
    match a with
    | ⟨0, _⟩ => exact (node_rhsA_0 _ _).trans hk
    | ⟨1, _⟩ => exact node_rhsA_1 _ _)
  rw [el, er]

/-! ## The node stage's second contraction: a row of 128 against a column of the second weights -/

theorem node_lhsB_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem node_lhsB_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem node_rhsB_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem node_rhsB_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The second product at row `p` and column `n`: the sum over the 128 hidden units. -/
theorem node_dotB_apply (y : (⟨S100000x128, .f32⟩ : BufTy).Contents (Elt Ideal)) (w : (⟨S128x128, .f32⟩ : BufTy).Contents (Elt Ideal))
    (p : Fin 100000) (n : Fin 128) :
    Host.dotGeneral (F := Ideal) (φ₁ := .f32) (φ₂ := .f32) dot_S100000x128_S128x128_S100000x128_1_0_0_1_n_n none y w (ix2 p n)
      = ∑ k : Fin 128, y (ix2 p k) * w (ix2 k n) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 p n) ((contrEquiv1 dot_S100000x128_S128x128_S100000x128_1_0_0_1_n_n 128 rfl rfl).symm k) = ix2 p k := funext fun a => Fin.ext (by
    match a with
    | ⟨0, _⟩ => exact node_lhsB_0 _ _
    | ⟨1, _⟩ => exact (node_lhsB_1 _ _).trans hk)
  have er : dot_S100000x128_S128x128_S100000x128_1_0_0_1_n_n.rhsIdx (ix2 p n) ((contrEquiv1 dot_S100000x128_S128x128_S100000x128_1_0_0_1_n_n 128 rfl rfl).symm k) = ix2 k n := funext fun a => Fin.ext (by
    match a with
    | ⟨0, _⟩ => exact (node_rhsB_0 _ _).trans hk
    | ⟨1, _⟩ => exact node_rhsB_1 _ _)
  rw [el, er]

/-! ## The joined row, the bias broadcast in two steps, and the zero array -/

/-- The joined array at row `p`, position `j`: the first array's row up to 64, then the second's. -/
theorem node_cat_apply (a : (⟨S100000x64, .f32⟩ : BufTy).Contents (Elt Ideal)) (b : (⟨S100000x128, .f32⟩ : BufTy).Contents (Elt Ideal))
    (p : Fin 100000) (j : Fin 192) :
    concatenate S100000x192 1 [⟨S100000x64, a⟩, ⟨S100000x128, b⟩] concatenates_S100000x64_S100000x128_S100000x192_d1 (ix2 p j)
      = GraphNet.cat2 (K := 192) (fun c : Fin 64 => a (ix2 p c)) (fun c : Fin 128 => b (ix2 p c)) j := by
  unfold GraphNet.cat2
  by_cases h : j.val < 64
  · rw [dif_pos h]
    exact concatenate_pair_apply_left (1 : Fin S100000x192.rank) a b _ (ix2 p j) rfl (ix2 p ⟨j.val, h⟩) (fun c => by
      match c with
      | ⟨0, _⟩ => rfl
      | ⟨1, _⟩ => rfl)
  · have h' : j.val - 64 < 128 := by have := j.isLt; omega
    rw [dif_neg h, dif_pos h']
    exact concatenate_pair_apply_right (1 : Fin S100000x192.rank) a b _ (ix2 p j) rfl rfl (ix2 p ⟨j.val - 64, h'⟩) (fun c hc => by
      match c, hc with
      | ⟨0, _⟩, _ => rfl
      | ⟨1, _⟩, hc => exact absurd rfl hc)
      (by show (j.val - 64) + 64 = j.val; omega)

/-- The bias vector, made a row and then broadcast over the rows, reads the column's entry. -/
theorem node_bias_apply (b : (⟨S128, .f32⟩ : BufTy).Contents (Elt Ideal)) (p : Fin 100000) (n : Fin 128) :
    broadcastInDim S100000x128 ![0, 1] bcast_S1x128_S100000x128_0_1 (broadcastInDim S1x128 ![1] bcast_S128_S1x128_1 b) (ix2 p n)
      = b (ix1 n) := by
  refine (broadcastInDim_apply _ bcast_S1x128_S100000x128_0_1 _ (ix2 p n) (ix2 0 n) (fun a => match a with
    | ⟨0, _⟩ => by show 0 = if (1 : Nat) = 1 then 0 else p.val; rw [if_pos rfl]
    | ⟨1, _⟩ => by show n.val = if (128 : Nat) = 1 then 0 else n.val; rw [if_neg (by decide)])).trans ?_
  exact broadcastInDim_apply _ bcast_S128_S1x128_1 b (ix2 0 n) (ix1 n) (fun a => match a with
    | ⟨0, _⟩ => by show n.val = if (128 : Nat) = 1 then 0 else n.val; rw [if_neg (by decide)])

/-- The zero scalar broadcast over the array reads zero everywhere. -/
theorem node_zero_apply (p : Fin 100000) (n : Fin 128) :
    broadcastInDim S100000x128 ![] bcast_S_S100000x128 (constant (F := Ideal) S_ .f32 0x00000000#32 : (⟨S_, .f32⟩ : BufTy).Contents (Elt Ideal)) (ix2 p n)
      = (0 : EReal) := by
  refine (broadcastInDim_apply _ bcast_S_S100000x128 _ (ix2 p n) (fun a => a.elim0) (fun a => a.elim0)).trans ?_
  exact Ideal.ofBits_zero_f32

/-! ## One rectified layer of each width, and the two composed over arbitrary arrays -/

/-- The first layer at row `p`, unit `n`: the 192-position row against the weights' column, plus the bias, cut at zero. -/
theorem node_layerA_apply (y : (⟨S100000x192, .f32⟩ : BufTy).Contents (Elt Ideal)) (w : (⟨S192x128, .f32⟩ : BufTy).Contents (Elt Ideal))
    (b : (⟨S128, .f32⟩ : BufTy).Contents (Elt Ideal)) (p : Fin 100000) (n : Fin 128) :
    maximumf (addf (Host.dotGeneral (F := Ideal) (φ₁ := .f32) (φ₂ := .f32) dot_S100000x192_S192x128_S100000x128_1_0_0_1_n_n none y w)
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32)) (ix2 p n)
      = GraphNet.layer (fun k : Fin 192 => y (ix2 p k)) (fun k m => w (ix2 k m)) (fun m => b (ix1 m)) n := by
  rw [maximumf_apply, addf_apply, node_dotA_apply, node_bias_apply, node_zero_apply]
  rfl

/-- The second layer at row `p`, output `n`: the 128 hidden units against the weights' column, plus the bias, cut at zero. -/
theorem node_layerB_apply (y : (⟨S100000x128, .f32⟩ : BufTy).Contents (Elt Ideal)) (w : (⟨S128x128, .f32⟩ : BufTy).Contents (Elt Ideal))
    (b : (⟨S128, .f32⟩ : BufTy).Contents (Elt Ideal)) (p : Fin 100000) (n : Fin 128) :
    maximumf (addf (Host.dotGeneral (F := Ideal) (φ₁ := .f32) (φ₂ := .f32) dot_S100000x128_S128x128_S100000x128_1_0_0_1_n_n none y w)
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32)) (ix2 p n)
      = GraphNet.layer (fun k : Fin 128 => y (ix2 p k)) (fun k m => w (ix2 k m)) (fun m => b (ix1 m)) n := by
  rw [maximumf_apply, addf_apply, node_dotB_apply, node_bias_apply, node_zero_apply]
  rfl

/-- The whole stretch over arbitrary arrays: join, contract, add the bias, cut at zero, twice — entry by entry the two
    rectified layers on the joined row. -/
theorem node_term (a : (⟨S100000x64, .f32⟩ : BufTy).Contents (Elt Ideal)) (m : (⟨S100000x128, .f32⟩ : BufTy).Contents (Elt Ideal))
    (w1 : (⟨S192x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) :
    maximumf (addf (Host.dotGeneral (F := Ideal) (φ₁ := .f32) (φ₂ := .f32) dot_S100000x128_S128x128_S100000x128_1_0_0_1_n_n none
          (maximumf (addf (Host.dotGeneral (F := Ideal) (φ₁ := .f32) (φ₂ := .f32) dot_S100000x192_S192x128_S100000x128_1_0_0_1_n_n none
                (concatenate S100000x192 1 [⟨S100000x64, a⟩, ⟨S100000x128, m⟩] concatenates_S100000x64_S100000x128_S100000x192_d1) w1)
              (broadcastInDim S100000x128 ![0, 1] bcast_S1x128_S100000x128_0_1 (broadcastInDim S1x128 ![1] bcast_S128_S1x128_1 b1)))
            (broadcastInDim S100000x128 ![] bcast_S_S100000x128 (constant (F := Ideal) S_ .f32 0x00000000#32))) w2)
        (broadcastInDim S100000x128 ![0, 1] bcast_S1x128_S100000x128_0_1 (broadcastInDim S1x128 ![1] bcast_S128_S1x128_1 b2)))
      (broadcastInDim S100000x128 ![] bcast_S_S100000x128 (constant (F := Ideal) S_ .f32 0x00000000#32))
    = GraphNet.stage2 (K := 192) a m w1 (GraphNet.biasRow b1) w2 (GraphNet.biasRow b2) := by
  funext i
  obtain ⟨p, n, rfl⟩ : ∃ (p : Fin 100000) (n : Fin 128), i = ix2 p n := ⟨_, _, eq_ix2 i⟩
  -- the outer layer, read at (p, n)
  refine (node_layerB_apply _ _ _ p n).trans ?_
  unfold GraphNet.stage2 GraphNet.mlp
  refine congrArg (fun z => GraphNet.layer z (fun k c => w2 (ix2 k c)) (fun c => b2 (ix1 c)) n) (funext fun k => ?_)
  -- the inner layer, read at (p, k)
  refine (node_layerA_apply _ _ _ p k).trans ?_
  refine congrArg (fun z => GraphNet.layer z (fun j c => w1 (ix2 j c)) (fun c => b1 (ix1 c)) k) (funext fun j => ?_)
  -- the joined row, read at (p, j)
  exact node_cat_apply _ _ p j

/-- The reference's node stage is, entry by entry, the two rectified layers on a node's feature row followed by its
    row of summed edge messages. -/
theorem node_eq (x0 : (⟨S100000x64, .f32⟩ : BufTy).Contents (Elt Ideal)) (x1 : (⟨S2x1600000, .i32⟩ : BufTy).Contents (Elt Ideal)) (x2 : (⟨S1600000x32, .f32⟩ : BufTy).Contents (Elt Ideal))
    (x5 : (⟨S160x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
    (x9 : (⟨S192x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) :
    val_main_v42 (F := Ideal) x0 x1 x2 x5 x6 x7 x8 x9 x10 x11 x12
      = GraphNet.stage2 (K := 192) x0 (val_main_v31 (F := Ideal) x0 x1 x2 x5 x6 x7 x8) x9 (GraphNet.biasRow x10) x11 (GraphNet.biasRow x12) := by
  -- the stretch from the join to the last cut at zero, one operation at a time; the summed messages stay as they are
  unfold val_main_v42 val_main_v41 val_main_v40 val_main_v39 val_main_v38 val_main_v37 val_main_v36 val_main_v35 val_main_v34
    val_main_v33 val_main_v32 val_main_call2_v0 val_main_call2_cst val_main_call3_v0 val_main_call3_cst
  exact node_term x0 (val_main_v31 (F := Ideal) x0 x1 x2 x5 x6 x7 x8) x9 x10 x11 x12

end Cert.ReferenceIdeal.Stages

end
-- ==== Proof.RefGraph.lean ====
import proofs.«402856_j7584912245437_1_alg».proof.Proof.Gen.ReferenceIdeal.Read
import proofs.«402856_j7584912245437_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.Stages

open Cert.ReferenceIdeal Cert.ReferenceIdeal.Gen Cert.ReferenceIdeal.Read Idealize.ShloMosaic Idealize.ShloMosaic.TcCoe
open Idealize.ShloMosaic.ValueIdx Idealize.SL.Sem

/-! ## The graph stage's first contraction: a row of 144 against a column of the first weights -/

theorem graph_lhsA_0 (i : S1024x128.Idx) (q : dot_S1024x144_S144x128_S1024x128_1_0_0_1_n_n.contr.Idx) :
    (dot_S1024x144_S144x128_S1024x128_1_0_0_1_n_n.lhsIdx i q 0).val = (i 0).val := by
  unfold DotDims.lhsIdx
  rw [dif_neg (show ¬(0 : Fin S1024x144.rank) ∈ dot_S1024x144_S144x128_S1024x128_1_0_0_1_n_n.lhsBatch by decide), dif_pos (show (0 : Fin S1024x144.rank) ∈ dot_S1024x144_S144x128_S1024x128_1_0_0_1_n_n.lhsNonContracting by decide)]
  rfl
theorem graph_lhsA_1 (i : S1024x128.Idx) (q : dot_S1024x144_S144x128_S1024x128_1_0_0_1_n_n.contr.Idx) :
    (dot_S1024x144_S144x128_S1024x128_1_0_0_1_n_n.lhsIdx i q 1).val = (q ⟨0, by decide⟩).val :=
  dot_S1024x144_S144x128_S1024x128_1_0_0_1_n_n.lhsIdx_val_of_single rfl i q
theorem graph_rhsA_0 (i : S1024x128.Idx) (q : dot_S1024x144_S144x128_S1024x128_1_0_0_1_n_n.contr.Idx) :
    (dot_S1024x144_S144x128_S1024x128_1_0_0_1_n_n.rhsIdx i q 0).val = (q ⟨0, by decide⟩).val :=
  dot_S1024x144_S144x128_S1024x128_1_0_0_1_n_n.rhsIdx_val_of_single rfl i q
theorem graph_rhsA_1 (i : S1024x128.Idx) (q : dot_S1024x144_S144x128_S1024x128_1_0_0_1_n_n.contr.Idx) :
    (dot_S1024x144_S144x128_S1024x128_1_0_0_1_n_n.rhsIdx i q 1).val = (i 1).val := by
  unfold DotDims.rhsIdx
  rw [dif_neg (show ¬(1 : Fin S144x128.rank) ∈ dot_S1024x144_S144x128_S1024x128_1_0_0_1_n_n.rhsBatch by decide), dif_pos (show (1 : Fin S144x128.rank) ∈ dot_S1024x144_S144x128_S1024x128_1_0_0_1_n_n.rhsNonContracting by decide)]
  rfl

/-- The first product at row `p` and column `n`: the sum over the 144 positions. -/
theorem graph_dotA_apply (y : (⟨S1024x144, .f32⟩ : BufTy).Contents (Elt Ideal)) (w : (⟨S144x128, .f32⟩ : BufTy).Contents (Elt Ideal))
    (p : Fin 1024) (n : Fin 128) :
    Host.dotGeneral (F := Ideal) (φ₁ := .f32) (φ₂ := .f32) dot_S1024x144_S144x128_S1024x128_1_0_0_1_n_n none y w (ix2 p n)
      = ∑ k : Fin 144, y (ix2 p k) * w (ix2 k n) := by
  simp only [Host.dotGeneral]
  rw [Ideal.dotGeneral_apply, ← Equiv.sum_comp (contrEquiv1 dot_S1024x144_S144x128_S1024x128_1_0_0_1_n_n 144 rfl rfl).symm]
  refine Finset.sum_congr rfl fun k _ => ?_
  have hk := contrEquiv1_symm_val dot_S1024x144_S144x128_S1024x128_1_0_0_1_n_n 144 rfl rfl k
  have el : dot_S1024x144_S144x128_S1024x128_1_0_0_1_n_n.lhsIdx (ix2 p n) ((contrEquiv1 dot_S1024x144_S144x128_S1024x128_1_0_0_1_n_n 144 rfl rfl).symm k) = ix2 p k := funext fun a => Fin.ext (by
    match a with
    | ⟨0, _⟩ => exact graph_lhsA_0 _ _
    | ⟨1, _⟩ => exact (graph_lhsA_1 _ _).trans hk)
  have er : dot_S1024x144_S144x128_S1024x128_1_0_0_1_n_n.rhsIdx (ix2 p n) ((contrEquiv1 dot_S1024x144_S144x128_S1024x128_1_0_0_1_n_n 144 rfl rfl).symm k) = ix2 k n := funext fun a => Fin.ext (by
    match a with
    | ⟨0, _⟩ => exact (graph_rhsA_0 _ _).trans hk
    | ⟨1, _⟩ => exact graph_rhsA_1 _ _)
  rw [el, er]

/-! ## The graph stage's second contraction: a row of 128 against a column of the second weights -/

theorem graph_lhsB_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem graph_lhsB_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem graph_rhsB_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem graph_rhsB_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The second product at row `p` and column `n`: the sum over the 128 hidden units. -/
theorem graph_dotB_apply (y : (⟨S1024x128, .f32⟩ : BufTy).Contents (Elt Ideal)) (w : (⟨S128x128, .f32⟩ : BufTy).Contents (Elt Ideal))
    (p : Fin 1024) (n : Fin 128) :
    Host.dotGeneral (F := Ideal) (φ₁ := .f32) (φ₂ := .f32) dot_S1024x128_S128x128_S1024x128_1_0_0_1_n_n none y w (ix2 p n)
      = ∑ k : Fin 128, y (ix2 p k) * w (ix2 k n) := by
  simp only [Host.dotGeneral]
  rw [Ideal.dotGeneral_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p n) ((contrEquiv1 dot_S1024x128_S128x128_S1024x128_1_0_0_1_n_n 128 rfl rfl).symm k) = ix2 p k := funext fun a => Fin.ext (by
    match a with
    | ⟨0, _⟩ => exact graph_lhsB_0 _ _
    | ⟨1, _⟩ => exact (graph_lhsB_1 _ _).trans hk)
  have er : dot_S1024x128_S128x128_S1024x128_1_0_0_1_n_n.rhsIdx (ix2 p n) ((contrEquiv1 dot_S1024x128_S128x128_S1024x128_1_0_0_1_n_n 128 rfl rfl).symm k) = ix2 k n := funext fun a => Fin.ext (by
    match a with
    | ⟨0, _⟩ => exact (graph_rhsB_0 _ _).trans hk
    | ⟨1, _⟩ => exact graph_rhsB_1 _ _)
  rw [el, er]

/-! ## The joined row, the bias broadcast in two steps, and the zero array -/

/-- The joined array at row `p`, position `j`: the first array's row up to 16, then the second's. -/
theorem graph_cat_apply (a : (⟨S1024x16, .f32⟩ : BufTy).Contents (Elt Ideal)) (b : (⟨S1024x128, .f32⟩ : BufTy).Contents (Elt Ideal))
    (p : Fin 1024) (j : Fin 144) :
    concatenate S1024x144 1 [⟨S1024x16, a⟩, ⟨S1024x128, b⟩] concatenates_S1024x16_S1024x128_S1024x144_d1 (ix2 p j)
      = GraphNet.cat2 (K := 144) (fun c : Fin 16 => a (ix2 p c)) (fun c : Fin 128 => b (ix2 p c)) j := by
  unfold GraphNet.cat2
  by_cases h : j.val < 16
  · rw [dif_pos h]
    exact concatenate_pair_apply_left (1 : Fin S1024x144.rank) a b _ (ix2 p j) rfl (ix2 p ⟨j.val, h⟩) (fun c => by
      match c with
      | ⟨0, _⟩ => rfl
      | ⟨1, _⟩ => rfl)
  · have h' : j.val - 16 < 128 := by have := j.isLt; omega
    rw [dif_neg h, dif_pos h']
    exact concatenate_pair_apply_right (1 : Fin S1024x144.rank) a b _ (ix2 p j) rfl rfl (ix2 p ⟨j.val - 16, h'⟩) (fun c hc => by
      match c, hc with
      | ⟨0, _⟩, _ => rfl
      | ⟨1, _⟩, hc => exact absurd rfl hc)
      (by show (j.val - 16) + 16 = j.val; omega)

/-- The bias vector, made a row and then broadcast over the rows, reads the column's entry. -/
theorem graph_bias_apply (b : (⟨S128, .f32⟩ : BufTy).Contents (Elt Ideal)) (p : Fin 1024) (n : Fin 128) :
    broadcastInDim S1024x128 ![0, 1] bcast_S1x128_S1024x128_0_1 (broadcastInDim S1x128 ![1] bcast_S128_S1x128_1 b) (ix2 p n)
      = b (ix1 n) := by
  refine (broadcastInDim_apply _ bcast_S1x128_S1024x128_0_1 _ (ix2 p n) (ix2 0 n) (fun a => match a with
    | ⟨0, _⟩ => by show 0 = if (1 : Nat) = 1 then 0 else p.val; rw [if_pos rfl]
    | ⟨1, _⟩ => by show n.val = if (128 : Nat) = 1 then 0 else n.val; rw [if_neg (by decide)])).trans ?_
  exact broadcastInDim_apply _ bcast_S128_S1x128_1 b (ix2 0 n) (ix1 n) (fun a => match a with
    | ⟨0, _⟩ => by show n.val = if (128 : Nat) = 1 then 0 else n.val; rw [if_neg (by decide)])

/-- The zero scalar broadcast over the array reads zero everywhere. -/
theorem graph_zero_apply (p : Fin 1024) (n : Fin 128) :
    broadcastInDim S1024x128 ![] bcast_S_S1024x128 (constant (F := Ideal) S_ .f32 0x00000000#32 : (⟨S_, .f32⟩ : BufTy).Contents (Elt Ideal)) (ix2 p n)
      = (0 : EReal) := by
  refine (broadcastInDim_apply _ bcast_S_S1024x128 _ (ix2 p n) (fun a => a.elim0) (fun a => a.elim0)).trans ?_
  exact Ideal.ofBits_zero_f32

/-! ## One rectified layer of each width, and the two composed over arbitrary arrays -/

/-- The first layer at row `p`, unit `n`: the 144-position row against the weights' column, plus the bias, cut at zero. -/
theorem graph_layerA_apply (y : (⟨S1024x144, .f32⟩ : BufTy).Contents (Elt Ideal)) (w : (⟨S144x128, .f32⟩ : BufTy).Contents (Elt Ideal))
    (b : (⟨S128, .f32⟩ : BufTy).Contents (Elt Ideal)) (p : Fin 1024) (n : Fin 128) :
    maximumf (addf (Host.dotGeneral (F := Ideal) (φ₁ := .f32) (φ₂ := .f32) dot_S1024x144_S144x128_S1024x128_1_0_0_1_n_n none y w)
        (broadcastInDim S1024x128 ![0, 1] bcast_S1x128_S1024x128_0_1 (broadcastInDim S1x128 ![1] bcast_S128_S1x128_1 b)))
      (broadcastInDim S1024x128 ![] bcast_S_S1024x128 (constant (F := Ideal) S_ .f32 0x00000000#32)) (ix2 p n)
      = GraphNet.layer (fun k : Fin 144 => y (ix2 p k)) (fun k m => w (ix2 k m)) (fun m => b (ix1 m)) n := by
  rw [maximumf_apply, addf_apply, graph_dotA_apply, graph_bias_apply, graph_zero_apply]
  rfl

/-- The second layer at row `p`, output `n`: the 128 hidden units against the weights' column, plus the bias, cut at zero. -/
theorem graph_layerB_apply (y : (⟨S1024x128, .f32⟩ : BufTy).Contents (Elt Ideal)) (w : (⟨S128x128, .f32⟩ : BufTy).Contents (Elt Ideal))
    (b : (⟨S128, .f32⟩ : BufTy).Contents (Elt Ideal)) (p : Fin 1024) (n : Fin 128) :
    maximumf (addf (Host.dotGeneral (F := Ideal) (φ₁ := .f32) (φ₂ := .f32) dot_S1024x128_S128x128_S1024x128_1_0_0_1_n_n none y w)
        (broadcastInDim S1024x128 ![0, 1] bcast_S1x128_S1024x128_0_1 (broadcastInDim S1x128 ![1] bcast_S128_S1x128_1 b)))
      (broadcastInDim S1024x128 ![] bcast_S_S1024x128 (constant (F := Ideal) S_ .f32 0x00000000#32)) (ix2 p n)
      = GraphNet.layer (fun k : Fin 128 => y (ix2 p k)) (fun k m => w (ix2 k m)) (fun m => b (ix1 m)) n := by
  rw [maximumf_apply, addf_apply, graph_dotB_apply, graph_bias_apply, graph_zero_apply]
  rfl

/-- The whole stretch over arbitrary arrays: join, contract, add the bias, cut at zero, twice — entry by entry the two
    rectified layers on the joined row. -/
theorem graph_term (a : (⟨S1024x16, .f32⟩ : BufTy).Contents (Elt Ideal)) (m : (⟨S1024x128, .f32⟩ : BufTy).Contents (Elt Ideal))
    (w1 : (⟨S144x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal)) :
    maximumf (addf (Host.dotGeneral (F := Ideal) (φ₁ := .f32) (φ₂ := .f32) dot_S1024x128_S128x128_S1024x128_1_0_0_1_n_n none
          (maximumf (addf (Host.dotGeneral (F := Ideal) (φ₁ := .f32) (φ₂ := .f32) dot_S1024x144_S144x128_S1024x128_1_0_0_1_n_n none
                (concatenate S1024x144 1 [⟨S1024x16, a⟩, ⟨S1024x128, m⟩] concatenates_S1024x16_S1024x128_S1024x144_d1) w1)
              (broadcastInDim S1024x128 ![0, 1] bcast_S1x128_S1024x128_0_1 (broadcastInDim S1x128 ![1] bcast_S128_S1x128_1 b1)))
            (broadcastInDim S1024x128 ![] bcast_S_S1024x128 (constant (F := Ideal) S_ .f32 0x00000000#32))) w2)
        (broadcastInDim S1024x128 ![0, 1] bcast_S1x128_S1024x128_0_1 (broadcastInDim S1x128 ![1] bcast_S128_S1x128_1 b2)))
      (broadcastInDim S1024x128 ![] bcast_S_S1024x128 (constant (F := Ideal) S_ .f32 0x00000000#32))
    = GraphNet.stage2 (K := 144) a m w1 (GraphNet.biasRow b1) w2 (GraphNet.biasRow b2) := by
  funext i
  obtain ⟨p, n, rfl⟩ : ∃ (p : Fin 1024) (n : Fin 128), i = ix2 p n := ⟨_, _, eq_ix2 i⟩
  -- the outer layer, read at (p, n)
  refine (graph_layerB_apply _ _ _ p n).trans ?_
  unfold GraphNet.stage2 GraphNet.mlp
  refine congrArg (fun z => GraphNet.layer z (fun k c => w2 (ix2 k c)) (fun c => b2 (ix1 c)) n) (funext fun k => ?_)
  -- the inner layer, read at (p, k)
  refine (graph_layerA_apply _ _ _ p k).trans ?_
  refine congrArg (fun z => GraphNet.layer z (fun j c => w1 (ix2 j c)) (fun c => b1 (ix1 c)) k) (funext fun j => ?_)
  -- the joined row, read at (p, j)
  exact graph_cat_apply _ _ p j

/-- The reference's graph stage is, entry by entry, the two rectified layers on a graph's feature row followed by its
    row of summed node states. -/
theorem graph_eq (x0 : (⟨S100000x64, .f32⟩ : BufTy).Contents (Elt Ideal)) (x1 : (⟨S2x1600000, .i32⟩ : BufTy).Contents (Elt Ideal)) (x2 : (⟨S1600000x32, .f32⟩ : BufTy).Contents (Elt Ideal)) (x3 : (⟨S1024x16, .f32⟩ : BufTy).Contents (Elt Ideal)) (x4 : (⟨S100000, .i32⟩ : BufTy).Contents (Elt Ideal))
    (x5 : (⟨S160x128, .f32⟩ : BufTy).Contents (Elt Ideal)) (x6 : (⟨S128, .f32⟩ : BufTy).Contents (Elt Ideal)) (x7 : (⟨S128x128, .f32⟩ : BufTy).Contents (Elt Ideal)) (x8 : (⟨S128, .f32⟩ : BufTy).Contents (Elt Ideal))
    (x9 : (⟨S192x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal))
    (x13 : (⟨S144x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) :
    val_main_v56 (F := Ideal) x0 x1 x2 x3 x4 x5 x6 x7 x8 x9 x10 x11 x12 x13 x14 x15 x16
      = GraphNet.stage2 (K := 144) x3 (val_main_v45 (F := Ideal) x0 x1 x2 x4 x5 x6 x7 x8 x9 x10 x11 x12) x13 (GraphNet.biasRow x14) x15 (GraphNet.biasRow x16) := by
  -- the stretch from the join to the last cut at zero, one operation at a time; the summed node states stay as they are
  unfold val_main_v56 val_main_v55 val_main_v54 val_main_v53 val_main_v52 val_main_v51 val_main_v50 val_main_v49 val_main_v48
    val_main_v47 val_main_v46 val_main_call4_v0 val_main_call4_cst val_main_call5_v0 val_main_call5_cst
  exact graph_term x3 (val_main_v45 (F := Ideal) x0 x1 x2 x4 x5 x6 x7 x8 x9 x10 x11 x12) x13 x14 x15 x16

end Cert.ReferenceIdeal.Stages

end
-- ==== Proof.Same.lean ====
import proofs.«402856_j7584912245437_1_alg».proof.Proof.KValue
import proofs.«402856_j7584912245437_1_alg».proof.Proof.RefEdge
import proofs.«402856_j7584912245437_1_alg».proof.Proof.RefNode
import proofs.«402856_j7584912245437_1_alg».proof.Proof.RefGraph

set_option maxRecDepth 16384

noncomputable section

namespace Cert.Proof.Bridge

open Idealize.ShloMosaic Idealize.ShloMosaic.TcCoe
open Cert.KernelIdeal Cert.KernelIdeal.Gen
open Cert.KernelIdeal.Glue Cert.ReferenceIdeal.Read Cert.ReferenceIdeal.Stages Idealize.ShloMosaic.ValueIdx

/-- A bias vector cast to a row is the row that reads the vector at the column. -/
theorem biasOf_eq (b : FVec Ideal S128 .f32) : biasOf b = GraphNet.biasRow b := by
  funext i
  obtain ⟨u, n, rfl⟩ : ∃ (u : Fin 1) (n : Fin 128), i = ix2 u n := ⟨_, _, eq_ix2 i⟩
  exact shapeCast_a_1a_apply b _ u n

set_option maxHeartbeats 400000 in
/-- Both programs take the edges' source nodes from row 0 of the edge list … -/
theorem srcOf_eq (a1 : IVec S2x1600000 32) : srcOf a1 = val_main_v1 (F := Ideal) a1 := rfl
set_option maxHeartbeats 400000 in
/-- … and their destination nodes from row 1. -/
theorem dstOf_eq (a1 : IVec S2x1600000 32) : dstOf a1 = val_main_v3 (F := Ideal) a1 := rfl

set_option maxHeartbeats 400000 in
/-- Both programs wrap a negative node index the same way, and gather the node rows at the wrapped sources … -/
theorem gather_src_eq (a0 : FVec Ideal S100000x64 .f32) (a1 : IVec S2x1600000 32) :
    gatherRows (F := Ideal) a0 (srcOf a1) = val_main_v10 (F := Ideal) a0 a1 := rfl
set_option maxHeartbeats 400000 in
/-- … and at the wrapped destinations. -/
theorem gather_dst_eq (a0 : FVec Ideal S100000x64 .f32) (a1 : IVec S2x1600000 32) :
    gatherRows (F := Ideal) a0 (dstOf a1) = val_main_v17 (F := Ideal) a0 a1 := rfl

/-- The edge stage: both programs' edge arrays are the two layers on the same gathered rows. -/
theorem edgeOut_eq (a0 : FVec Ideal S100000x64 .f32) (a1 : IVec S2x1600000 32) (a2 : FVec Ideal S1600000x32 .f32)
    (a5 : FVec Ideal S160x128 .f32) (a6 : FVec Ideal S128 .f32) (a7 : FVec Ideal S128x128 .f32) (a8 : FVec Ideal S128 .f32) :
    edgeOut a0 a1 a2 a5 a6 a7 a8 = val_main_v28 (F := Ideal) a0 a1 a2 a5 a6 a7 a8 := by
  rw [edge_eq]
  unfold edgeOut
  rw [gather_src_eq, gather_dst_eq, biasOf_eq, biasOf_eq]

set_option maxHeartbeats 400000 in
/-- The first scatter-add — into zeros, at the destination column — is the same operation in both programs,
    whatever array is added. -/
theorem scatter_edges_same (a1 : IVec S2x1600000 32) (u : FVec Ideal S1600000x128 .f32) :
    Host.scatterAdd (F := Ideal) scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 (dstOf a1)) u
      = Host.scatterAdd (F := Ideal) Cert.ReferenceIdeal.scatter_S100000x128_S1600000x1_S1600000x128_1_0_0_1
        (val_main_v29 (F := Ideal)) (val_main_v30 (F := Ideal) a1) u := rfl

/-- So the edge results summed at their destination nodes agree. -/
theorem edgeSum_eq (a0 : FVec Ideal S100000x64 .f32) (a1 : IVec S2x1600000 32) (a2 : FVec Ideal S1600000x32 .f32)
    (a5 : FVec Ideal S160x128 .f32) (a6 : FVec Ideal S128 .f32) (a7 : FVec Ideal S128x128 .f32) (a8 : FVec Ideal S128 .f32) :
    edgeSum a0 a1 a2 a5 a6 a7 a8 = val_main_v31 (F := Ideal) a0 a1 a2 a5 a6 a7 a8 := by
  unfold edgeSum val_main_v31
  rw [edgeOut_eq]
  exact scatter_edges_same a1 _

/-- The node stage: the two layers on the same node rows and the same summed edge results. -/
theorem nodeOut_eq (a0 : FVec Ideal S100000x64 .f32) (a1 : IVec S2x1600000 32) (a2 : FVec Ideal S1600000x32 .f32)
    (a5 : FVec Ideal S160x128 .f32) (a6 : FVec Ideal S128 .f32) (a7 : FVec Ideal S128x128 .f32) (a8 : FVec Ideal S128 .f32)
    (a9 : FVec Ideal S192x128 .f32) (a10 : FVec Ideal S128 .f32) (a11 : FVec Ideal S128x128 .f32) (a12 : FVec Ideal S128 .f32) :
    nodeOut a0 a1 a2 a5 a6 a7 a8 a9 a10 a11 a12 = val_main_v42 (F := Ideal) a0 a1 a2 a5 a6 a7 a8 a9 a10 a11 a12 := by
  rw [node_eq]
  unfold nodeOut
  rw [edgeSum_eq, biasOf_eq, biasOf_eq]

set_option maxHeartbeats 400000 in
/-- The second scatter-add — into zeros, at the graph-index column — is the same operation in both programs. -/
theorem scatter_nodes_same (a4 : IVec S100000 32) (u : FVec Ideal S100000x128 .f32) :
    Host.scatterAdd (F := Ideal) scatter_S1024x128_S100000x1_S100000x128_1_0_0_1
        (broadcastInDim S1024x128 ![] bcast_S_S1024x128 (constant (F := Ideal) S_ .f32 0x00000000#32))
        (broadcastInDim S100000x1 ![0] bcast_S100000_S100000x1_0 a4) u
      = Host.scatterAdd (F := Ideal) Cert.ReferenceIdeal.scatter_S1024x128_S100000x1_S100000x128_1_0_0_1
        (val_main_v43 (F := Ideal)) (val_main_v44 (F := Ideal) a4) u := rfl

/-- So the node results summed per graph agree. -/
theorem nodeSum_eq (a0 : FVec Ideal S100000x64 .f32) (a1 : IVec S2x1600000 32) (a2 : FVec Ideal S1600000x32 .f32) (a3 : FVec Ideal S1024x16 .f32)
    (a4 : IVec S100000 32) (a5 : FVec Ideal S160x128 .f32) (a6 : FVec Ideal S128 .f32) (a7 : FVec Ideal S128x128 .f32) (a8 : FVec Ideal S128 .f32)
    (a9 : FVec Ideal S192x128 .f32) (a10 : FVec Ideal S128 .f32) (a11 : FVec Ideal S128x128 .f32) (a12 : FVec Ideal S128 .f32) :
    nodeSum a0 a1 a2 a3 a4 a5 a6 a7 a8 a9 a10 a11 a12 = val_main_v45 (F := Ideal) a0 a1 a2 a4 a5 a6 a7 a8 a9 a10 a11 a12 := by
  unfold nodeSum val_main_v45
  rw [nodeOut_eq]
  exact scatter_nodes_same a4 _

/-- The graph stage: the two layers on the same graph rows and the same summed node results. -/
theorem graphOut_eq (a0 : FVec Ideal S100000x64 .f32) (a1 : IVec S2x1600000 32) (a2 : FVec Ideal S1600000x32 .f32) (a3 : FVec Ideal S1024x16 .f32)
    (a4 : IVec S100000 32) (a5 : FVec Ideal S160x128 .f32) (a6 : FVec Ideal S128 .f32) (a7 : FVec Ideal S128x128 .f32) (a8 : FVec Ideal S128 .f32)
    (a9 : FVec Ideal S192x128 .f32) (a10 : FVec Ideal S128 .f32) (a11 : FVec Ideal S128x128 .f32) (a12 : FVec Ideal S128 .f32)
    (a13 : FVec Ideal S144x128 .f32) (a14 : FVec Ideal S128 .f32) (a15 : FVec Ideal S128x128 .f32) (a16 : FVec Ideal S128 .f32) :
    graphOut a0 a1 a2 a3 a4 a5 a6 a7 a8 a9 a10 a11 a12 a13 a14 a15 a16
      = val_main_v56 (F := Ideal) a0 a1 a2 a3 a4 a5 a6 a7 a8 a9 a10 a11 a12 a13 a14 a15 a16 := by
  rw [graph_eq]
  unfold graphOut
  rw [nodeSum_eq, biasOf_eq, biasOf_eq]

set_option maxHeartbeats 400000 in
/-- The last affine map — product with the weight column, the broadcast bias, the cast to a vector — is the same
    operation in both programs, whatever array it is applied to. -/
theorem final_same (g : FVec Ideal S1024x128 .f32) (a17 : FVec Ideal S128x1 .f32) (a18 : FVec Ideal S1 .f32) :
    (shapeCast _ (addf (Host.dotGeneral (F := Ideal) (φ₁ := .f32) (φ₂ := .f32) dot_S1024x128_S128x1_S1024x1_1_0_0_1_n_n none g a17)
        (broadcastInDim S1024x1 ![0, 1] bcast_S1x1_S1024x1_0_1 (broadcastInDim S1x1 ![1] bcast_S1_S1x1_1 a18))) shapeCasts_S1024x1_S1024
      : FVec Ideal S1024 .f32)
      = shapeCast _ (addf (Host.dotGeneral (F := Ideal) (φ₁ := .f32) (φ₂ := .f32) Cert.ReferenceIdeal.dot_S1024x128_S128x1_S1024x1_1_0_0_1_n_n none g a17)
          (val_main_v59 (F := Ideal) a18)) Cert.ReferenceIdeal.Gen.shapeCasts_S1024x1_S1024 := rfl

/-- The kernel program's function of the nineteen argument arrays is the reference's: stage by stage the reference's
    operations are the same two rectified layers on rows, and between the stages both programs apply the same gathers,
    scatter-adds and final affine map to equal arrays. -/
theorem result_eq (a0 : FVec Ideal S100000x64 .f32) (a1 : IVec S2x1600000 32) (a2 : FVec Ideal S1600000x32 .f32) (a3 : FVec Ideal S1024x16 .f32)
    (a4 : IVec S100000 32) (a5 : FVec Ideal S160x128 .f32) (a6 : FVec Ideal S128 .f32) (a7 : FVec Ideal S128x128 .f32) (a8 : FVec Ideal S128 .f32)
    (a9 : FVec Ideal S192x128 .f32) (a10 : FVec Ideal S128 .f32) (a11 : FVec Ideal S128x128 .f32) (a12 : FVec Ideal S128 .f32)
    (a13 : FVec Ideal S144x128 .f32) (a14 : FVec Ideal S128 .f32) (a15 : FVec Ideal S128x128 .f32) (a16 : FVec Ideal S128 .f32)
    (a17 : FVec Ideal S128x1 .f32) (a18 : FVec Ideal S1 .f32) :
    Cert.KernelIdeal.Glue.result a0 a1 a2 a3 a4 a5 a6 a7 a8 a9 a10 a11 a12 a13 a14 a15 a16 a17 a18
      = Cert.ReferenceIdeal.Read.val_main_v61 (F := Ideal) a0 a1 a2 a3 a4 a5 a6 a7 a8 a9 a10 a11 a12 a13 a14 a15 a16 a17 a18 := by
  unfold Cert.KernelIdeal.Glue.result Cert.ReferenceIdeal.Read.val_main_v61 val_main_v60 val_main_v57
  rw [graphOut_eq]
  exact final_same _ a17 a18

end Cert.Proof.Bridge

end
-- ==== Proof.lean ====
/-
  The certificate of a three-stage graph network kernel against its reference.

  Both programs compute, for a graph batch with 100000 nodes, 1600000 edges and 1024 graphs: on every edge two rectified
  affine layers of its two end nodes' rows and its attribute row; on every node the same of its row and the sum of the edge
  results arriving at it; on every graph the same of its row and the sum of its nodes' results; then one affine map to a
  number per graph. The kernel program runs the three stages as tiled regions and keeps the gathers, the sums and the last
  map on the host; the reference is all host operations. Over the extended reals the two agree, operation for operation:
  a change of float format is the identity, a product into a zero accumulator is the plain sum of products, and a block of
  rows of a stage's result is the stage's function of the same block of rows of its inputs. The one place the programs
  differ is the row lookup outside the index range (the kernel fills, the reference clamps); the precondition keeps every
  index in the range where the reference's own lookup is in range, and there the two lookups are the same gather.

  The three frames: the two kernel programs' are their generated frame certificates; the reference's is its run with
  the result forgotten. The idealization changed no operation, so its claim is trivial. The value claim: the kernel
  program's run ends with every buffer at the fold through its segments (KRun), that fold at the result buffer is the
  program's closed form (KFold, over the three stage theorems), the closed form is the reference's term (Same), and the
  reference's run ends at that term.
-/
import proofs.«402856_j7584912245437_1_alg».proof.Defs
import proofs.«402856_j7584912245437_1_alg».proof.Proof.Gen.Kernel
import proofs.«402856_j7584912245437_1_alg».proof.Proof.Gen.Kernel.Frame
import proofs.«402856_j7584912245437_1_alg».proof.Proof.Gen.KernelIdeal
import proofs.«402856_j7584912245437_1_alg».proof.Proof.Gen.KernelIdeal.Frame
import proofs.«402856_j7584912245437_1_alg».proof.Proof.Gen.ReferenceIdeal
import proofs.«402856_j7584912245437_1_alg».proof.Proof.Gen.ReferenceIdeal.Run
import proofs.«402856_j7584912245437_1_alg».proof.Proof.Gen.ReferenceIdeal.Read
import proofs.«402856_j7584912245437_1_alg».proof.Proof.Gen.Pre_finite_inputs
import proofs.«402856_j7584912245437_1_alg».proof.Proof.KRun
import proofs.«402856_j7584912245437_1_alg».proof.Proof.KFold
import proofs.«402856_j7584912245437_1_alg».proof.Proof.PreIdx
import proofs.«402856_j7584912245437_1_alg».proof.Proof.Same
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference is a host program: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

set_option maxHeartbeats 8000000 in
/-- The two idealized programs end with equal results: both at the kernel program's closed form of the arguments. -/
theorem algebraic : Cert.algebraic_KernelIdeal_ReferenceIdeal := by
  intro m ρ m' ρ' hpre hagree
  have he : ∀ (c : Dev Cert.KernelIdeal.nD) (i : Cert.KernelIdeal.S2x1600000.Idx),
      (-100000 : ℤ) ≤ ((m ((c.tc : Thread Cert.KernelIdeal.nD Cert.KernelIdeal.τ).loc Cert.KernelIdeal.main_arg1)) i).toInt ∧ ((m ((c.tc : Thread Cert.KernelIdeal.nD Cert.KernelIdeal.τ).loc Cert.KernelIdeal.main_arg1)) i).toInt < 100000 :=
    fun c => Cert.Pre_finite_inputs.EdgeRange.edge_index_range (F := Ideal) _ _ _ _ _ _ _ _ _ _ _ _ _ _ _ _ _ _ _ (hpre c)
  refine ⟨fun c => Cert.KernelIdeal.Glue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · refine (θ_run Cert.KernelIdeal.defs _ _).mono (fun r h c => ?_) (Cert.KernelIdeal.WholeRun.run (F := Ideal) m ρ)
    exact ⟨(h c _ (Cert.KernelIdeal.Gen.mem_uc Cert.KernelIdeal.main_v25 (by decide))).trans (Cert.KernelIdeal.Glue.kernel_value m ρ he c),
      (h c _ (Cert.KernelIdeal.Gen.mem_uc Cert.KernelIdeal.main_arg0 (by decide))).trans (Cert.KernelIdeal.Gen.W10_main_arg0 m ρ c),
      (h c _ (Cert.KernelIdeal.Gen.mem_uc Cert.KernelIdeal.main_arg1 (by decide))).trans (Cert.KernelIdeal.Gen.W10_main_arg1 m ρ c),
      (h c _ (Cert.KernelIdeal.Gen.mem_uc Cert.KernelIdeal.main_arg2 (by decide))).trans (Cert.KernelIdeal.Gen.W10_main_arg2 m ρ c),
      (h c _ (Cert.KernelIdeal.Gen.mem_uc Cert.KernelIdeal.main_arg3 (by decide))).trans (Cert.KernelIdeal.Gen.W10_main_arg3 m ρ c),
      (h c _ (Cert.KernelIdeal.Gen.mem_uc Cert.KernelIdeal.main_arg4 (by decide))).trans (Cert.KernelIdeal.Gen.W10_main_arg4 m ρ c),
      (h c _ (Cert.KernelIdeal.Gen.mem_uc Cert.KernelIdeal.main_arg5 (by decide))).trans (Cert.KernelIdeal.Gen.W10_main_arg5 m ρ c),
      (h c _ (Cert.KernelIdeal.Gen.mem_uc Cert.KernelIdeal.main_arg6 (by decide))).trans (Cert.KernelIdeal.Gen.W10_main_arg6 m ρ c),
      (h c _ (Cert.KernelIdeal.Gen.mem_uc Cert.KernelIdeal.main_arg7 (by decide))).trans (Cert.KernelIdeal.Gen.W10_main_arg7 m ρ c),
      (h c _ (Cert.KernelIdeal.Gen.mem_uc Cert.KernelIdeal.main_arg8 (by decide))).trans (Cert.KernelIdeal.Gen.W10_main_arg8 m ρ c),
      (h c _ (Cert.KernelIdeal.Gen.mem_uc Cert.KernelIdeal.main_arg9 (by decide))).trans (Cert.KernelIdeal.Gen.W10_main_arg9 m ρ c),
      (h c _ (Cert.KernelIdeal.Gen.mem_uc Cert.KernelIdeal.main_arg10 (by decide))).trans (Cert.KernelIdeal.Gen.W10_main_arg10 m ρ c),
      (h c _ (Cert.KernelIdeal.Gen.mem_uc Cert.KernelIdeal.main_arg11 (by decide))).trans (Cert.KernelIdeal.Gen.W10_main_arg11 m ρ c),
      (h c _ (Cert.KernelIdeal.Gen.mem_uc Cert.KernelIdeal.main_arg12 (by decide))).trans (Cert.KernelIdeal.Gen.W10_main_arg12 m ρ c),
      (h c _ (Cert.KernelIdeal.Gen.mem_uc Cert.KernelIdeal.main_arg13 (by decide))).trans (Cert.KernelIdeal.Gen.W10_main_arg13 m ρ c),
      (h c _ (Cert.KernelIdeal.Gen.mem_uc Cert.KernelIdeal.main_arg14 (by decide))).trans (Cert.KernelIdeal.Gen.W10_main_arg14 m ρ c),
      (h c _ (Cert.KernelIdeal.Gen.mem_uc Cert.KernelIdeal.main_arg15 (by decide))).trans (Cert.KernelIdeal.Gen.W10_main_arg15 m ρ c),
      (h c _ (Cert.KernelIdeal.Gen.mem_uc Cert.KernelIdeal.main_arg16 (by decide))).trans (Cert.KernelIdeal.Gen.W10_main_arg16 m ρ c),
      (h c _ (Cert.KernelIdeal.Gen.mem_uc Cert.KernelIdeal.main_arg17 (by decide))).trans (Cert.KernelIdeal.Gen.W10_main_arg17 m ρ c),
      (h c _ (Cert.KernelIdeal.Gen.mem_uc Cert.KernelIdeal.main_arg18 (by decide))).trans (Cert.KernelIdeal.Gen.W10_main_arg18 m ρ c)⟩
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15, h16, h17, h18⟩ := hagree c
    rw [Cert.ReferenceIdeal.Read.val_main_v61_eq, h0, h1, h2, h3, h4, h5, h6, h7, h8, h9, h10, h11, h12, h13, h14, h15, h16, h17, h18]
    exact (Cert.Proof.Bridge.result_eq _ _ _ _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
